-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1000000 : Shape := ⟨2, ![2, 1000000]⟩
abbrev S1000000x16 : Shape := ⟨2, ![1000000, 16]⟩
abbrev S100000 : Shape := ⟨1, ![100000]⟩
abbrev S32x64 : Shape := ⟨2, ![32, 64]⟩
abbrev S64 : Shape := ⟨1, ![64]⟩
abbrev S64x64 : Shape := ⟨2, ![64, 64]⟩
abbrev S16x64 : Shape := ⟨2, ![16, 64]⟩
abbrev S3x64x64 : Shape := ⟨3, ![3, 64, 64]⟩
abbrev S3x64 : Shape := ⟨2, ![3, 64]⟩
abbrev S_ : Shape := ⟨0, ![]⟩
abbrev S1x1000000 : Shape := ⟨2, ![1, 1000000]⟩
abbrev S1000000 : Shape := ⟨1, ![1000000]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1000000x16 : S_.BroadcastsInDim S1000000x16 (![] : Fin 0 → Fin S1000000x16.rank)
  reducesTo_S1000000x16_S_d0_1 : S1000000x16.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S16x64 : S_.BroadcastsInDim S16x64 (![] : Fin 0 → Fin S16x64.rank)
  reducesTo_S16x64_S_d0_1 : S16x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  reducesTo_S1000000_S_d0 : S1000000.ReducesTo [0] S_

variable [Facts]

def fn_part5 {F : FTy → Type} [FloatOps F] (main_arg1 : IVec S2x1000000 32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : IVec S1x1000000 32 := (extractStridedSlice S1x1000000 ![0, 0] · slices_S2x1000000_S1x1000000_0_0) main_arg1
  let main_v90 : IVec S1000000 32 := shapeCast S1000000 main_v89 shapeCasts_S1x1000000_S1000000
  let main_c_34 : IVec S_ 32 := constantI S_ 32 4294867296#32
  let main_v91 : IVec S1000000 32 := broadcastInDim S1000000 ![] bcast_S_S1000000 main_c_34
  let main_v92 : IVec S1000000 1 := cmpi .sge main_v90 main_v91
  let main_c_35 : IVec S_ 1 := constantI S_ 1 1#1
  let main_v93 : IVec S_ 1 := (fun x v => Host.reduce IntOp.andi x v reducesTo_S1000000_S_d0 h_S_) main_v92 main_c_35
  let main_v94 : IVec S_ 1 := andi main_v88 main_v93
  let main_v95 : IVec S1x1000000 32 := (extractStridedSlice S1x1000000 ![0, 0] · slices_S2x1000000_S1x1000000_0_0) main_arg1
  let main_v96 : IVec S1000000 32 := shapeCast S1000000 main_v95 shapeCasts_S1x1000000_S1000000
  let main_c_36 : IVec S_ 32 := constantI S_ 32 100000#32
  let main_v97 : IVec S1000000 32 := broadcastInDim S1000000 ![] bcast_S_S1000000 main_c_36
  let main_v98 : IVec S1000000 1 := cmpi .slt main_v96 main_v97
  let main_c_37 : IVec S_ 1 := constantI S_ 1 1#1
  let main_v99 : IVec S_ 1 := (fun x v => Host.reduce IntOp.andi x v reducesTo_S1000000_S_d0 h_S_) main_v98 main_c_37
  let main_v100 : IVec S_ 1 := andi main_v94 main_v99
  main_v100

def fn_part4 {F : FTy → Type} [FloatOps F] (main_arg1 : IVec S2x1000000 32) (main_arg16 : FVec F S64x64 .f32) (main_arg17 : FVec F S64 .f32) (main_arg18 : FVec F S64x64 .f32) (main_arg19 : FVec F S64 .f32) (main_v63 : IVec S_ 1) (main_v67 : IVec S_ 1) : IVec S_ 1 :=
  let main_v68 : IVec S_ 1 := andi main_v63 main_v67
  let main_v69 : FVec F S64x64 .f32 := Host.absf main_arg16
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x64 .f32 := Host.absf main_arg18
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg1 main_v83 main_v84 main_cst_32

def fn_part3 {F : FTy → Type} [FloatOps F] (main_arg1 : IVec S2x1000000 32) (main_arg13 : FVec F S3x64 .f32) (main_arg14 : FVec F S3x64x64 .f32) (main_arg15 : FVec F S3x64 .f32) (main_arg16 : FVec F S64x64 .f32) (main_arg17 : FVec F S64 .f32) (main_arg18 : FVec F S64x64 .f32) (main_arg19 : FVec F S64 .f32) (main_v48 : IVec S_ 1) (main_v49 : FVec F S3x64x64 .f32) (main_v50 : FVec F S3x64x64 .f32) : IVec S_ 1 :=
  let main_v51 : IVec S3x64x64 1 := cmpf .olt main_v49 main_v50
  let main_c_19 : IVec S_ 1 := constantI S_ 1 1#1
  let main_v52 : IVec S_ 1 := (fun x v => Host.reduce IntOp.andi x v reducesTo_S3x64x64_S_d0_1_2 h_S_) main_v51 main_c_19
  let main_v53 : IVec S_ 1 := andi main_v48 main_v52
  let main_v54 : FVec F S3x64 .f32 := Host.absf main_arg13
  let main_cst_20 : FVec F S_ .f32 := constant S_ .f32 0x7F800000#32
  let main_v55 : FVec F S3x64 .f32 := broadcastInDim S3x64 ![] bcast_S_S3x64 main_cst_20
  let main_v56 : IVec S3x64 1 := cmpf .olt main_v54 main_v55
  let main_c_21 : IVec S_ 1 := constantI S_ 1 1#1
  let main_v57 : IVec S_ 1 := (fun x v => Host.reduce IntOp.andi x v reducesTo_S3x64_S_d0_1 h_S_) main_v56 main_c_21
  let main_v58 : IVec S_ 1 := andi main_v53 main_v57
  let main_v59 : FVec F S3x64x64 .f32 := Host.absf main_arg14
  let main_cst_22 : FVec F S_ .f32 := constant S_ .f32 0x7F800000#32
  let main_v60 : FVec F S3x64x64 .f32 := broadcastInDim S3x64x64 ![] bcast_S_S3x64x64 main_cst_22
  let main_v61 : IVec S3x64x64 1 := cmpf .olt main_v59 main_v60
  let main_c_23 : IVec S_ 1 := constantI S_ 1 1#1
  let main_v62 : IVec S_ 1 := (fun x v => Host.reduce IntOp.andi x v reducesTo_S3x64x64_S_d0_1_2 h_S_) main_v61 main_c_23
  let main_v63 : IVec S_ 1 := andi main_v58 main_v62
  let main_v64 : FVec F S3x64 .f32 := Host.absf main_arg15
  let main_cst_24 : FVec F S_ .f32 := constant S_ .f32 0x7F800000#32
  let main_v65 : FVec F S3x64 .f32 := broadcastInDim S3x64 ![] bcast_S_S3x64 main_cst_24
  let main_v66 : IVec S3x64 1 := cmpf .olt main_v64 main_v65
  let main_c_25 : IVec S_ 1 := constantI S_ 1 1#1
  let main_v67 : IVec S_ 1 := (fun x v => Host.reduce IntOp.andi x v reducesTo_S3x64_S_d0_1 h_S_) main_v66 main_c_25
  fn_part4 (F := F) main_arg1 main_arg16 main_arg17 main_arg18 main_arg19 main_v63 main_v67

def fn_part2 {F : FTy → Type} [FloatOps F] (main_arg1 : IVec S2x1000000 32) (main_arg9 : FVec F S64 .f32) (main_arg10 : FVec F S64x64 .f32) (main_arg11 : FVec F S64 .f32) (main_arg12 : FVec F S3x64x64 .f32) (main_arg13 : FVec F S3x64 .f32) (main_arg14 : FVec F S3x64x64 .f32) (main_arg15 : FVec F S3x64 .f32) (main_arg16 : FVec F S64x64 .f32) (main_arg17 : FVec F S64 .f32) (main_arg18 : FVec F S64x64 .f32) (main_arg19 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S3x64x64 .f32 := Host.absf main_arg12
  let main_cst_18 : FVec F S_ .f32 := constant S_ .f32 0x7F800000#32
  let main_v50 : FVec F S3x64x64 .f32 := broadcastInDim S3x64x64 ![] bcast_S_S3x64x64 main_cst_18
  fn_part3 (F := F) main_arg1 main_arg13 main_arg14 main_arg15 main_arg16 main_arg17 main_arg18 main_arg19 main_v48 main_v49 main_v50

def fn_part1 {F : FTy → Type} [FloatOps F] (main_arg1 : IVec S2x1000000 32) (main_arg6 : FVec F S64x64 .f32) (main_arg7 : FVec F S64 .f32) (main_arg8 : FVec F S16x64 .f32) (main_arg9 : FVec F S64 .f32) (main_arg10 : FVec F S64x64 .f32) (main_arg11 : FVec F S64 .f32) (main_arg12 : FVec F S3x64x64 .f32) (main_arg13 : FVec F S3x64 .f32) (main_arg14 : FVec F S3x64x64 .f32) (main_arg15 : FVec F S3x64 .f32) (main_arg16 : FVec F S64x64 .f32) (main_arg17 : FVec F S64 .f32) (main_arg18 : FVec F S64x64 .f32) (main_arg19 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S16x64 .f32 := Host.absf main_arg8
  let main_cst_10 : FVec F S_ .f32 := constant S_ .f32 0x7F800000#32
  let main_v30 : FVec F S16x64 .f32 := broadcastInDim S16x64 ![] bcast_S_S16x64 main_cst_10
  let main_v31 : IVec S16x64 1 := cmpf .olt main_v29 main_v30
  let main_c_11 : IVec S_ 1 := constantI S_ 1 1#1
  let main_v32 : IVec S_ 1 := (fun x v => Host.reduce IntOp.andi x v reducesTo_S16x64_S_d0_1 h_S_) main_v31 main_c_11
  let main_v33 : IVec S_ 1 := andi main_v28 main_v32
  fn_part2 (F := F) main_arg1 main_arg9 main_arg10 main_arg11 main_arg12 main_arg13 main_arg14 main_arg15 main_arg16 main_arg17 main_arg18 main_arg19 main_v33

def fn {F : FTy → Type} [FloatOps F] (main_arg0 : FVec F S100000x32 .f32) (main_arg1 : IVec S2x1000000 32) (main_arg2 : FVec F S1000000x16 .f32) (main_arg3 : IVec S100000 32) (main_arg4 : FVec F S32x64 .f32) (main_arg5 : FVec F S64 .f32) (main_arg6 : FVec F S64x64 .f32) (main_arg7 : FVec F S64 .f32) (main_arg8 : FVec F S16x64 .f32) (main_arg9 : FVec F S64 .f32) (main_arg10 : FVec F S64x64 .f32) (main_arg11 : FVec F S64 .f32) (main_arg12 : FVec F S3x64x64 .f32) (main_arg13 : FVec F S3x64 .f32) (main_arg14 : FVec F S3x64x64 .f32) (main_arg15 : FVec F S3x64 .f32) (main_arg16 : FVec F S64x64 .f32) (main_arg17 : FVec F S64 .f32) (main_arg18 : FVec F S64x64 .f32) (main_arg19 : FVec F S64 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1000000x16 .f32 := Host.absf main_arg2
  let main_cst_0 : FVec F S_ .f32 := constant S_ .f32 0x7F800000#32
  let main_v5 : FVec F S1000000x16 .f32 := broadcastInDim S1000000x16 ![] bcast_S_S1000000x16 main_cst_0
  let main_v6 : IVec S1000000x16 1 := cmpf .olt main_v4 main_v5
  let main_c_1 : IVec S_ 1 := constantI S_ 1 1#1
  let main_v7 : IVec S_ 1 := (fun x v => Host.reduce IntOp.andi x v reducesTo_S1000000x16_S_d0_1 h_S_) main_v6 main_c_1
  let main_v8 : IVec S_ 1 := andi main_v3 main_v7
  let main_v9 : FVec F S32x64 .f32 := Host.absf main_arg4
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg6 main_arg7 main_arg8 main_arg9 main_arg10 main_arg11 main_arg12 main_arg13 main_arg14 main_arg15 main_arg16 main_arg17 main_arg18 main_arg19 main_v13 main_v16
-- ==== Kernel.lean ====
abbrev S100000x32 : Shape := ⟨2, ![100000, 32]⟩
abbrev S2x1000000 : Shape := ⟨2, ![2, 1000000]⟩
abbrev S1000000x16 : Shape := ⟨2, ![1000000, 16]⟩
abbrev S100000 : Shape := ⟨1, ![100000]⟩
abbrev S32x64 : Shape := ⟨2, ![32, 64]⟩
abbrev S64 : Shape := ⟨1, ![64]⟩
abbrev S64x64 : Shape := ⟨2, ![64, 64]⟩
abbrev S16x64 : Shape := ⟨2, ![16, 64]⟩
abbrev S3x64x64 : Shape := ⟨3, ![3, 64, 64]⟩
abbrev S3x64 : Shape := ⟨2, ![3, 64]⟩
abbrev S1x1000000 : Shape := ⟨2, ![1, 1000000]⟩
abbrev S1000000 : Shape := ⟨1, ![1000000]⟩
abbrev S1x64 : Shape := ⟨2, ![1, 64]⟩
abbrev S100000x64 : Shape := ⟨2, ![100000, 64]⟩
abbrev S5000x32 : Shape := ⟨2, ![5000, 32]⟩
abbrev S5000x64 : Shape := ⟨2, ![5000, 64]⟩
abbrev S1000000x64 : Shape := ⟨2, ![1000000, 64]⟩
abbrev S10000x16 : Shape := ⟨2, ![10000, 16]⟩
abbrev S10000x64 : Shape := ⟨2, ![10000, 64]⟩
abbrev S_ : Shape := ⟨0, ![]⟩
abbrev S1000000x1 : Shape := ⟨2, ![1000000, 1]⟩
abbrev S1 : Shape := ⟨1, ![1]⟩
abbrev S1x1 : Shape := ⟨2, ![1, 1]⟩
abbrev S1x64x64 : Shape := ⟨3, ![1, 64, 64]⟩
abbrev S512x64 : Shape := ⟨2, ![512, 64]⟩
abbrev S100000x1 : Shape := ⟨2, ![100000, 1]⟩

abbrev nBuf : Space → Nat
  | .hbm => 182
  | .vmem => 80
  | .smem => 0
  | _ => 0

abbrev hbmTy0_0 (i : Nat) : BufTy := match i % 128 with
  | 0 => ⟨S100000x32, .f32⟩
  | 1 => ⟨S2x1000000, .i32⟩
  | 2 => ⟨S1000000x16, .f32⟩
  | 3 => ⟨S100000, .i32⟩
  | 4 => ⟨S32x64, .f32⟩
  | 5 => ⟨S64, .f32⟩
  | 6 => ⟨S64x64, .f32⟩
  | 7 => ⟨S64, .f32⟩
  | 8 => ⟨S16x64, .f32⟩
  | 9 => ⟨S64, .f32⟩
  | 10 => ⟨S64x64, .f32⟩
  | 11 => ⟨S64, .f32⟩
  | 12 => ⟨S3x64x64, .f32⟩
  | 13 => ⟨S3x64, .f32⟩
  | 14 => ⟨S3x64x64, .f32⟩
  | 15 => ⟨S3x64, .f32⟩
  | 16 => ⟨S64x64, .f32⟩
  | 17 => ⟨S64, .f32⟩
  | 18 => ⟨S64x64, .f32⟩
  | 19 => ⟨S64, .f32⟩
  | 20 => ⟨S1x1000000, .i32⟩
  | 21 => ⟨S1000000, .i32⟩
  | 22 => ⟨S1x1000000, .i32⟩
  | 23 => ⟨S1000000, .i32⟩
  | 24 => ⟨S1x64, .f32⟩
  | 25 => ⟨S1x64, .f32⟩
  | 26 => ⟨S100000x64, .f32⟩
  | 27 => ⟨S1x64, .f32⟩
  | 28 => ⟨S1x64, .f32⟩
  | 29 => ⟨S1000000x64, .f32⟩
  | 30 => ⟨S_, .i32⟩
  | 31 => ⟨S1000000, .i32⟩
  | 32 => ⟨S1000000, .i1⟩
  | 33 => ⟨S_, .i32⟩
  | 34 => ⟨S1000000, .i32⟩
  | 35 => ⟨S1000000, .i32⟩
  | 36 => ⟨S1000000, .i32⟩
  | 37 => ⟨S1000000x1, .i32⟩
  | 38 => ⟨S1, .i32⟩
  | 39 => ⟨S_, .i32⟩
  | 40 => ⟨S1000000x1, .i32⟩
  | 41 => ⟨S1000000x1, .i1⟩
  | 42 => ⟨S1x1, .i32⟩
  | 43 => ⟨S1000000x1, .i32⟩
  | 44 => ⟨S1000000x1, .i1⟩
  | 45 => ⟨S1000000x1, .i1⟩
  | 46 => ⟨S_, .i1⟩
  | 47 => ⟨S1000000, .i1⟩
  | 48 => ⟨S1000000x64, .f32⟩
  | 49 => ⟨S1000000x64, .i1⟩
  | 50 => ⟨S_, .f32⟩
  | 51 => ⟨S1000000x64, .f32⟩
  | 52 => ⟨S1000000x64, .f32⟩
  | 53 => ⟨S1000000x64, .f32⟩
  | 54 => ⟨S_, .f32⟩
  | 55 => ⟨S100000x64, .f32⟩
  | 56 => ⟨S1000000x1, .i32⟩
  | 57 => ⟨S100000x64, .f32⟩
  | 58 => ⟨S1x64x64, .f32⟩
  | 59 => ⟨S64x64, .f32⟩
  | 60 => ⟨S1x64, .f32⟩
  | 61 => ⟨S64, .f32⟩
  | 62 => ⟨S1x64x64, .f32⟩
  | 63 => ⟨S64x64, .f32⟩
  | 64 => ⟨S1x64, .f32⟩
  | 65 => ⟨S64, .f32⟩
  | 66 => ⟨S1x64, .f32⟩
  | 67 => ⟨S1x64, .f32⟩
  | 68 => ⟨S100000x64, .f32⟩
  | 69 => ⟨S_, .i32⟩
  | 70 => ⟨S1000000, .i32⟩
  | 71 => ⟨S1000000, .i1⟩
  | 72 => ⟨S_, .i32⟩
  | 73 => ⟨S1000000, .i32⟩
  | 74 => ⟨S1000000, .i32⟩
  | 75 => ⟨S1000000, .i32⟩
  | 76 => ⟨S1000000x1, .i32⟩
  | 77 => ⟨S1, .i32⟩
  | 78 => ⟨S_, .i32⟩
  | 79 => ⟨S1000000x1, .i32⟩
  | 80 => ⟨S1000000x1, .i1⟩
  | 81 => ⟨S1x1, .i32⟩
  | 82 => ⟨S1000000x1, .i32⟩
  | 83 => ⟨S1000000x1, .i1⟩
  | 84 => ⟨S1000000x1, .i1⟩
  | 85 => ⟨S_, .i1⟩
  | 86 => ⟨S1000000, .i1⟩
  | 87 => ⟨S1000000x64, .f32⟩
  | 88 => ⟨S1000000x64, .i1⟩
  | 89 => ⟨S_, .f32⟩
  | 90 => ⟨S1000000x64, .f32⟩
  | 91 => ⟨S1000000x64, .f32⟩
  | 92 => ⟨S1000000x64, .f32⟩
  | 93 => ⟨S_, .f32⟩
  | 94 => ⟨S100000x64, .f32⟩
  | 95 => ⟨S1000000x1, .i32⟩
  | 96 => ⟨S100000x64, .f32⟩
  | 97 => ⟨S1x64x64, .f32⟩
  | 98 => ⟨S64x64, .f32⟩
  | 99 => ⟨S1x64, .f32⟩
  | 100 => ⟨S64, .f32⟩
  | 101 => ⟨S1x64x64, .f32⟩
  | 102 => ⟨S64x64, .f32⟩
  | 103 => ⟨S1x64, .f32⟩
  | 104 => ⟨S64, .f32⟩
  | 105 => ⟨S1x64, .f32⟩
  | 106 => ⟨S1x64, .f32⟩
  | 107 => ⟨S100000x64, .f32⟩
  | 108 => ⟨S_, .i32⟩
  | 109 => ⟨S1000000, .i32⟩
  | 110 => ⟨S1000000, .i1⟩
  | 111 => ⟨S_, .i32⟩
  | 112 => ⟨S1000000, .i32⟩
  | 113 => ⟨S1000000, .i32⟩
  | 114 => ⟨S1000000, .i32⟩
  | 115 => ⟨S1000000x1, .i32⟩
  | 116 => ⟨S1, .i32⟩
  | 117 => ⟨S_, .i32⟩
  | 118 => ⟨S1000000x1, .i32⟩
  | 119 => ⟨S1000000x1, .i1⟩
  | 120 => ⟨S1x1, .i32⟩
  | 121 => ⟨S1000000x1, .i32⟩
  | 122 => ⟨S1000000x1, .i1⟩
  | 123 => ⟨S1000000x1, .i1⟩
  | 124 => ⟨S_, .i1⟩
  | 125 => ⟨S1000000, .i1⟩
  | 126 => ⟨S1000000x64, .f32⟩
  | 127 => ⟨S1000000x64, .i1⟩
  | _ => ⟨S100000x32, .f32⟩

abbrev hbmTy0_1 (i : Nat) : BufTy := match i % 128 with
  | 0 => ⟨S_, .f32⟩
  | 1 => ⟨S1000000x64, .f32⟩
  | 2 => ⟨S1000000x64, .f32⟩
  | 3 => ⟨S1000000x64, .f32⟩
  | 4 => ⟨S_, .f32⟩
  | 5 => ⟨S100000x64, .f32⟩
  | 6 => ⟨S1000000x1, .i32⟩
  | 7 => ⟨S100000x64, .f32⟩
  | 8 => ⟨S1x64x64, .f32⟩
  | 9 => ⟨S64x64, .f32⟩
  | 10 => ⟨S1x64, .f32⟩
  | 11 => ⟨S64, .f32⟩
  | 12 => ⟨S1x64x64, .f32⟩
  | 13 => ⟨S64x64, .f32⟩
  | 14 => ⟨S1x64, .f32⟩
  | 15 => ⟨S64, .f32⟩
  | 16 => ⟨S1x64, .f32⟩
  | 17 => ⟨S1x64, .f32⟩
  | 18 => ⟨S100000x64, .f32⟩
  | 19 => ⟨S_, .i32⟩
  | 20 => ⟨S1000000, .i32⟩
  | 21 => ⟨S1000000, .i1⟩
  | 22 => ⟨S_, .i32⟩
  | 23 => ⟨S1000000, .i32⟩
  | 24 => ⟨S1000000, .i32⟩
  | 25 => ⟨S1000000, .i32⟩
  | 26 => ⟨S1000000x1, .i32⟩
  | 27 => ⟨S1, .i32⟩
  | 28 => ⟨S_, .i32⟩
  | 29 => ⟨S1000000x1, .i32⟩
  | 30 => ⟨S1000000x1, .i1⟩
  | 31 => ⟨S1x1, .i32⟩
  | 32 => ⟨S1000000x1, .i32⟩
  | 33 => ⟨S1000000x1, .i1⟩
  | 34 => ⟨S1000000x1, .i1⟩
  | 35 => ⟨S_, .i1⟩
  | 36 => ⟨S1000000, .i1⟩
  | 37 => ⟨S1000000x64, .f32⟩
  | 38 => ⟨S1000000x64, .i1⟩
  | 39 => ⟨S_, .f32⟩
  | 40 => ⟨S1000000x64, .f32⟩
  | 41 => ⟨S1000000x64, .f32⟩
  | 42 => ⟨S1000000x64, .f32⟩
  | 43 => ⟨S_, .f32⟩
  | 44 => ⟨S100000x64, .f32⟩
  | 45 => ⟨S1000000x1, .i32⟩
  | 46 => ⟨S100000x64, .f32⟩
  | 47 => ⟨S1x64, .f32⟩
  | 48 => ⟨S1x64, .f32⟩
  | 49 => ⟨S100000x64, .f32⟩
  | 50 => ⟨S_, .f32⟩
  | 51 => ⟨S512x64, .f32⟩
  | 52 => ⟨S100000x1, .i32⟩
  | 53 => ⟨S512x64, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | .local _ .vmem, ⟨0, _⟩ => ⟨S5000x32, .f32⟩
  | .local _ .vmem, ⟨1, _⟩ => ⟨S5000x32, .f32⟩
  | .local _ .vmem, ⟨2, _⟩ => ⟨S32x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S10000x16, .f32⟩
  | .local _ .vmem, ⟨9, _⟩ => ⟨S10000x16, .f32⟩
  | .local _ .vmem, ⟨10, _⟩ => ⟨S16x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S64x64, .f32⟩
  | .local _ .vmem, ⟨27, _⟩ => ⟨S1x64, .f32⟩
  | .local _ .vmem, ⟨28, _⟩ => ⟨S64x64, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S64x64, .f32⟩
  | .local _ .vmem, ⟨43, _⟩ => ⟨S1x64, .f32⟩
  | .local _ .vmem, ⟨44, _⟩ => ⟨S64x64, .f32⟩
  | .local _ .vmem, ⟨45, _⟩ => ⟨S1x64, .f32⟩
  | .local _ .vmem, ⟨46, _⟩ => ⟨S5000x64, .f32⟩
  | .local _ .vmem, ⟨47, _⟩ => ⟨S5000x64, .f32⟩
  | .local _ .vmem, ⟨48, _⟩ => ⟨S10000x64, .f32⟩
  | .local _ .vmem, ⟨49, _⟩ => ⟨S10000x64, .f32⟩
  | .local _ .vmem, ⟨50, _⟩ => ⟨S10000x64, .f32⟩
  | .local _ .vmem, ⟨51, _⟩ => ⟨S10000x64, .f32⟩
  | .local _ .vmem, ⟨52, _⟩ => ⟨S10000x64, .f32⟩
  | .local _ .vmem, ⟨53, _⟩ => ⟨S10000x64, .f32⟩
  | .local _ .vmem, ⟨54, _⟩ => ⟨S5000x64, .f32⟩
  | .local _ .vmem, ⟨55, _⟩ => ⟨S5000x64, .f32⟩
  | .local _ .vmem, ⟨56, _⟩ => ⟨S5000x64, .f32⟩
  | .local _ .vmem, ⟨57, _⟩ => ⟨S5000x64, .f32⟩
  | .local _ .vmem, ⟨58, _⟩ => ⟨S64x64, .f32⟩
  | .local _ .vmem, ⟨59, _⟩ => ⟨S1x64, .f32⟩
  | .local _ .vmem, ⟨60, _⟩ => ⟨S64x64, .f32⟩
  | .local _ .vmem, ⟨61, _⟩ => ⟨S1x64, .f32⟩
  | .local _ .vmem, ⟨62, _⟩ => ⟨S5000x64, .f32⟩
  | .local _ .vmem, ⟨63, _⟩ => ⟨S5000x64, .f32⟩
  | .local _ .vmem, ⟨64, _⟩ => ⟨S10000x64, .f32⟩
  | .local _ .vmem, ⟨65, _⟩ => ⟨S10000x64, .f32⟩
  | .local _ .vmem, ⟨66, _⟩ => ⟨S10000x64, .f32⟩
  | .local _ .vmem, ⟨67, _⟩ => ⟨S10000x64, .f32⟩
  | .local _ .vmem, ⟨68, _⟩ => ⟨S10000x64, .f32⟩
  | .local _ .vmem, ⟨69, _⟩ => ⟨S10000x64, .f32⟩
  | .local _ .vmem, ⟨70, _⟩ => ⟨S5000x64, .f32⟩
  | .local _ .vmem, ⟨71, _⟩ => ⟨S5000x64, .f32⟩
  | .local _ .vmem, ⟨72, _⟩ => ⟨S5000x64, .f32⟩
  | .local _ .vmem, ⟨73, _⟩ => ⟨S5000x64, .f32⟩
  | .local _ .vmem, ⟨74, _⟩ => ⟨S64x64, .f32⟩
  | .local _ .vmem, ⟨75, _⟩ => ⟨S1x64, .f32⟩
  | .local _ .vmem, ⟨76, _⟩ => ⟨S64x64, .f32⟩
  | .local _ .vmem, ⟨77, _⟩ => ⟨S1x64, .f32⟩
  | .local _ .vmem, ⟨78, _⟩ => ⟨S5000x64, .f32⟩
  | .local _ .vmem, ⟨79, _⟩ => ⟨S5000x64, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_call0_c : Ref sig .tc := ⟨.hbm, 30, rfl⟩
abbrev main_call0_v0 : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_c_1 : Ref sig .tc := ⟨.hbm, 38, rfl⟩
abbrev main_call0_c_2 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_3 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_call0_cst : Ref sig .tc := ⟨.hbm, 50, rfl⟩
abbrev main_call0_v15 : Ref sig .tc := ⟨.hbm, 51, rfl⟩
abbrev main_v10 : Ref sig .tc := ⟨.hbm, 52, rfl⟩
abbrev main_v11 : Ref sig .tc := ⟨.hbm, 53, rfl⟩
abbrev main_cst : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_call1_c : Ref sig .tc := ⟨.hbm, 69, rfl⟩
abbrev main_call1_v0 : Ref sig .tc := ⟨.hbm, 70, rfl⟩
abbrev main_call1_v1 : Ref sig .tc := ⟨.hbm, 71, rfl⟩
abbrev main_call1_c_0 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_v5 : Ref sig .tc := ⟨.hbm, 76, rfl⟩
abbrev main_call1_c_1 : Ref sig .tc := ⟨.hbm, 77, rfl⟩
abbrev main_call1_c_2 : Ref sig .tc := ⟨.hbm, 78, rfl⟩
abbrev main_call1_v6 : Ref sig .tc := ⟨.hbm, 79, rfl⟩
abbrev main_call1_v7 : Ref sig .tc := ⟨.hbm, 80, rfl⟩
abbrev main_call1_v8 : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_call1_c_3 : Ref sig .tc := ⟨.hbm, 85, rfl⟩
abbrev main_call1_v12 : Ref sig .tc := ⟨.hbm, 86, rfl⟩
abbrev main_call1_v13 : Ref sig .tc := ⟨.hbm, 87, rfl⟩
abbrev main_call1_v14 : Ref sig .tc := ⟨.hbm, 88, rfl⟩
abbrev main_call1_cst : Ref sig .tc := ⟨.hbm, 89, rfl⟩
abbrev main_call1_v15 : Ref sig .tc := ⟨.hbm, 90, rfl⟩
abbrev main_v26 : Ref sig .tc := ⟨.hbm, 91, rfl⟩
abbrev main_v27 : Ref sig .tc := ⟨.hbm, 92, rfl⟩
abbrev main_cst_0 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_v41 : Ref sig .tc := ⟨.hbm, 107, rfl⟩
abbrev main_call2_c : Ref sig .tc := ⟨.hbm, 108, rfl⟩
abbrev main_call2_v0 : Ref sig .tc := ⟨.hbm, 109, rfl⟩
abbrev main_call2_v1 : Ref sig .tc := ⟨.hbm, 110, rfl⟩
abbrev main_call2_c_0 : Ref sig .tc := ⟨.hbm, 111, rfl⟩
abbrev main_call2_v2 : Ref sig .tc := ⟨.hbm, 112, rfl⟩
abbrev main_call2_v3 : Ref sig .tc := ⟨.hbm, 113, rfl⟩
abbrev main_call2_v4 : Ref sig .tc := ⟨.hbm, 114, rfl⟩
abbrev main_call2_v5 : Ref sig .tc := ⟨.hbm, 115, rfl⟩
abbrev main_call2_c_1 : Ref sig .tc := ⟨.hbm, 116, rfl⟩
abbrev main_call2_c_2 : Ref sig .tc := ⟨.hbm, 117, rfl⟩
abbrev main_call2_v6 : Ref sig .tc := ⟨.hbm, 118, rfl⟩
abbrev main_call2_v7 : Ref sig .tc := ⟨.hbm, 119, rfl⟩
abbrev main_call2_v8 : Ref sig .tc := ⟨.hbm, 120, rfl⟩
abbrev main_call2_v9 : Ref sig .tc := ⟨.hbm, 121, rfl⟩
abbrev main_call2_v10 : Ref sig .tc := ⟨.hbm, 122, rfl⟩
abbrev main_call2_v11 : Ref sig .tc := ⟨.hbm, 123, rfl⟩
abbrev main_call2_c_3 : Ref sig .tc := ⟨.hbm, 124, rfl⟩
abbrev main_call2_v12 : Ref sig .tc := ⟨.hbm, 125, rfl⟩
abbrev main_call2_v13 : Ref sig .tc := ⟨.hbm, 126, rfl⟩
abbrev main_call2_v14 : Ref sig .tc := ⟨.hbm, 127, rfl⟩
abbrev main_call2_cst : Ref sig .tc := ⟨.hbm, 128, rfl⟩
abbrev main_call2_v15 : Ref sig .tc := ⟨.hbm, 129, rfl⟩
abbrev main_v42 : Ref sig .tc := ⟨.hbm, 130, rfl⟩
abbrev main_v43 : Ref sig .tc := ⟨.hbm, 131, rfl⟩
abbrev main_cst_1 : Ref sig .tc := ⟨.hbm, 132, rfl⟩
abbrev main_v44 : Ref sig .tc := ⟨.hbm, 133, rfl⟩
abbrev main_v45 : Ref sig .tc := ⟨.hbm, 134, rfl⟩
abbrev main_v46 : Ref sig .tc := ⟨.hbm, 135, rfl⟩
abbrev main_v47 : Ref sig .tc := ⟨.hbm, 136, rfl⟩
abbrev main_v48 : Ref sig .tc := ⟨.hbm, 137, rfl⟩
abbrev main_v49 : Ref sig .tc := ⟨.hbm, 138, rfl⟩
abbrev main_v50 : Ref sig .tc := ⟨.hbm, 139, rfl⟩
abbrev main_v51 : Ref sig .tc := ⟨.hbm, 140, rfl⟩
abbrev main_v52 : Ref sig .tc := ⟨.hbm, 141, rfl⟩
abbrev main_v53 : Ref sig .tc := ⟨.hbm, 142, rfl⟩
abbrev main_v54 : Ref sig .tc := ⟨.hbm, 143, rfl⟩
abbrev main_v55 : Ref sig .tc := ⟨.hbm, 144, rfl⟩
abbrev main_v56 : Ref sig .tc := ⟨.hbm, 145, rfl⟩
abbrev main_v57 : Ref sig .tc := ⟨.hbm, 146, rfl⟩
abbrev main_call3_c : Ref sig .tc := ⟨.hbm, 147, rfl⟩
abbrev main_call3_v0 : Ref sig .tc := ⟨.hbm, 148, rfl⟩
abbrev main_call3_v1 : Ref sig .tc := ⟨.hbm, 149, rfl⟩
abbrev main_call3_c_0 : Ref sig .tc := ⟨.hbm, 150, rfl⟩
abbrev main_call3_v2 : Ref sig .tc := ⟨.hbm, 151, rfl⟩
abbrev main_call3_v3 : Ref sig .tc := ⟨.hbm, 152, rfl⟩
abbrev main_call3_v4 : Ref sig .tc := ⟨.hbm, 153, rfl⟩
abbrev main_call3_v5 : Ref sig .tc := ⟨.hbm, 154, rfl⟩
abbrev main_call3_c_1 : Ref sig .tc := ⟨.hbm, 155, rfl⟩
abbrev main_call3_c_2 : Ref sig .tc := ⟨.hbm, 156, rfl⟩
abbrev main_call3_v6 : Ref sig .tc := ⟨.hbm, 157, rfl⟩
abbrev main_call3_v7 : Ref sig .tc := ⟨.hbm, 158, rfl⟩
abbrev main_call3_v8 : Ref sig .tc := ⟨.hbm, 159, rfl⟩
abbrev main_call3_v9 : Ref sig .tc := ⟨.hbm, 160, rfl⟩
abbrev main_call3_v10 : Ref sig .tc := ⟨.hbm, 161, rfl⟩
abbrev main_call3_v11 : Ref sig .tc := ⟨.hbm, 162, rfl⟩
abbrev main_call3_c_3 : Ref sig .tc := ⟨.hbm, 163, rfl⟩
abbrev main_call3_v12 : Ref sig .tc := ⟨.hbm, 164, rfl⟩
abbrev main_call3_v13 : Ref sig .tc := ⟨.hbm, 165, rfl⟩
abbrev main_call3_v14 : Ref sig .tc := ⟨.hbm, 166, rfl⟩
abbrev main_call3_cst : Ref sig .tc := ⟨.hbm, 167, rfl⟩
abbrev main_call3_v15 : Ref sig .tc := ⟨.hbm, 168, rfl⟩
abbrev main_v58 : Ref sig .tc := ⟨.hbm, 169, rfl⟩
abbrev main_v59 : Ref sig .tc := ⟨.hbm, 170, rfl⟩
abbrev main_cst_2 : Ref sig .tc := ⟨.hbm, 171, rfl⟩
abbrev main_v60 : Ref sig .tc := ⟨.hbm, 172, rfl⟩
abbrev main_v61 : Ref sig .tc := ⟨.hbm, 173, rfl⟩
abbrev main_v62 : Ref sig .tc := ⟨.hbm, 174, rfl⟩
abbrev main_v63 : Ref sig .tc := ⟨.hbm, 175, rfl⟩
abbrev main_v64 : Ref sig .tc := ⟨.hbm, 176, rfl⟩
abbrev main_v65 : Ref sig .tc := ⟨.hbm, 177, rfl⟩
abbrev main_cst_3 : Ref sig .tc := ⟨.hbm, 178, rfl⟩
abbrev main_v66 : Ref sig .tc := ⟨.hbm, 179, rfl⟩
abbrev main_v67 : Ref sig .tc := ⟨.hbm, 180, rfl⟩
abbrev main_v68 : Ref sig .tc := ⟨.hbm, 181, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg6_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg5_0 : Ref sig .tc := ⟨.vmem, 45, rfl⟩
abbrev cc5_stg6_0 : Ref sig .tc := ⟨.vmem, 46, rfl⟩
abbrev cc5_stg6_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg2_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg1_1 : Ref sig .tc := ⟨.vmem, 57, rfl⟩
abbrev cc7_stg2_0 : Ref sig .tc := ⟨.vmem, 58, rfl⟩
abbrev cc7_stg3_0 : Ref sig .tc := ⟨.vmem, 59, rfl⟩
abbrev cc7_stg4_0 : Ref sig .tc := ⟨.vmem, 60, rfl⟩
abbrev cc7_stg5_0 : Ref sig .tc := ⟨.vmem, 61, rfl⟩
abbrev cc7_stg6_0 : Ref sig .tc := ⟨.vmem, 62, rfl⟩
abbrev cc7_stg6_1 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg1_1 : Ref sig .tc := ⟨.vmem, 67, rfl⟩
abbrev cc8_stg2_0 : Ref sig .tc := ⟨.vmem, 68, rfl⟩
abbrev cc8_stg2_1 : Ref sig .tc := ⟨.vmem, 69, rfl⟩
abbrev cc9_stg0_0 : Ref sig .tc := ⟨.vmem, 70, rfl⟩
abbrev cc9_stg0_1 : Ref sig .tc := ⟨.vmem, 71, rfl⟩
abbrev cc9_stg1_0 : Ref sig .tc := ⟨.vmem, 72, rfl⟩
abbrev cc9_stg1_1 : Ref sig .tc := ⟨.vmem, 73, rfl⟩
abbrev cc9_stg2_0 : Ref sig .tc := ⟨.vmem, 74, rfl⟩
abbrev cc9_stg3_0 : Ref sig .tc := ⟨.vmem, 75, rfl⟩
abbrev cc9_stg4_0 : Ref sig .tc := ⟨.vmem, 76, rfl⟩
abbrev cc9_stg5_0 : Ref sig .tc := ⟨.vmem, 77, rfl⟩
abbrev cc9_stg6_0 : Ref sig .tc := ⟨.vmem, 78, rfl⟩
abbrev cc9_stg6_1 : Ref sig .tc := ⟨.vmem, 79, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem6_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem3_0 : DmaSem sig := 43
abbrev cc5_sem4_0 : DmaSem sig := 44
abbrev cc5_sem5_0 : DmaSem sig := 45
abbrev cc5_sem6_0 : DmaSem sig := 46
abbrev cc5_sem6_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem2_1 : DmaSem sig := 53
abbrev cc7_sem0_0 : DmaSem sig := 54
abbrev cc7_sem0_1 : DmaSem sig := 55
abbrev cc7_sem1_0 : DmaSem sig := 56
abbrev cc7_sem1_1 : DmaSem sig := 57
abbrev cc7_sem2_0 : DmaSem sig := 58
abbrev cc7_sem3_0 : DmaSem sig := 59
abbrev cc7_sem4_0 : DmaSem sig := 60
abbrev cc7_sem5_0 : DmaSem sig := 61
abbrev cc7_sem6_0 : DmaSem sig := 62
abbrev cc7_sem6_1 : DmaSem sig := 63
abbrev cc8_sem0_0 : DmaSem sig := 64
abbrev cc8_sem0_1 : DmaSem sig := 65
abbrev cc8_sem1_0 : DmaSem sig := 66
abbrev cc8_sem1_1 : DmaSem sig := 67
abbrev cc8_sem2_0 : DmaSem sig := 68
abbrev cc8_sem2_1 : DmaSem sig := 69
abbrev cc9_sem0_0 : DmaSem sig := 70
abbrev cc9_sem0_1 : DmaSem sig := 71
abbrev cc9_sem1_0 : DmaSem sig := 72
abbrev cc9_sem1_1 : DmaSem sig := 73
abbrev cc9_sem2_0 : DmaSem sig := 74
abbrev cc9_sem3_0 : DmaSem sig := 75
abbrev cc9_sem4_0 : DmaSem sig := 76
abbrev cc9_sem5_0 : DmaSem sig := 77
abbrev cc9_sem6_0 : DmaSem sig := 78
abbrev cc9_sem6_1 : DmaSem sig := 79

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S64x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S64x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S5000x64 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![100], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S10000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S10000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S64x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S64x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x64 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 2 → Memref sig .tc .vmem S5000x64 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  shapeCasts_S64_S1x64 : S64.ShapeCasts S1x64
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  inb_S10000x16_S10000x16_0_0 : ∀ a, (![0, 0] : Fin 2 → Nat) a + S10000x16.size a ≤ S10000x16.size a
  h_S10000x16 : 0 < S10000x16.numel
  inb_S16x64_S16x64_0_0 : ∀ a, (![0, 0] : Fin 2 → Nat) a + S16x64.size a ≤ S16x64.size a
  h_S16x64 : 0 < S16x64.numel
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  shapeCasts_S10000x64_S10000x64 : S10000x64.ShapeCasts S10000x64
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S5000x64_S5000x64 : S5000x64.ShapeCasts S5000x64
  shapeCasts_S64x64_S64x64 : S64x64.ShapeCasts S64x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S512x64 : S_.BroadcastsInDim S512x64 (![] : Fin 0 → Fin S512x64.rank)
  bcast_S100000_S100000x1_0 : S100000.BroadcastsInDim S100000x1 (![0] : Fin 1 → Fin S100000x1.rank)
  dot_S5000x32_S32x64_S5000x64_1_0_0_1_n_n_wf : DotDims.WF S5000x32 S32x64 S5000x64 [1] [0] [0] [1] [] []
  dot_S5000x64_S64x64_S5000x64_1_0_0_1_n_n_wf : DotDims.WF S5000x64 S64x64 S5000x64 [1] [0] [0] [1] [] []
  dot_S10000x16_S16x64_S10000x64_1_0_0_1_n_n_wf : DotDims.WF S10000x16 S16x64 S10000x64 [1] [0] [0] [1] [] []
  dot_S10000x64_S64x64_S10000x64_1_0_0_1_n_n_wf : DotDims.WF S10000x64 S64x64 S10000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S512x64_S100000x1_S100000x64_1_0_0_1_wf : ScatterDims.WF S512x64 S100000x1 S100000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S1000000x16.size a
  hwx1_0 : ∀ i : grid1.Coords, EltTy.bits .f32 = 32 ∨ (Rect.block (s := S1000000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x64.size a ≤ S16x64.size a
  hwx1_1 : ∀ i : grid1.Coords, EltTy.bits .f32 = 32 ∨ (Rect.block (s := S16x64) S16x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S1000000x64.size a
  hwx1_5 : ∀ i : grid1.Coords, EltTy.bits .f32 = 32 ∨ (Rect.block (s := S1000000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S1000000x64.size a
  hwx2_0 : ∀ i : grid2.Coords, EltTy.bits .f32 = 32 ∨ (Rect.block (s := S1000000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S1000000x64.size a
  hwx2_1 : ∀ i : grid2.Coords, EltTy.bits .f32 = 32 ∨ (Rect.block (s := S1000000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S1000000x64.size a
  hwx2_2 : ∀ i : grid2.Coords, EltTy.bits .f32 = 32 ∨ (Rect.block (s := S1000000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S1000000x64.size a
  hwx4_0 : ∀ i : grid4.Coords, EltTy.bits .f32 = 32 ∨ (Rect.block (s := S1000000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S1000000x64.size a
  hwx4_1 : ∀ i : grid4.Coords, EltTy.bits .f32 = 32 ∨ (Rect.block (s := S1000000x64) S10000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S1000000x64.size a
  hwx4_2 : ∀ i : grid4.Coords, EltTy.bits .f32 = 32 ∨ (Rect.block (s := S1000000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64x64.size a ≤ S64x64.size a
  hwx5_4 : ∀ i : grid5.Coords, EltTy.bits .f32 = 32 ∨ (Rect.block (s := S64x64) S64x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x64.size a ≤ S100000x64.size a
  hwx5_6 : ∀ i : grid5.Coords, EltTy.bits .f32 = 32 ∨ (Rect.block (s := S100000x64) S5000x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S1000000x64.size a
  hwx6_0 : ∀ i : grid6.Coords, EltTy.bits .f32 = 32 ∨ (Rect.block (s := S1000000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S1000000x64.size a
  hwx6_1 : ∀ i : grid6.Coords, EltTy.bits .f32 = 32 ∨ (Rect.block (s := S1000000x64) S10000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S1000000x64.size a
  hwx6_2 : ∀ i : grid6.Coords, EltTy.bits .f32 = 32 ∨ (Rect.block (s := S1000000x64) S10000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S100000x64.size a
  hwx7_1 : ∀ i : grid7.Coords, EltTy.bits .f32 = 32 ∨ (Rect.block (s := S100000x64) S5000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64x64.size a ≤ S64x64.size a
  hwx7_2 : ∀ i : grid7.Coords, EltTy.bits .f32 = 32 ∨ (Rect.block (s := S64x64) S64x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S64x64.size a ≤ S64x64.size a
  hwx7_4 : ∀ i : grid7.Coords, EltTy.bits .f32 = 32 ∨ (Rect.block (s := S64x64) S64x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x64.size a ≤ S1x64.size a
  hwx7_5 : ∀ i : grid7.Coords, EltTy.bits .f32 = 32 ∨ (Rect.block (s := S1x64) S1x64.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S5000x64.size a ≤ S100000x64.size a
  hwx7_6 : ∀ i : grid7.Coords, EltTy.bits .f32 = 32 ∨ (Rect.block (s := S100000x64) S5000x64.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S1000000x64.size a
  hwx8_0 : ∀ i : grid8.Coords, EltTy.bits .f32 = 32 ∨ (Rect.block (s := S1000000x64) S10000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S10000x64.size a ≤ S1000000x64.size a
  hwx8_1 : ∀ i : grid8.Coords, EltTy.bits .f32 = 32 ∨ (Rect.block (s := S1000000x64) S10000x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x64.size a ≤ S1000000x64.size a
  hwx8_2 : ∀ i : grid8.Coords, EltTy.bits .f32 = 32 ∨ (Rect.block (s := S1000000x64) S10000x64.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S100000x64.size a
  hwx9_0 : ∀ i : grid9.Coords, EltTy.bits .f32 = 32 ∨ (Rect.block (s := S100000x64) S5000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x64.size a ≤ S100000x64.size a
  hwx9_1 : ∀ i : grid9.Coords, EltTy.bits .f32 = 32 ∨ (Rect.block (s := S100000x64) S5000x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S64x64.size a ≤ S64x64.size a
  hwx9_2 : ∀ i : grid9.Coords, EltTy.bits .f32 = 32 ∨ (Rect.block (s := S64x64) S64x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x64.size a ≤ S1x64.size a
  hwx9_3 : ∀ i : grid9.Coords, EltTy.bits .f32 = 32 ∨ (Rect.block (s := S1x64) S1x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S64x64.size a ≤ S64x64.size a
  hwx9_4 : ∀ i : grid9.Coords, EltTy.bits .f32 = 32 ∨ (Rect.block (s := S64x64) S64x64.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x64.size a ≤ S1x64.size a
  hwx9_5 : ∀ i : grid9.Coords, EltTy.bits .f32 = 32 ∨ (Rect.block (s := S1x64) S1x64.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S5000x64.size a ≤ S100000x64.size a
  hwx9_6 : ∀ i : grid9.Coords, EltTy.bits .f32 = 32 ∨ (Rect.block (s := S100000x64) S5000x64.size (cc9_transform_6 i) (hinb9_6 i)).WholeWords (EltTy.packing .f32)

variable [Facts₀]

def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S10000x16_S16x64_S10000x64_1_0_0_1_n_n : DotDims S10000x16 S16x64 S10000x64 where
  lhsContracting := [1]
  rhsContracting := [0]
  lhsNonContracting := [0]
  rhsNonContracting := [1]
  lhsBatch := []
  rhsBatch := []
  wf := dot_S10000x16_S16x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg2) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S16x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v10) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v14) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v6) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v16) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v23) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v20) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v24) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v25) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v26) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v9) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v27) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v30) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v25) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v32) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v39) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v36) S64x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v40) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v41) S5000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v42) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v9) S10000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v43) S10000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v46) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v41) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v48) S64x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v55) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v52) S64x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v56) S1x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v57) S5000x64.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v58) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v9) S10000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v59) S10000x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v62) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v57) S5000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_arg16) S64x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v63) S1x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_arg18) S64x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v64) S1x64.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v65) S5000x64.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

class Facts : Prop extends Facts₀ where

variable [Facts]
-- ==== ReferenceIdeal.lean ====
abbrev S100000x32 : Shape := ⟨2, ![100000, 32]⟩
abbrev S2x1000000 : Shape := ⟨2, ![2, 1000000]⟩
abbrev S1000000x16 : Shape := ⟨2, ![1000000, 16]⟩
abbrev S100000 : Shape := ⟨1, ![100000]⟩
abbrev S32x64 : Shape := ⟨2, ![32, 64]⟩
abbrev S64 : Shape := ⟨1, ![64]⟩
abbrev S64x64 : Shape := ⟨2, ![64, 64]⟩
abbrev S16x64 : Shape := ⟨2, ![16, 64]⟩
abbrev S3x64x64 : Shape := ⟨3, ![3, 64, 64]⟩
abbrev S3x64 : Shape := ⟨2, ![3, 64]⟩
abbrev S1x1000000 : Shape := ⟨2, ![1, 1000000]⟩
abbrev S1000000 : Shape := ⟨1, ![1000000]⟩
abbrev S100000x64 : Shape := ⟨2, ![100000, 64]⟩
abbrev S1x64 : Shape := ⟨2, ![1, 64]⟩
abbrev S_ : Shape := ⟨0, ![]⟩
abbrev S1000000x64 : Shape := ⟨2, ![1000000, 64]⟩
abbrev S1x64x64 : Shape := ⟨3, ![1, 64, 64]⟩
abbrev S1000000x1 : Shape := ⟨2, ![1000000, 1]⟩
abbrev S512x64 : Shape := ⟨2, ![512, 64]⟩
abbrev S100000x1 : Shape := ⟨2, ![100000, 1]⟩

abbrev nBuf : Space → Nat
  | .hbm => 214
  | .vmem => 0
  | .smem => 0
  | _ => 0

abbrev hbmTy0_0 (i : Nat) : BufTy := match i % 128 with
  | 0 => ⟨S100000x32, .f32⟩
  | 1 => ⟨S2x1000000, .i32⟩
  | 2 => ⟨S1000000x16, .f32⟩
  | 3 => ⟨S100000, .i32⟩
  | 4 => ⟨S32x64, .f32⟩
  | 5 => ⟨S64, .f32⟩
  | 6 => ⟨S64x64, .f32⟩
  | 7 => ⟨S64, .f32⟩
  | 8 => ⟨S16x64, .f32⟩
  | 9 => ⟨S64, .f32⟩
  | 10 => ⟨S64x64, .f32⟩
  | 11 => ⟨S64, .f32⟩
  | 12 => ⟨S3x64x64, .f32⟩
  | 13 => ⟨S3x64, .f32⟩
  | 14 => ⟨S3x64x64, .f32⟩
  | 15 => ⟨S3x64, .f32⟩
  | 16 => ⟨S64x64, .f32⟩
  | 17 => ⟨S64, .f32⟩
  | 18 => ⟨S64x64, .f32⟩
  | 19 => ⟨S64, .f32⟩
  | 20 => ⟨S1x1000000, .i32⟩
  | 21 => ⟨S1000000, .i32⟩
  | 22 => ⟨S1x1000000, .i32⟩
  | 23 => ⟨S1000000, .i32⟩
  | 24 => ⟨S100000x64, .f32⟩
  | 25 => ⟨S1x64, .f32⟩
  | 26 => ⟨S100000x64, .f32⟩
  | 27 => ⟨S100000x64, .f32⟩
  | 28 => ⟨S_, .f32⟩
  | 29 => ⟨S100000x64, .f32⟩
  | 30 => ⟨S100000x64, .f32⟩
  | 31 => ⟨S100000x64, .f32⟩
  | 32 => ⟨S1x64, .f32⟩
  | 33 => ⟨S100000x64, .f32⟩
  | 34 => ⟨S100000x64, .f32⟩
  | 35 => ⟨S1000000x64, .f32⟩
  | 36 => ⟨S1x64, .f32⟩
  | 37 => ⟨S1000000x64, .f32⟩
  | 38 => ⟨S1000000x64, .f32⟩
  | 39 => ⟨S_, .f32⟩
  | 40 => ⟨S1000000x64, .f32⟩
  | 41 => ⟨S1000000x64, .f32⟩
  | 42 => ⟨S1000000x64, .f32⟩
  | 43 => ⟨S1x64, .f32⟩
  | 44 => ⟨S1000000x64, .f32⟩
  | 45 => ⟨S1000000x64, .f32⟩
  | 46 => ⟨S1x64x64, .f32⟩
  | 47 => ⟨S64x64, .f32⟩
  | 48 => ⟨S1x64, .f32⟩
  | 49 => ⟨S64, .f32⟩
  | 50 => ⟨S1x64x64, .f32⟩
  | 51 => ⟨S64x64, .f32⟩
  | 52 => ⟨S1x64, .f32⟩
  | 53 => ⟨S64, .f32⟩
  | 54 => ⟨S_, .i32⟩
  | 55 => ⟨S1000000, .i32⟩
  | 56 => ⟨S1000000, .i1⟩
  | 57 => ⟨S_, .i32⟩
  | 58 => ⟨S1000000, .i32⟩
  | 59 => ⟨S1000000, .i32⟩
  | 60 => ⟨S1000000, .i32⟩
  | 61 => ⟨S1000000x1, .i32⟩
  | 62 => ⟨S1000000x64, .f32⟩
  | 63 => ⟨S1000000x64, .f32⟩
  | 64 => ⟨S_, .f32⟩
  | 65 => ⟨S1000000x64, .f32⟩
  | 66 => ⟨S1000000x64, .f32⟩
  | 67 => ⟨S_, .f32⟩
  | 68 => ⟨S100000x64, .f32⟩
  | 69 => ⟨S1000000x1, .i32⟩
  | 70 => ⟨S100000x64, .f32⟩
  | 71 => ⟨S_, .f32⟩
  | 72 => ⟨S100000x64, .f32⟩
  | 73 => ⟨S100000x64, .f32⟩
  | 74 => ⟨S100000x64, .f32⟩
  | 75 => ⟨S100000x64, .f32⟩
  | 76 => ⟨S1x64, .f32⟩
  | 77 => ⟨S100000x64, .f32⟩
  | 78 => ⟨S100000x64, .f32⟩
  | 79 => ⟨S_, .f32⟩
  | 80 => ⟨S100000x64, .f32⟩
  | 81 => ⟨S100000x64, .f32⟩
  | 82 => ⟨S100000x64, .f32⟩
  | 83 => ⟨S1x64, .f32⟩
  | 84 => ⟨S100000x64, .f32⟩
  | 85 => ⟨S100000x64, .f32⟩
  | 86 => ⟨S100000x64, .f32⟩
  | 87 => ⟨S_, .f32⟩
  | 88 => ⟨S100000x64, .f32⟩
  | 89 => ⟨S100000x64, .f32⟩
  | 90 => ⟨S1x64x64, .f32⟩
  | 91 => ⟨S64x64, .f32⟩
  | 92 => ⟨S1x64, .f32⟩
  | 93 => ⟨S64, .f32⟩
  | 94 => ⟨S1x64x64, .f32⟩
  | 95 => ⟨S64x64, .f32⟩
  | 96 => ⟨S1x64, .f32⟩
  | 97 => ⟨S64, .f32⟩
  | 98 => ⟨S_, .i32⟩
  | 99 => ⟨S1000000, .i32⟩
  | 100 => ⟨S1000000, .i1⟩
  | 101 => ⟨S_, .i32⟩
  | 102 => ⟨S1000000, .i32⟩
  | 103 => ⟨S1000000, .i32⟩
  | 104 => ⟨S1000000, .i32⟩
  | 105 => ⟨S1000000x1, .i32⟩
  | 106 => ⟨S1000000x64, .f32⟩
  | 107 => ⟨S1000000x64, .f32⟩
  | 108 => ⟨S_, .f32⟩
  | 109 => ⟨S1000000x64, .f32⟩
  | 110 => ⟨S1000000x64, .f32⟩
  | 111 => ⟨S_, .f32⟩
  | 112 => ⟨S100000x64, .f32⟩
  | 113 => ⟨S1000000x1, .i32⟩
  | 114 => ⟨S100000x64, .f32⟩
  | 115 => ⟨S_, .f32⟩
  | 116 => ⟨S100000x64, .f32⟩
  | 117 => ⟨S100000x64, .f32⟩
  | 118 => ⟨S100000x64, .f32⟩
  | 119 => ⟨S100000x64, .f32⟩
  | 120 => ⟨S1x64, .f32⟩
  | 121 => ⟨S100000x64, .f32⟩
  | 122 => ⟨S100000x64, .f32⟩
  | 123 => ⟨S_, .f32⟩
  | 124 => ⟨S100000x64, .f32⟩
  | 125 => ⟨S100000x64, .f32⟩
  | 126 => ⟨S100000x64, .f32⟩
  | 127 => ⟨S1x64, .f32⟩
  | _ => ⟨S100000x32, .f32⟩

abbrev hbmTy0_1 (i : Nat) : BufTy := match i % 128 with
  | 0 => ⟨S100000x64, .f32⟩
  | 1 => ⟨S100000x64, .f32⟩
  | 2 => ⟨S100000x64, .f32⟩
  | 3 => ⟨S_, .f32⟩
  | 4 => ⟨S100000x64, .f32⟩
  | 5 => ⟨S100000x64, .f32⟩
  | 6 => ⟨S1x64x64, .f32⟩
  | 7 => ⟨S64x64, .f32⟩
  | 8 => ⟨S1x64, .f32⟩
  | 9 => ⟨S64, .f32⟩
  | 10 => ⟨S1x64x64, .f32⟩
  | 11 => ⟨S64x64, .f32⟩
  | 12 => ⟨S1x64, .f32⟩
  | 13 => ⟨S64, .f32⟩
  | 14 => ⟨S_, .i32⟩
  | 15 => ⟨S1000000, .i32⟩
  | 16 => ⟨S1000000, .i1⟩
  | 17 => ⟨S_, .i32⟩
  | 18 => ⟨S1000000, .i32⟩
  | 19 => ⟨S1000000, .i32⟩
  | 20 => ⟨S1000000, .i32⟩
  | 21 => ⟨S1000000x1, .i32⟩
  | 22 => ⟨S1000000x64, .f32⟩
  | 23 => ⟨S1000000x64, .f32⟩
  | 24 => ⟨S_, .f32⟩
  | 25 => ⟨S1000000x64, .f32⟩
  | 26 => ⟨S1000000x64, .f32⟩
  | 27 => ⟨S_, .f32⟩
  | 28 => ⟨S100000x64, .f32⟩
  | 29 => ⟨S1000000x1, .i32⟩
  | 30 => ⟨S100000x64, .f32⟩
  | 31 => ⟨S_, .f32⟩
  | 32 => ⟨S100000x64, .f32⟩
  | 33 => ⟨S100000x64, .f32⟩
  | 34 => ⟨S100000x64, .f32⟩
  | 35 => ⟨S100000x64, .f32⟩
  | 36 => ⟨S1x64, .f32⟩
  | 37 => ⟨S100000x64, .f32⟩
  | 38 => ⟨S100000x64, .f32⟩
  | 39 => ⟨S_, .f32⟩
  | 40 => ⟨S100000x64, .f32⟩
  | 41 => ⟨S100000x64, .f32⟩
  | 42 => ⟨S100000x64, .f32⟩
  | 43 => ⟨S1x64, .f32⟩
  | 44 => ⟨S100000x64, .f32⟩
  | 45 => ⟨S100000x64, .f32⟩
  | 46 => ⟨S100000x64, .f32⟩
  | 47 => ⟨S_, .f32⟩
  | 48 => ⟨S100000x64, .f32⟩
  | 49 => ⟨S100000x64, .f32⟩
  | 50 => ⟨S_, .i32⟩
  | 51 => ⟨S1000000, .i32⟩
  | 52 => ⟨S1000000, .i1⟩
  | 53 => ⟨S_, .i32⟩
  | 54 => ⟨S1000000, .i32⟩
  | 55 => ⟨S1000000, .i32⟩
  | 56 => ⟨S1000000, .i32⟩
  | 57 => ⟨S1000000x1, .i32⟩
  | 58 => ⟨S1000000x64, .f32⟩
  | 59 => ⟨S1000000x64, .f32⟩
  | 60 => ⟨S_, .f32⟩
  | 61 => ⟨S1000000x64, .f32⟩
  | 62 => ⟨S1000000x64, .f32⟩
  | 63 => ⟨S_, .f32⟩
  | 64 => ⟨S100000x64, .f32⟩
  | 65 => ⟨S1000000x1, .i32⟩
  | 66 => ⟨S100000x64, .f32⟩
  | 67 => ⟨S_, .f32⟩
  | 68 => ⟨S100000x64, .f32⟩
  | 69 => ⟨S100000x64, .f32⟩
  | 70 => ⟨S100000x64, .f32⟩
  | 71 => ⟨S100000x64, .f32⟩
  | 72 => ⟨S1x64, .f32⟩
  | 73 => ⟨S100000x64, .f32⟩
  | 74 => ⟨S100000x64, .f32⟩
  | 75 => ⟨S_, .f32⟩
  | 76 => ⟨S100000x64, .f32⟩
  | 77 => ⟨S100000x64, .f32⟩
  | 78 => ⟨S100000x64, .f32⟩
  | 79 => ⟨S1x64, .f32⟩
  | 80 => ⟨S100000x64, .f32⟩
  | 81 => ⟨S100000x64, .f32⟩
  | 82 => ⟨S_, .f32⟩
  | 83 => ⟨S512x64, .f32⟩
  | 84 => ⟨S100000x1, .i32⟩
  | 85 => ⟨S512x64, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_call0_cst : Ref sig .tc := ⟨.hbm, 28, rfl⟩
abbrev main_call0_v0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_call1_cst : Ref sig .tc := ⟨.hbm, 39, rfl⟩
abbrev main_call1_v0 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c : Ref sig .tc := ⟨.hbm, 54, rfl⟩
abbrev main_v30 : Ref sig .tc := ⟨.hbm, 55, rfl⟩
abbrev main_v31 : Ref sig .tc := ⟨.hbm, 56, rfl⟩
abbrev main_c_0 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_call2_cst : Ref sig .tc := ⟨.hbm, 64, rfl⟩
abbrev main_call2_v0 : Ref sig .tc := ⟨.hbm, 65, rfl⟩
abbrev main_v38 : Ref sig .tc := ⟨.hbm, 66, rfl⟩
abbrev main_cst : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_1 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_call3_cst : Ref sig .tc := ⟨.hbm, 79, rfl⟩
abbrev main_call3_v0 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_call4_cst : Ref sig .tc := ⟨.hbm, 87, rfl⟩
abbrev main_call4_v0 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_c_2 : Ref sig .tc := ⟨.hbm, 98, rfl⟩
abbrev main_v64 : Ref sig .tc := ⟨.hbm, 99, rfl⟩
abbrev main_v65 : Ref sig .tc := ⟨.hbm, 100, rfl⟩
abbrev main_c_3 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_call5_cst : Ref sig .tc := ⟨.hbm, 108, rfl⟩
abbrev main_call5_v0 : Ref sig .tc := ⟨.hbm, 109, rfl⟩
abbrev main_v72 : Ref sig .tc := ⟨.hbm, 110, rfl⟩
abbrev main_cst_4 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_cst_5 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_call6_cst : Ref sig .tc := ⟨.hbm, 123, rfl⟩
abbrev main_call6_v0 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_call7_cst : Ref sig .tc := ⟨.hbm, 131, rfl⟩
abbrev main_call7_v0 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_c_6 : Ref sig .tc := ⟨.hbm, 142, rfl⟩
abbrev main_v98 : Ref sig .tc := ⟨.hbm, 143, rfl⟩
abbrev main_v99 : Ref sig .tc := ⟨.hbm, 144, rfl⟩
abbrev main_c_7 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_call8_cst : Ref sig .tc := ⟨.hbm, 152, rfl⟩
abbrev main_call8_v0 : Ref sig .tc := ⟨.hbm, 153, rfl⟩
abbrev main_v106 : Ref sig .tc := ⟨.hbm, 154, rfl⟩
abbrev main_cst_8 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_cst_9 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_call9_cst : Ref sig .tc := ⟨.hbm, 167, rfl⟩
abbrev main_call9_v0 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_call10_cst : Ref sig .tc := ⟨.hbm, 175, rfl⟩
abbrev main_call10_v0 : Ref sig .tc := ⟨.hbm, 176, rfl⟩
abbrev main_v123 : Ref sig .tc := ⟨.hbm, 177, rfl⟩
abbrev main_c_10 : Ref sig .tc := ⟨.hbm, 178, rfl⟩
abbrev main_v124 : Ref sig .tc := ⟨.hbm, 179, rfl⟩
abbrev main_v125 : Ref sig .tc := ⟨.hbm, 180, rfl⟩
abbrev main_c_11 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_call11_cst : Ref sig .tc := ⟨.hbm, 188, rfl⟩
abbrev main_call11_v0 : Ref sig .tc := ⟨.hbm, 189, rfl⟩
abbrev main_v132 : Ref sig .tc := ⟨.hbm, 190, rfl⟩
abbrev main_cst_12 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_cst_13 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_call12_cst : Ref sig .tc := ⟨.hbm, 203, rfl⟩
abbrev main_call12_v0 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_cst_14 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S512x64 : S_.BroadcastsInDim S512x64 (![] : Fin 0 → Fin S512x64.rank)
  bcast_S100000_S100000x1_0 : S100000.BroadcastsInDim S100000x1 (![0] : Fin 1 → Fin S100000x1.rank)
  dot_S100000x32_S32x64_S100000x64_1_0_0_1_n_n_wf : DotDims.WF S100000x32 S32x64 S100000x64 [1] [0] [0] [1] [] []
  dot_S100000x64_S64x64_S100000x64_1_0_0_1_n_n_wf : DotDims.WF S100000x64 S64x64 S100000x64 [1] [0] [0] [1] [] []
  dot_S1000000x16_S16x64_S1000000x64_1_0_0_1_n_n_wf : DotDims.WF S1000000x16 S16x64 S1000000x64 [1] [0] [0] [1] [] []
  dot_S1000000x64_S64x64_S1000000x64_1_0_0_1_n_n_wf : DotDims.WF S1000000x64 S64x64 S1000000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S512x64_S100000x1_S100000x64_1_0_0_1_wf : ScatterDims.WF S512x64 S100000x1 S100000x64 [1] [0] [0] 1

variable [Facts₀]

def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S1000000x16_S16x64_S1000000x64_1_0_0_1_n_n : DotDims S1000000x16 S16x64 S1000000x64 where
  lhsContracting := [1]
  rhsContracting := [0]
  lhsNonContracting := [0]
  rhsNonContracting := [1]
  lhsBatch := []
  rhsBatch := []
  wf := dot_S1000000x16_S16x64_S1000000x64_1_0_0_1_n_n_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf

class Facts : Prop extends Facts₀ where

variable [Facts]
-- ==== Proof.Spec.lean ====
import Idealize.ShloMosaic.PureOps.Ideal.Laws
import Idealize.ShloMosaic.Lib.ValueIdx

noncomputable section

open scoped BigOperators

/-! # The stages of a GINE message-passing network, row by row, on the extended reals

Every dense stage of the network acts on one row of its input at a time: row `r` of the output depends on row `r` of
the input (and, for a convolution's update, on row `r` of the aggregate) and on the weights, never on another row.
So each stage is stated as a function of ROWS (`Fin K → EReal`), and the stage on an array of any number of rows is
that function applied to each row. A row tile of the output is then the same function of the same rows of the
input, whatever the tile, which is all that relates a tiled evaluation to an untiled one.

A bias is stored as an array of ONE row, `[1, 64]`, read at `(0, c)`. -/

namespace Cert.Gine

open Idealize.ShloMosaic Idealize.ShloMosaic.ValueIdx

variable {M K : ℕ}

/-- One dense layer at a row: column `c` of `x · w + b`. -/
def affineRow (x : Fin K → EReal) (w : (⟨2, ![K, 64]⟩ : Shape).Idx → EReal) (b : (⟨2, ![1, 64]⟩ : Shape).Idx → EReal)
    (c : Fin 64) : EReal :=
  (∑ k : Fin K, x k * w (ix2 k c)) + b (ix2 0 c)

/-- Two dense layers with a rectifier between them, at a row: column `c` of `max (x · w₀ + b₀) 0 · w₁ + b₁`. -/
def dense2Row (x : Fin K → EReal) (w0 : (⟨2, ![K, 64]⟩ : Shape).Idx → EReal) (b0 : (⟨2, ![1, 64]⟩ : Shape).Idx → EReal)
    (w1 : (⟨2, ![64, 64]⟩ : Shape).Idx → EReal) (b1 : (⟨2, ![1, 64]⟩ : Shape).Idx → EReal) (c : Fin 64) : EReal :=
  affineRow (fun k => max (affineRow x w0 b0 k) 0) w1 b1 c

/-- The two-layer stage on an array of `M` rows. -/
def dense2 (x : (⟨2, ![M, K]⟩ : Shape).Idx → EReal) (w0 : (⟨2, ![K, 64]⟩ : Shape).Idx → EReal)
    (b0 : (⟨2, ![1, 64]⟩ : Shape).Idx → EReal) (w1 : (⟨2, ![64, 64]⟩ : Shape).Idx → EReal)
    (b1 : (⟨2, ![1, 64]⟩ : Shape).Idx → EReal) : (⟨2, ![M, 64]⟩ : Shape).Idx → EReal :=
  fun j => dense2Row (fun k => x (ix2 (j 0) k)) w0 b0 w1 b1 (j 1)

/-- The message of an edge: the rectified sum of the source node's row and the edge's row, entry by entry. -/
def message (a e : (⟨2, ![M, 64]⟩ : Shape).Idx → EReal) : (⟨2, ![M, 64]⟩ : Shape).Idx → EReal :=
  fun j => max (a j + e j) 0

/-- A convolution's update at a row: the two-layer stage of `agg + s · h` (`s` the self-loop weight `1 + ε`). -/
def updateRow (s : EReal) (agg h : Fin 64 → EReal) (w0 : (⟨2, ![64, 64]⟩ : Shape).Idx → EReal)
    (b0 : (⟨2, ![1, 64]⟩ : Shape).Idx → EReal) (w1 : (⟨2, ![64, 64]⟩ : Shape).Idx → EReal)
    (b1 : (⟨2, ![1, 64]⟩ : Shape).Idx → EReal) (c : Fin 64) : EReal :=
  dense2Row (fun k => agg k + s * h k) w0 b0 w1 b1 c

/-- The last convolution: the update itself, on an array of `M` rows. -/
def update (s : EReal) (agg h : (⟨2, ![M, 64]⟩ : Shape).Idx → EReal) (w0 : (⟨2, ![64, 64]⟩ : Shape).Idx → EReal)
    (b0 : (⟨2, ![1, 64]⟩ : Shape).Idx → EReal) (w1 : (⟨2, ![64, 64]⟩ : Shape).Idx → EReal)
    (b1 : (⟨2, ![1, 64]⟩ : Shape).Idx → EReal) : (⟨2, ![M, 64]⟩ : Shape).Idx → EReal :=
  fun j => updateRow s (fun k => agg (ix2 (j 0) k)) (fun k => h (ix2 (j 0) k)) w0 b0 w1 b1 (j 1)

/-- A residual convolution: the rectified sum of the node's row and its update. -/
def updateResidual (s : EReal) (agg h : (⟨2, ![M, 64]⟩ : Shape).Idx → EReal) (w0 : (⟨2, ![64, 64]⟩ : Shape).Idx → EReal)
    (b0 : (⟨2, ![1, 64]⟩ : Shape).Idx → EReal) (w1 : (⟨2, ![64, 64]⟩ : Shape).Idx → EReal)
    (b1 : (⟨2, ![1, 64]⟩ : Shape).Idx → EReal) : (⟨2, ![M, 64]⟩ : Shape).Idx → EReal :=
  fun j => max (h j + update s agg h w0 b0 w1 b1 j) 0

end Cert.Gine

end
-- ==== Proof.Network.lean ====
import proofs.«412257_j64622077936096_2_alg».proof.Proof.Spec

noncomputable section

/-! # The whole network as one function of its arguments

A GINE network on a graph of 100000 nodes and 1000000 edges, 64 features wide, pooled into 512 graphs:

* the node array `h₀` and the edge array `e` are each a two-layer stage of the input features;
* three residual rounds: gather each edge's source row of `h`, form the messages with the edge rows, scatter-add them
  to the target nodes, and update every node (`updateResidual`);
* a last round of the same shape without the residual (`update`);
* the node rows are summed into their graphs.

Which rows a gather reads and which rows a scatter adds to depends on the integer inputs, not on any float; both
programs use the same three index-driven operations on the same integer inputs, so they enter here as three
PARAMETERS — `gatherSrc` (node rows to edge rows), `scatterDst` (edge rows summed into node rows) and `pool` (node
rows summed into graph rows) — and are never opened.

The per-round parameters are cut out of arrays stacked along a leading axis of extent 3: round `l`'s matrix is
`cw[l, ·, ·]`, its bias row `cb[l, ·]` stored as one row. A bias given as a vector of 64 is likewise read as one row. -/

namespace Cert.Gine

open Idealize.ShloMosaic Idealize.ShloMosaic.ValueIdx

abbrev NodeFeat := (⟨2, ![100000, 32]⟩ : Shape).Idx → EReal
abbrev EdgeFeat := (⟨2, ![1000000, 16]⟩ : Shape).Idx → EReal
abbrev Nodes := (⟨2, ![100000, 64]⟩ : Shape).Idx → EReal
abbrev Edges := (⟨2, ![1000000, 64]⟩ : Shape).Idx → EReal
abbrev Graphs := (⟨2, ![512, 64]⟩ : Shape).Idx → EReal
abbrev Mat (K : ℕ) := (⟨2, ![K, 64]⟩ : Shape).Idx → EReal
abbrev BiasRow := (⟨2, ![1, 64]⟩ : Shape).Idx → EReal

/-- A bias vector of 64 entries, stored as one row. -/
def asRow (b : (⟨1, ![64]⟩ : Shape).Idx → EReal) : BiasRow := fun j => b (ix1 (j 1))

/-- Round `l`'s matrix out of three stacked ones. -/
def layerMat (cw : (⟨3, ![3, 64, 64]⟩ : Shape).Idx → EReal) (l : Fin 3) : Mat 64 := fun j => cw (ix3 l (j 0) (j 1))

/-- Round `l`'s bias out of three stacked ones, stored as one row. -/
def layerRow (cb : (⟨2, ![3, 64]⟩ : Shape).Idx → EReal) (l : Fin 3) : BiasRow := fun j => cb (ix2 l (j 1))

/-- One round's aggregate: the messages of the gathered source rows and the edge rows, summed into their targets. -/
def aggregate (gatherSrc : Nodes → Edges) (scatterDst : Edges → Nodes) (h : Nodes) (e : Edges) : Nodes :=
  scatterDst (message (gatherSrc h) e)

/-- One residual round. -/
def round (s : EReal) (gatherSrc : Nodes → Edges) (scatterDst : Edges → Nodes) (e : Edges)
    (w0 : Mat 64) (b0 : BiasRow) (w1 : Mat 64) (b1 : BiasRow) (h : Nodes) : Nodes :=
  updateResidual s (aggregate gatherSrc scatterDst h e) h w0 b0 w1 b1

/-- The network: `s` the self-loop weight, the three index-driven operations, then the twenty arguments' float parts
    (node features, edge features, and the parameters in the order the programs take them). -/
def network (s : EReal) (gatherSrc : Nodes → Edges) (scatterDst : Edges → Nodes) (pool : Nodes → Graphs)
    (x : NodeFeat) (ea : EdgeFeat)
    (wn0 : Mat 32) (bn0 : BiasRow) (wn1 : Mat 64) (bn1 : BiasRow)
    (we0 : Mat 16) (be0 : BiasRow) (we1 : Mat 64) (be1 : BiasRow)
    (cw0 : (⟨3, ![3, 64, 64]⟩ : Shape).Idx → EReal) (cb0 : (⟨2, ![3, 64]⟩ : Shape).Idx → EReal)
    (cw1 : (⟨3, ![3, 64, 64]⟩ : Shape).Idx → EReal) (cb1 : (⟨2, ![3, 64]⟩ : Shape).Idx → EReal)
    (lw0 : Mat 64) (lb0 : BiasRow) (lw1 : Mat 64) (lb1 : BiasRow) : Graphs :=
  let e : Edges := dense2 ea we0 be0 we1 be1
  let h0 : Nodes := dense2 x wn0 bn0 wn1 bn1
  let h1 := round s gatherSrc scatterDst e (layerMat cw0 0) (layerRow cb0 0) (layerMat cw1 0) (layerRow cb1 0) h0
  let h2 := round s gatherSrc scatterDst e (layerMat cw0 1) (layerRow cb0 1) (layerMat cw1 1) (layerRow cb1 1) h1
  let h3 := round s gatherSrc scatterDst e (layerMat cw0 2) (layerRow cb0 2) (layerMat cw1 2) (layerRow cb1 2) h2
  pool (update s (aggregate gatherSrc scatterDst h3 e) h3 lw0 lb0 lw1 lb1)

end Cert.Gine

end
-- ==== Proof.Layout.lean ====
import proofs.«412257_j64622077936096_2_alg».proof.Proof.Network
import Idealize.ShloMosaic.Lib.Pipeline.Value
import Idealize.ShloMosaic.Lib.ValueIdx

noncomputable section

/-! # How the programs lay a bias out as a row, and cut one round's parameters out of three

Both programs turn a bias vector of 64 entries into an array of one row, one by a reshape and one by a broadcast
along a new leading axis of extent one: either way entry `(0, c)` of the row is entry `c` of the vector. Round
`l`'s matrix is the slice `[l, ·, ·]` of three stacked matrices with the unit axis dropped, its bias the slice
`[l, ·]` of three stacked vectors with the unit axis dropped. Each is read entry by entry: a slice shifts the index
by its offset, a reshape keeps the row-major position. -/

namespace Cert.Gine

open Idealize.ShloMosaic Idealize.ShloMosaic.ValueIdx

/-- A bias vector reshaped to one row is that vector as a row. -/
theorem reshape_row (b : (⟨1, ![64]⟩ : Shape).Idx → EReal) (h : (⟨1, ![64]⟩ : Shape).ShapeCasts ⟨2, ![1, 64]⟩) :
    shapeCast ⟨2, ![1, 64]⟩ b h = asRow b := by
  funext j
  obtain ⟨p, q, rfl⟩ : ∃ (p : Fin 1) (q : Fin 64), j = ix2 p q := ⟨j 0, j 1, eq_ix2 j⟩
  show shapeCast ⟨2, ![1, 64]⟩ b h (ix2 p q) = b (ix1 q)
  refine shapeCast_apply b h (ix2 p q) (ix1 q) ?_
  rw [Shape.rowMajor_val_one, Shape.rowMajor_val_two]
  have hp : p.val = 0 := by omega
  show q.val = p.val * 64 + q.val
  omega

/-- A bias vector broadcast along a new leading axis of extent one is that vector as a row. -/
theorem bcast_row (b : (⟨1, ![64]⟩ : Shape).Idx → EReal) (h : (⟨1, ![64]⟩ : Shape).BroadcastsInDim ⟨2, ![1, 64]⟩ ![1]) :
    broadcastInDim ⟨2, ![1, 64]⟩ ![1] h b = asRow b := by
  funext j
  obtain ⟨p, q, rfl⟩ : ∃ (p : Fin 1) (q : Fin 64), j = ix2 p q := ⟨j 0, j 1, eq_ix2 j⟩
  show broadcastInDim ⟨2, ![1, 64]⟩ ![1] h b (ix2 p q) = b (ix1 q)
  unfold broadcastInDim
  refine congrArg b ?_
  funext a
  match a with
  | ⟨0, _⟩ => rfl

/-- Round `l`'s matrix: the slice `[l, ·, ·]` of the three stacked matrices, its unit axis dropped. -/
theorem slice_mat (cw : (⟨3, ![3, 64, 64]⟩ : Shape).Idx → EReal) (l : Fin 3)
    (hs : (⟨3, ![3, 64, 64]⟩ : Shape).Slices ![l.val, 0, 0] ⟨3, ![1, 64, 64]⟩)
    (hc : (⟨3, ![1, 64, 64]⟩ : Shape).ShapeCasts ⟨2, ![64, 64]⟩) :
    shapeCast ⟨2, ![64, 64]⟩ (extractStridedSlice ⟨3, ![1, 64, 64]⟩ ![l.val, 0, 0] cw hs) hc = layerMat cw l := by
  funext j
  obtain ⟨p, q, rfl⟩ : ∃ (p : Fin 64) (q : Fin 64), j = ix2 p q := ⟨j 0, j 1, eq_ix2 j⟩
  show _ = cw (ix3 l p q)
  refine (shapeCast_apply _ hc (ix2 p q) (ix3 (0 : Fin 1) p q) ?_).trans ?_
  · rw [Shape.rowMajor_val_three, Shape.rowMajor_val_two]
    show ((0 : Fin 1).val * 64 + p.val) * 64 + q.val = p.val * 64 + q.val
    simp
  · refine extractStridedSlice_apply _ cw hs (ix3 (0 : Fin 1) p q) (ix3 l p q) fun a => ?_
    match a with
    | ⟨0, _⟩ => show l.val = l.val + (0 : Fin 1).val; simp
    | ⟨1, _⟩ => show p.val = 0 + p.val; omega
    | ⟨2, _⟩ => show q.val = 0 + q.val; omega

/-- Round `l`'s bias as a row: the slice `[l, ·]` of the three stacked vectors, its unit axis dropped. -/
theorem slice_row (cb : (⟨2, ![3, 64]⟩ : Shape).Idx → EReal) (l : Fin 3)
    (hs : (⟨2, ![3, 64]⟩ : Shape).Slices ![l.val, 0] ⟨2, ![1, 64]⟩)
    (hc : (⟨2, ![1, 64]⟩ : Shape).ShapeCasts ⟨1, ![64]⟩) :
    asRow (shapeCast ⟨1, ![64]⟩ (extractStridedSlice ⟨2, ![1, 64]⟩ ![l.val, 0] cb hs) hc) = layerRow cb l := by
  funext j
  obtain ⟨p, q, rfl⟩ : ∃ (p : Fin 1) (q : Fin 64), j = ix2 p q := ⟨j 0, j 1, eq_ix2 j⟩
  show shapeCast ⟨1, ![64]⟩ (extractStridedSlice ⟨2, ![1, 64]⟩ ![l.val, 0] cb hs) hc (ix1 q) = cb (ix2 l q)
  refine (shapeCast_apply _ hc (ix1 q) (ix2 (0 : Fin 1) q) ?_).trans ?_
  · rw [Shape.rowMajor_val_two, Shape.rowMajor_val_one]
    show (0 : Fin 1).val * 64 + q.val = q.val
    simp
  · refine extractStridedSlice_apply _ cb hs (ix2 (0 : Fin 1) q) (ix2 l q) fun a => ?_
    match a with
    | ⟨0, _⟩ => show l.val = l.val + (0 : Fin 1).val; simp
    | ⟨1, _⟩ => show q.val = 0 + q.val; omega

end Cert.Gine

end
-- ==== Proof.TakeWord.lean ====
import Idealize.ShloMosaic.PureOps.Vector

/-! # A source index after the negative-index wrap lies in the table

A node table has 100000 rows. An index `s` with `-100000 ≤ s < 100000` is read the way array indexing reads it:
a negative `s` names row `s + 100000`. After that wrap the index lies in `[0, 99999]`, so a range test
`0 ≤ · ∧ · ≤ 99999` on the wrapped index holds. All of it on 32-bit two's-complement words, where the one point to
check is that `s + 100000` does not wrap around: for `-100000 ≤ s < 0` the sum lies in `[0, 100000)`. -/

namespace Cert.Gine

open Idealize.ShloMosaic

/-- The negative-index wrap of a word: `s + 100000` where `s < 0`, else `s`. -/
def wrapIdx (s : BitVec 32) : BitVec 32 :=
  Scalar.select (IntOp.cmpi .slt s 0#32) (IntOp.addi s 100000#32) s

/-- The wrapped index, read as a signed integer, lies in `[0, 99999]`. -/
theorem wrapIdx_toInt (s : BitVec 32) (hlo : (-100000 : ℤ) ≤ s.toInt) (hhi : s.toInt < 100000) :
    0 ≤ (wrapIdx s).toInt ∧ (wrapIdx s).toInt ≤ 99999 := by
  unfold wrapIdx Scalar.select IntOp.cmpi IntOp.addi
  by_cases hneg : s.toInt < 0
  · have h1 : BitVec.ofBool (s.slt 0#32) = 1 := by
      simp only [BitVec.slt, BitVec.toInt_zero, hneg, decide_true]; rfl
    rw [if_pos h1, BitVec.toInt_add]
    have h2 : (100000#32 : BitVec 32).toInt = 100000 := by decide
    rw [h2]
    have h3 : (s.toInt + 100000).bmod (2 ^ 32) = s.toInt + 100000 := by
      apply Int.bmod_eq_of_le <;> omega
    rw [h3]; omega
  · have h1 : ¬ BitVec.ofBool (s.slt 0#32) = 1 := by
      simp only [BitVec.slt, BitVec.toInt_zero, hneg, decide_false]; decide
    rw [if_neg h1]; omega

/-- Both halves of the range test hold of the wrapped index, so their conjunction is the word `1`. -/
theorem wrapIdx_inRange (s : BitVec 32) (hlo : (-100000 : ℤ) ≤ s.toInt) (hhi : s.toInt < 100000) :
    IntOp.andi (IntOp.cmpi .sge (wrapIdx s) 0#32) (IntOp.cmpi .sle (wrapIdx s) 99999#32) = 1#1 := by
  obtain ⟨h0, h1⟩ := wrapIdx_toInt s hlo hhi
  have hc : (99999#32 : BitVec 32).toInt = 99999 := by decide
  have a : IntOp.cmpi .sge (wrapIdx s) 0#32 = 1#1 := by
    unfold IntOp.cmpi
    simp only [BitVec.sle, BitVec.toInt_zero, h0, decide_true]; rfl
  have b : IntOp.cmpi .sle (wrapIdx s) 99999#32 = 1#1 := by
    unfold IntOp.cmpi
    simp only [BitVec.sle, hc, h1, decide_true]; rfl
  rw [a, b]; rfl

end Cert.Gine
-- ==== Proof.Take.lean ====
import proofs.«412257_j64622077936096_2_alg».proof.Proof.Gen.KernelIdeal.Frame
import proofs.«412257_j64622077936096_2_alg».proof.Proof.TakeWord
import Idealize.ShloMosaic.PureOps.Reduce
import Idealize.ShloMosaic.PureOps.Ideal.Laws

-- reading a broadcast at an index of a shape of production extent: the elaborator's structural look at the size test
-- recurses with the extent
set_option maxRecDepth 16384

noncomputable section

/-! # A filling row gather whose indices are in range is the plain row gather

The kernel program gathers the source rows by a gather that FILLS: it wraps a negative index, tests the wrapped index
against `[0, 99999]`, gathers the row, and keeps the gathered row where the test holds and a fill word elsewhere. When
every source index lies in `[-100000, 100000)` the wrapped index passes the test at every edge, so the test's bit is 1
at every entry and the result is the gathered row everywhere: the fill word is never read, whatever it denotes. -/

namespace Cert.KernelIdeal.Take

open Idealize.ShloMosaic Idealize.ShloMosaic.TcCoe
open Cert.KernelIdeal Cert.KernelIdeal.Facts₀ Cert.KernelIdeal.Facts Cert.Gine

/-- A left fold by `and` over one-bit words that starts at 1 and meets only 1s ends at 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, h =>
    foldl_andi_one f l _ (by show IntOp.andi init (f a) = 1#1; rw [hi, h a (List.mem_cons_self ..)]; rfl)
      (fun n hn => h n (List.mem_cons_of_mem _ hn))

/-- An `and`-reduction from the initial value 1 of an array of 1s is 1 at every index. -/
theorem reduce_andi_one {s t u : Shape} {axes : List (Fin s.rank)} (x : s.Idx → BitVec 1) (init : u.Idx → BitVec 1)
    (h : s.ReducesTo axes t) (hu : 0 < u.numel) (j : t.Idx) (hinit : ∀ k, init k = 1#1) (hx : ∀ i, x i = 1#1) :
    Host.reduce IntOp.andi x init h hu j = 1#1 := by
  rw [Host.reduce_eq_foldl]
  exact foldl_andi_one x _ _ (hinit _) (fun i _ => hx i)

/-- The source index after the negative-index wrap, as the column the gather takes. -/
abbrev srcIdxOf (src : IVec S1000000 32) : IVec S1000000x1 32 :=
  broadcastInDim S1000000x1 ![0] bcast_S1000000_S1000000x1_0
    (select (cmpi .slt src (broadcastInDim S1000000 ![] bcast_S_S1000000 (constantI S_ 32 0#32)))
      (addi src (broadcastInDim S1000000 ![] bcast_S_S1000000 (constantI S_ 32 100000#32))) src)

/-- The range test of the wrapped index, one bit per edge. -/
abbrev inRange (src : IVec S1000000 32) : IVec S1000000 1 :=
  Host.reduce IntOp.andi
    (andi (cmpi .sge (srcIdxOf src) (broadcastInDim S1000000x1 ![] bcast_S_S1000000x1 (constantI S_ 32 0#32)))
      (cmpi .sle (srcIdxOf src) (broadcastInDim S1000000x1 ![0, 1] bcast_S1x1_S1000000x1_0_1
        (broadcastInDim S1x1 ![1] bcast_S1_S1x1_1 (constantI S1 32 99999#32)))))
    (constantI S_ 1 1#1) reducesTo_S1000000x1_S1000000_d1 h_S_

/-- The plain row gather at the wrapped source index. -/
abbrev gatherRows (h : S100000x64.Idx → EReal) (src : IVec S1000000 32) : S1000000x64.Idx → EReal :=
  Host.gather gather_S100000x64_S1000000x1_S1000000x64_1_0_n_n_0_1_164 h (srcIdxOf src)

/-- The filling row gather as the program spells it. -/
def takeFill (h : S100000x64.Idx → EReal) (src : IVec S1000000 32) : S1000000x64.Idx → EReal :=
  select (broadcastInDim S1000000x64 ![0] bcast_S1000000_S1000000x64_0 (inRange src)) (gatherRows h src)
    (broadcastInDim S1000000x64 ![] bcast_S_S1000000x64 (constant (F := Ideal) S_ .f32 0x7FC00000#32))

/-- The wrapped index at an entry of the column is the wrap of some edge's source index (the edge of that row). -/
theorem srcIdxOf_apply (src : IVec S1000000 32) (i : S1000000x1.Idx) :
    ∃ k : S1000000.Idx, srcIdxOf src i = wrapIdx (src k) := ⟨_, rfl⟩

/-- With every source index in range the range test holds at every edge. -/
theorem inRange_eq_one (src : IVec S1000000 32)
    (hr : ∀ j : S1000000.Idx, (-100000 : ℤ) ≤ (src j).toInt ∧ (src j).toInt < 100000) (k : S1000000.Idx) :
    inRange src k = 1#1 := by
  refine reduce_andi_one _ _ _ _ k (fun _ => rfl) fun i => ?_
  show IntOp.andi (IntOp.cmpi .sge (srcIdxOf src i) 0#32) (IntOp.cmpi .sle (srcIdxOf src i) 99999#32) = 1#1
  obtain ⟨e, he⟩ := srcIdxOf_apply src i
  rw [he]
  exact wrapIdx_inRange _ (hr e).1 (hr e).2

/-- A selection whose mask bit is 1 at an entry takes its first operand there. -/
theorem select_of_one {s : Shape} {α : Type} (c : IVec s 1) (a b : s.Idx → α) (i : s.Idx) (hc : c i = 1#1) :
    select c a b i = a i := by
  unfold select Scalar.select
  rw [hc]
  rfl

/-- With every source index in range the filling gather is the plain gather. -/
theorem takeFill_eq (h : S100000x64.Idx → EReal) (src : IVec S1000000 32)
    (hr : ∀ j : S1000000.Idx, (-100000 : ℤ) ≤ (src j).toInt ∧ (src j).toInt < 100000) :
    takeFill h src = gatherRows h src := by
  funext i
  have hm : broadcastInDim S1000000x64 ![0] bcast_S1000000_S1000000x64_0 (inRange src) i = 1#1 := by
    unfold broadcastInDim
    exact inRange_eq_one src hr _
  unfold takeFill
  exact select_of_one _ _ _ i hm

end Cert.KernelIdeal.Take

end
-- ==== Proof.KeepsA.lean ====
import proofs.«412257_j64622077936096_2_alg».proof.Proof.Gen.KernelIdeal.Frame

set_option maxRecDepth 16384

noncomputable section

/-! # Buffers the run leaves alone between two boundaries (part A)

`W0, …, W21` are the buffer contents at the boundaries of the run: after each stretch of host operations and after
each region. A host stretch changes only the buffers its operations write; a region changes only its output array.
So a buffer nobody writes in between holds at a later boundary what it held at an earlier one. -/

namespace Cert.KernelIdeal.Keeps

open Idealize.ShloMosaic Idealize.ShloMosaic.TcCoe Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

theorem keep_arg0_1_0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem keep_arg4_1_0 (c : Dev nD) : W1 m ρ c (Proc.devRef .tc main_arg4) = m ((c : Thread nD τ).loc main_arg4) :=
  calc W1 m ρ c (Proc.devRef .tc main_arg4)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem keep_arg6_1_0 (c : Dev nD) : W1 m ρ c (Proc.devRef .tc main_arg6) = m ((c : Thread nD τ).loc main_arg6) :=
  calc W1 m ρ c (Proc.devRef .tc main_arg6)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem keep_arg9_2_0 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem keep_arg11_2_0 (c : Dev nD) : W2 m ρ c (Proc.devRef .tc main_arg11) = m ((c : Thread nD τ).loc main_arg11) :=
  calc W2 m ρ c (Proc.devRef .tc main_arg11)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem keep_arg2_3_0 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem keep_arg8_3_0 (c : Dev nD) : W3 m ρ c (Proc.devRef .tc main_arg8) = m ((c : Thread nD τ).loc main_arg8) :=
  calc W3 m ρ c (Proc.devRef .tc main_arg8)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem keep_arg10_3_0 (c : Dev nD) : W3 m ρ c (Proc.devRef .tc main_arg10) = m ((c : Thread nD τ).loc main_arg10) :=
  calc W3 m ρ c (Proc.devRef .tc main_arg10)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem keep_arg12_6_0 (c : Dev nD) : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem keep_arg13_6_0 (c : Dev nD) : W6 m ρ c (Proc.devRef .tc main_arg13) = m ((c : Thread nD τ).loc main_arg13) :=
  calc W6 m ρ c (Proc.devRef .tc main_arg13)
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

theorem keep_arg14_6_0 (c : Dev nD) : W6 m ρ c (Proc.devRef .tc main_arg14) = m ((c : Thread nD τ).loc main_arg14) :=
  calc W6 m ρ c (Proc.devRef .tc main_arg14)
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

theorem keep_arg15_6_0 (c : Dev nD) : W6 m ρ c (Proc.devRef .tc main_arg15) = m ((c : Thread nD τ).loc main_arg15) :=
  calc W6 m ρ c (Proc.devRef .tc main_arg15)
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl

theorem keep_arg12_10_6 (c : Dev nD) : W10 m ρ c (Proc.devRef .tc main_arg12) = W6 m ρ c (Proc.devRef .tc main_arg12) :=
  calc W10 m ρ c (Proc.devRef .tc main_arg12)
    _ = W9 m ρ c (Proc.devRef .tc main_arg12) := W10_of_ne m ρ c main_arg12 (by decide)
    _ = W8 m ρ c (Proc.devRef .tc main_arg12) := StableHlo.after_of_forall_not_mem (b := Proc.devRef .tc main_arg12) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg12) := W8_of_ne m ρ c main_arg12 (by decide)
    _ = W6 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg13_10_6 (c : Dev nD) : W10 m ρ c (Proc.devRef .tc main_arg13) = W6 m ρ c (Proc.devRef .tc main_arg13) :=
  calc W10 m ρ c (Proc.devRef .tc main_arg13)
    _ = W9 m ρ c (Proc.devRef .tc main_arg13) := W10_of_ne m ρ c main_arg13 (by decide)
    _ = W8 m ρ c (Proc.devRef .tc main_arg13) := StableHlo.after_of_forall_not_mem (b := Proc.devRef .tc main_arg13) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg13) := W8_of_ne m ρ c main_arg13 (by decide)
    _ = W6 m ρ c (Proc.devRef .tc main_arg13) := StableHlo.after_of_forall_not_mem (b := Proc.devRef .tc main_arg13) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg14_10_6 (c : Dev nD) : W10 m ρ c (Proc.devRef .tc main_arg14) = W6 m ρ c (Proc.devRef .tc main_arg14) :=
  calc W10 m ρ c (Proc.devRef .tc main_arg14)
    _ = W9 m ρ c (Proc.devRef .tc main_arg14) := W10_of_ne m ρ c main_arg14 (by decide)
    _ = W8 m ρ c (Proc.devRef .tc main_arg14) := StableHlo.after_of_forall_not_mem (b := Proc.devRef .tc main_arg14) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg14) := W8_of_ne m ρ c main_arg14 (by decide)
    _ = W6 m ρ c (Proc.devRef .tc main_arg14) := StableHlo.after_of_forall_not_mem (b := Proc.devRef .tc main_arg14) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg15_10_6 (c : Dev nD) : W10 m ρ c (Proc.devRef .tc main_arg15) = W6 m ρ c (Proc.devRef .tc main_arg15) :=
  calc W10 m ρ c (Proc.devRef .tc main_arg15)
    _ = W9 m ρ c (Proc.devRef .tc main_arg15) := W10_of_ne m ρ c main_arg15 (by decide)
    _ = W8 m ρ c (Proc.devRef .tc main_arg15) := StableHlo.after_of_forall_not_mem (b := Proc.devRef .tc main_arg15) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg15) := W8_of_ne m ρ c main_arg15 (by decide)
    _ = W6 m ρ c (Proc.devRef .tc main_arg15) := StableHlo.after_of_forall_not_mem (b := Proc.devRef .tc main_arg15) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg12_14_10 (c : Dev nD) : W14 m ρ c (Proc.devRef .tc main_arg12) = W10 m ρ c (Proc.devRef .tc main_arg12) :=
  calc W14 m ρ c (Proc.devRef .tc main_arg12)
    _ = W13 m ρ c (Proc.devRef .tc main_arg12) := W14_of_ne m ρ c main_arg12 (by decide)
    _ = W12 m ρ c (Proc.devRef .tc main_arg12) := StableHlo.after_of_forall_not_mem (b := Proc.devRef .tc main_arg12) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg12) := W12_of_ne m ρ c main_arg12 (by decide)
    _ = W10 m ρ c (Proc.devRef .tc main_arg12) := StableHlo.after_of_forall_not_mem (b := Proc.devRef .tc main_arg12) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg13_14_10 (c : Dev nD) : W14 m ρ c (Proc.devRef .tc main_arg13) = W10 m ρ c (Proc.devRef .tc main_arg13) :=
  calc W14 m ρ c (Proc.devRef .tc main_arg13)
    _ = W13 m ρ c (Proc.devRef .tc main_arg13) := W14_of_ne m ρ c main_arg13 (by decide)
    _ = W12 m ρ c (Proc.devRef .tc main_arg13) := StableHlo.after_of_forall_not_mem (b := Proc.devRef .tc main_arg13) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg13) := W12_of_ne m ρ c main_arg13 (by decide)
    _ = W10 m ρ c (Proc.devRef .tc main_arg13) := StableHlo.after_of_forall_not_mem (b := Proc.devRef .tc main_arg13) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg14_14_10 (c : Dev nD) : W14 m ρ c (Proc.devRef .tc main_arg14) = W10 m ρ c (Proc.devRef .tc main_arg14) :=
  calc W14 m ρ c (Proc.devRef .tc main_arg14)
    _ = W13 m ρ c (Proc.devRef .tc main_arg14) := W14_of_ne m ρ c main_arg14 (by decide)
    _ = W12 m ρ c (Proc.devRef .tc main_arg14) := StableHlo.after_of_forall_not_mem (b := Proc.devRef .tc main_arg14) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg14) := W12_of_ne m ρ c main_arg14 (by decide)
    _ = W10 m ρ c (Proc.devRef .tc main_arg14) := StableHlo.after_of_forall_not_mem (b := Proc.devRef .tc main_arg14) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg15_14_10 (c : Dev nD) : W14 m ρ c (Proc.devRef .tc main_arg15) = W10 m ρ c (Proc.devRef .tc main_arg15) :=
  calc W14 m ρ c (Proc.devRef .tc main_arg15)
    _ = W13 m ρ c (Proc.devRef .tc main_arg15) := W14_of_ne m ρ c main_arg15 (by decide)
    _ = W12 m ρ c (Proc.devRef .tc main_arg15) := StableHlo.after_of_forall_not_mem (b := Proc.devRef .tc main_arg15) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg15) := W12_of_ne m ρ c main_arg15 (by decide)
    _ = W10 m ρ c (Proc.devRef .tc main_arg15) := StableHlo.after_of_forall_not_mem (b := Proc.devRef .tc main_arg15) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg12_10_0 (c : Dev nD) : W10 m ρ c (Proc.devRef .tc main_arg12) = m ((c : Thread nD τ).loc main_arg12) :=
  calc W10 m ρ c (Proc.devRef .tc main_arg12)
    _ = W9 m ρ c (Proc.devRef .tc main_arg12) := W10_of_ne m ρ c main_arg12 (by decide)
    _ = W8 m ρ c (Proc.devRef .tc main_arg12) := StableHlo.after_of_forall_not_mem (b := Proc.devRef .tc main_arg12) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg12) := W8_of_ne m ρ c main_arg12 (by decide)
    _ = W6 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem keep_arg13_10_0 (c : Dev nD) : W10 m ρ c (Proc.devRef .tc main_arg13) = m ((c : Thread nD τ).loc main_arg13) :=
  calc W10 m ρ c (Proc.devRef .tc main_arg13)
    _ = W9 m ρ c (Proc.devRef .tc main_arg13) := W10_of_ne m ρ c main_arg13 (by decide)
    _ = W8 m ρ c (Proc.devRef .tc main_arg13) := StableHlo.after_of_forall_not_mem (b := Proc.devRef .tc main_arg13) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg13) := W8_of_ne m ρ c main_arg13 (by decide)
    _ = W6 m ρ c (Proc.devRef .tc main_arg13) := StableHlo.after_of_forall_not_mem (b := Proc.devRef .tc main_arg13) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

theorem keep_arg14_10_0 (c : Dev nD) : W10 m ρ c (Proc.devRef .tc main_arg14) = m ((c : Thread nD τ).loc main_arg14) :=
  calc W10 m ρ c (Proc.devRef .tc main_arg14)
    _ = W9 m ρ c (Proc.devRef .tc main_arg14) := W10_of_ne m ρ c main_arg14 (by decide)
    _ = W8 m ρ c (Proc.devRef .tc main_arg14) := StableHlo.after_of_forall_not_mem (b := Proc.devRef .tc main_arg14) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg14) := W8_of_ne m ρ c main_arg14 (by decide)
    _ = W6 m ρ c (Proc.devRef .tc main_arg14) := StableHlo.after_of_forall_not_mem (b := Proc.devRef .tc main_arg14) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

theorem keep_arg15_10_0 (c : Dev nD) : W10 m ρ c (Proc.devRef .tc main_arg15) = m ((c : Thread nD τ).loc main_arg15) :=
  calc W10 m ρ c (Proc.devRef .tc main_arg15)
    _ = W9 m ρ c (Proc.devRef .tc main_arg15) := W10_of_ne m ρ c main_arg15 (by decide)
    _ = W8 m ρ c (Proc.devRef .tc main_arg15) := StableHlo.after_of_forall_not_mem (b := Proc.devRef .tc main_arg15) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg15) := W8_of_ne m ρ c main_arg15 (by decide)
    _ = W6 m ρ c (Proc.devRef .tc main_arg15) := StableHlo.after_of_forall_not_mem (b := Proc.devRef .tc main_arg15) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl

theorem keep_arg12_14_0 (c : Dev nD) : W14 m ρ c (Proc.devRef .tc main_arg12) = m ((c : Thread nD τ).loc main_arg12) :=
  calc W14 m ρ c (Proc.devRef .tc main_arg12)
    _ = W13 m ρ c (Proc.devRef .tc main_arg12) := W14_of_ne m ρ c main_arg12 (by decide)
    _ = W12 m ρ c (Proc.devRef .tc main_arg12) := StableHlo.after_of_forall_not_mem (b := Proc.devRef .tc main_arg12) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg12) := W12_of_ne m ρ c main_arg12 (by decide)
    _ = W10 m ρ c (Proc.devRef .tc main_arg12) := StableHlo.after_of_forall_not_mem (b := Proc.devRef .tc main_arg12) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg12) := W10_of_ne m ρ c main_arg12 (by decide)
    _ = W8 m ρ c (Proc.devRef .tc main_arg12) := StableHlo.after_of_forall_not_mem (b := Proc.devRef .tc main_arg12) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg12) := W8_of_ne m ρ c main_arg12 (by decide)
    _ = W6 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem keep_arg13_14_0 (c : Dev nD) : W14 m ρ c (Proc.devRef .tc main_arg13) = m ((c : Thread nD τ).loc main_arg13) :=
  calc W14 m ρ c (Proc.devRef .tc main_arg13)
    _ = W13 m ρ c (Proc.devRef .tc main_arg13) := W14_of_ne m ρ c main_arg13 (by decide)
    _ = W12 m ρ c (Proc.devRef .tc main_arg13) := StableHlo.after_of_forall_not_mem (b := Proc.devRef .tc main_arg13) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg13) := W12_of_ne m ρ c main_arg13 (by decide)
    _ = W10 m ρ c (Proc.devRef .tc main_arg13) := StableHlo.after_of_forall_not_mem (b := Proc.devRef .tc main_arg13) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg13) := W10_of_ne m ρ c main_arg13 (by decide)
    _ = W8 m ρ c (Proc.devRef .tc main_arg13) := StableHlo.after_of_forall_not_mem (b := Proc.devRef .tc main_arg13) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg13) := W8_of_ne m ρ c main_arg13 (by decide)
    _ = W6 m ρ c (Proc.devRef .tc main_arg13) := StableHlo.after_of_forall_not_mem (b := Proc.devRef .tc main_arg13) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

theorem keep_arg14_14_0 (c : Dev nD) : W14 m ρ c (Proc.devRef .tc main_arg14) = m ((c : Thread nD τ).loc main_arg14) :=
  calc W14 m ρ c (Proc.devRef .tc main_arg14)
    _ = W13 m ρ c (Proc.devRef .tc main_arg14) := W14_of_ne m ρ c main_arg14 (by decide)
    _ = W12 m ρ c (Proc.devRef .tc main_arg14) := StableHlo.after_of_forall_not_mem (b := Proc.devRef .tc main_arg14) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg14) := W12_of_ne m ρ c main_arg14 (by decide)
    _ = W10 m ρ c (Proc.devRef .tc main_arg14) := StableHlo.after_of_forall_not_mem (b := Proc.devRef .tc main_arg14) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg14) := W10_of_ne m ρ c main_arg14 (by decide)
    _ = W8 m ρ c (Proc.devRef .tc main_arg14) := StableHlo.after_of_forall_not_mem (b := Proc.devRef .tc main_arg14) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg14) := W8_of_ne m ρ c main_arg14 (by decide)
    _ = W6 m ρ c (Proc.devRef .tc main_arg14) := StableHlo.after_of_forall_not_mem (b := Proc.devRef .tc main_arg14) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

theorem keep_arg15_14_0 (c : Dev nD) : W14 m ρ c (Proc.devRef .tc main_arg15) = m ((c : Thread nD τ).loc main_arg15) :=
  calc W14 m ρ c (Proc.devRef .tc main_arg15)
    _ = W13 m ρ c (Proc.devRef .tc main_arg15) := W14_of_ne m ρ c main_arg15 (by decide)
    _ = W12 m ρ c (Proc.devRef .tc main_arg15) := StableHlo.after_of_forall_not_mem (b := Proc.devRef .tc main_arg15) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg15) := W12_of_ne m ρ c main_arg15 (by decide)
    _ = W10 m ρ c (Proc.devRef .tc main_arg15) := StableHlo.after_of_forall_not_mem (b := Proc.devRef .tc main_arg15) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg15) := W10_of_ne m ρ c main_arg15 (by decide)
    _ = W8 m ρ c (Proc.devRef .tc main_arg15) := StableHlo.after_of_forall_not_mem (b := Proc.devRef .tc main_arg15) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg15) := W8_of_ne m ρ c main_arg15 (by decide)
    _ = W6 m ρ c (Proc.devRef .tc main_arg15) := StableHlo.after_of_forall_not_mem (b := Proc.devRef .tc main_arg15) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl

end Cert.KernelIdeal.Keeps

end
-- ==== Proof.KeepsB.lean ====
import proofs.«412257_j64622077936096_2_alg».proof.Proof.Gen.KernelIdeal.Frame

set_option maxRecDepth 16384

noncomputable section

/-! # Buffers the run leaves alone between two boundaries (part B)

`W0, …, W21` are the buffer contents at the boundaries of the run: after each stretch of host operations and after
each region. A host stretch changes only the buffers its operations write; a region changes only its output array.
So a buffer nobody writes in between holds at a later boundary what it held at an earlier one. -/

namespace Cert.KernelIdeal.Keeps

open Idealize.ShloMosaic Idealize.ShloMosaic.TcCoe Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

theorem keep_arg17_18_0 (c : Dev nD) : W18 m ρ c (Proc.devRef .tc main_arg17) = m ((c : Thread nD τ).loc main_arg17) :=
  calc W18 m ρ c (Proc.devRef .tc main_arg17)
    _ = W17 m ρ c (Proc.devRef .tc main_arg17) := W18_of_ne m ρ c main_arg17 (by decide)
    _ = W16 m ρ c (Proc.devRef .tc main_arg17) := StableHlo.after_of_forall_not_mem (b := Proc.devRef .tc main_arg17) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg17) := W16_of_ne m ρ c main_arg17 (by decide)
    _ = W14 m ρ c (Proc.devRef .tc main_arg17) := StableHlo.after_of_forall_not_mem (b := Proc.devRef .tc main_arg17) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg17) := W14_of_ne m ρ c main_arg17 (by decide)
    _ = W12 m ρ c (Proc.devRef .tc main_arg17) := StableHlo.after_of_forall_not_mem (b := Proc.devRef .tc main_arg17) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg17) := W12_of_ne m ρ c main_arg17 (by decide)
    _ = W10 m ρ c (Proc.devRef .tc main_arg17) := StableHlo.after_of_forall_not_mem (b := Proc.devRef .tc main_arg17) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg17) := W10_of_ne m ρ c main_arg17 (by decide)
    _ = W8 m ρ c (Proc.devRef .tc main_arg17) := StableHlo.after_of_forall_not_mem (b := Proc.devRef .tc main_arg17) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg17) := W8_of_ne m ρ c main_arg17 (by decide)
    _ = W6 m ρ c (Proc.devRef .tc main_arg17) := StableHlo.after_of_forall_not_mem (b := Proc.devRef .tc main_arg17) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg17) := W6_of_ne m ρ c main_arg17 (by decide)
    _ = W4 m ρ c (Proc.devRef .tc main_arg17) := StableHlo.after_of_forall_not_mem (b := Proc.devRef .tc main_arg17) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg17) := W4_of_ne m ρ c main_arg17 (by decide)
    _ = W2 m ρ c (Proc.devRef .tc main_arg17) := StableHlo.after_of_forall_not_mem (b := Proc.devRef .tc main_arg17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg17) := W2_of_ne m ρ c main_arg17 (by decide)
    _ = W0 m ρ c (Proc.devRef .tc main_arg17) := StableHlo.after_of_forall_not_mem (b := Proc.devRef .tc main_arg17) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg17) := rfl

theorem keep_arg19_18_0 (c : Dev nD) : W18 m ρ c (Proc.devRef .tc main_arg19) = m ((c : Thread nD τ).loc main_arg19) :=
  calc W18 m ρ c (Proc.devRef .tc main_arg19)
    _ = W17 m ρ c (Proc.devRef .tc main_arg19) := W18_of_ne m ρ c main_arg19 (by decide)
    _ = W16 m ρ c (Proc.devRef .tc main_arg19) := StableHlo.after_of_forall_not_mem (b := Proc.devRef .tc main_arg19) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg19) := W16_of_ne m ρ c main_arg19 (by decide)
    _ = W14 m ρ c (Proc.devRef .tc main_arg19) := StableHlo.after_of_forall_not_mem (b := Proc.devRef .tc main_arg19) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg19) := W14_of_ne m ρ c main_arg19 (by decide)
    _ = W12 m ρ c (Proc.devRef .tc main_arg19) := StableHlo.after_of_forall_not_mem (b := Proc.devRef .tc main_arg19) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg19) := W12_of_ne m ρ c main_arg19 (by decide)
    _ = W10 m ρ c (Proc.devRef .tc main_arg19) := StableHlo.after_of_forall_not_mem (b := Proc.devRef .tc main_arg19) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg19) := W10_of_ne m ρ c main_arg19 (by decide)
    _ = W8 m ρ c (Proc.devRef .tc main_arg19) := StableHlo.after_of_forall_not_mem (b := Proc.devRef .tc main_arg19) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg19) := W8_of_ne m ρ c main_arg19 (by decide)
    _ = W6 m ρ c (Proc.devRef .tc main_arg19) := StableHlo.after_of_forall_not_mem (b := Proc.devRef .tc main_arg19) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg19) := W6_of_ne m ρ c main_arg19 (by decide)
    _ = W4 m ρ c (Proc.devRef .tc main_arg19) := StableHlo.after_of_forall_not_mem (b := Proc.devRef .tc main_arg19) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg19) := W4_of_ne m ρ c main_arg19 (by decide)
    _ = W2 m ρ c (Proc.devRef .tc main_arg19) := StableHlo.after_of_forall_not_mem (b := Proc.devRef .tc main_arg19) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg19) := W2_of_ne m ρ c main_arg19 (by decide)
    _ = W0 m ρ c (Proc.devRef .tc main_arg19) := StableHlo.after_of_forall_not_mem (b := Proc.devRef .tc main_arg19) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg19) := rfl

theorem keep_arg16_19_0 (c : Dev nD) : W19 m ρ c (Proc.devRef .tc main_arg16) = m ((c : Thread nD τ).loc main_arg16) :=
  calc W19 m ρ c (Proc.devRef .tc main_arg16)
    _ = W18 m ρ c (Proc.devRef .tc main_arg16) := StableHlo.after_of_forall_not_mem (b := Proc.devRef .tc main_arg16) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg16) := W18_of_ne m ρ c main_arg16 (by decide)
    _ = W16 m ρ c (Proc.devRef .tc main_arg16) := StableHlo.after_of_forall_not_mem (b := Proc.devRef .tc main_arg16) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg16) := W16_of_ne m ρ c main_arg16 (by decide)
    _ = W14 m ρ c (Proc.devRef .tc main_arg16) := StableHlo.after_of_forall_not_mem (b := Proc.devRef .tc main_arg16) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg16) := W14_of_ne m ρ c main_arg16 (by decide)
    _ = W12 m ρ c (Proc.devRef .tc main_arg16) := StableHlo.after_of_forall_not_mem (b := Proc.devRef .tc main_arg16) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg16) := W12_of_ne m ρ c main_arg16 (by decide)
    _ = W10 m ρ c (Proc.devRef .tc main_arg16) := StableHlo.after_of_forall_not_mem (b := Proc.devRef .tc main_arg16) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg16) := W10_of_ne m ρ c main_arg16 (by decide)
    _ = W8 m ρ c (Proc.devRef .tc main_arg16) := StableHlo.after_of_forall_not_mem (b := Proc.devRef .tc main_arg16) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg16) := W8_of_ne m ρ c main_arg16 (by decide)
    _ = W6 m ρ c (Proc.devRef .tc main_arg16) := StableHlo.after_of_forall_not_mem (b := Proc.devRef .tc main_arg16) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg16) := W6_of_ne m ρ c main_arg16 (by decide)
    _ = W4 m ρ c (Proc.devRef .tc main_arg16) := StableHlo.after_of_forall_not_mem (b := Proc.devRef .tc main_arg16) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := rfl

theorem keep_arg18_19_0 (c : Dev nD) : W19 m ρ c (Proc.devRef .tc main_arg18) = m ((c : Thread nD τ).loc main_arg18) :=
  calc W19 m ρ c (Proc.devRef .tc main_arg18)
    _ = W18 m ρ c (Proc.devRef .tc main_arg18) := StableHlo.after_of_forall_not_mem (b := Proc.devRef .tc main_arg18) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg18) := W18_of_ne m ρ c main_arg18 (by decide)
    _ = W16 m ρ c (Proc.devRef .tc main_arg18) := StableHlo.after_of_forall_not_mem (b := Proc.devRef .tc main_arg18) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg18) := W16_of_ne m ρ c main_arg18 (by decide)
    _ = W14 m ρ c (Proc.devRef .tc main_arg18) := StableHlo.after_of_forall_not_mem (b := Proc.devRef .tc main_arg18) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg18) := W14_of_ne m ρ c main_arg18 (by decide)
    _ = W12 m ρ c (Proc.devRef .tc main_arg18) := StableHlo.after_of_forall_not_mem (b := Proc.devRef .tc main_arg18) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg18) := W12_of_ne m ρ c main_arg18 (by decide)
    _ = W10 m ρ c (Proc.devRef .tc main_arg18) := StableHlo.after_of_forall_not_mem (b := Proc.devRef .tc main_arg18) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg18) := W10_of_ne m ρ c main_arg18 (by decide)
    _ = W8 m ρ c (Proc.devRef .tc main_arg18) := StableHlo.after_of_forall_not_mem (b := Proc.devRef .tc main_arg18) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg18) := W8_of_ne m ρ c main_arg18 (by decide)
    _ = W6 m ρ c (Proc.devRef .tc main_arg18) := StableHlo.after_of_forall_not_mem (b := Proc.devRef .tc main_arg18) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg18) := W6_of_ne m ρ c main_arg18 (by decide)
    _ = W4 m ρ c (Proc.devRef .tc main_arg18) := StableHlo.after_of_forall_not_mem (b := Proc.devRef .tc main_arg18) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg18) := W4_of_ne m ρ c main_arg18 (by decide)
    _ = W2 m ρ c (Proc.devRef .tc main_arg18) := StableHlo.after_of_forall_not_mem (b := Proc.devRef .tc main_arg18) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg18) := W2_of_ne m ρ c main_arg18 (by decide)
    _ = W0 m ρ c (Proc.devRef .tc main_arg18) := StableHlo.after_of_forall_not_mem (b := Proc.devRef .tc main_arg18) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg18) := rfl

theorem keep_arg3_20_0 (c : Dev nD) : W20 m ρ c (Proc.devRef .tc main_arg3) = m ((c : Thread nD τ).loc main_arg3) :=
  calc W20 m ρ c (Proc.devRef .tc main_arg3)
    _ = W19 m ρ c (Proc.devRef .tc main_arg3) := W20_of_ne m ρ c main_arg3 (by decide)
    _ = W18 m ρ c (Proc.devRef .tc main_arg3) := StableHlo.after_of_forall_not_mem (b := Proc.devRef .tc main_arg3) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg3) := W18_of_ne m ρ c main_arg3 (by decide)
    _ = W16 m ρ c (Proc.devRef .tc main_arg3) := StableHlo.after_of_forall_not_mem (b := Proc.devRef .tc main_arg3) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg3) := W16_of_ne m ρ c main_arg3 (by decide)
    _ = W14 m ρ c (Proc.devRef .tc main_arg3) := StableHlo.after_of_forall_not_mem (b := Proc.devRef .tc main_arg3) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg3) := W14_of_ne m ρ c main_arg3 (by decide)
    _ = W12 m ρ c (Proc.devRef .tc main_arg3) := StableHlo.after_of_forall_not_mem (b := Proc.devRef .tc main_arg3) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg3) := W12_of_ne m ρ c main_arg3 (by decide)
    _ = W10 m ρ c (Proc.devRef .tc main_arg3) := StableHlo.after_of_forall_not_mem (b := Proc.devRef .tc main_arg3) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg3) := W10_of_ne m ρ c main_arg3 (by decide)
    _ = W8 m ρ c (Proc.devRef .tc main_arg3) := StableHlo.after_of_forall_not_mem (b := Proc.devRef .tc main_arg3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg3) := W8_of_ne m ρ c main_arg3 (by decide)
    _ = W6 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

end Cert.KernelIdeal.Keeps

end
-- ==== Proof.KeepsC.lean ====
import proofs.«412257_j64622077936096_2_alg».proof.Proof.Gen.KernelIdeal.Frame

set_option maxRecDepth 16384

noncomputable section

/-! # Buffers the run leaves alone between two boundaries (part C)

`W0, …, W21` are the buffer contents at the boundaries of the run: after each stretch of host operations and after
each region. A host stretch changes only the buffers its operations write; a region changes only its output array.
So a buffer nobody writes in between holds at a later boundary what it held at an earlier one. -/

namespace Cert.KernelIdeal.Keeps

open Idealize.ShloMosaic Idealize.ShloMosaic.TcCoe Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

theorem keep_v1_4_1 (c : Dev nD) : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

theorem keep_v1_8_4 (c : Dev nD) : W8 m ρ c (Proc.devRef .tc main_v1) = W4 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := StableHlo.after_of_forall_not_mem (b := Proc.devRef .tc main_v1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v1) := W6_of_ne m ρ c main_v1 (by decide)
    _ = W4 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v1_12_8 (c : Dev nD) : W12 m ρ c (Proc.devRef .tc main_v1) = W8 m ρ c (Proc.devRef .tc main_v1) :=
  calc W12 m ρ c (Proc.devRef .tc main_v1)
    _ = W11 m ρ c (Proc.devRef .tc main_v1) := W12_of_ne m ρ c main_v1 (by decide)
    _ = W10 m ρ c (Proc.devRef .tc main_v1) := StableHlo.after_of_forall_not_mem (b := Proc.devRef .tc main_v1) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v1) := W10_of_ne m ρ c main_v1 (by decide)
    _ = W8 m ρ c (Proc.devRef .tc main_v1) := StableHlo.after_of_forall_not_mem (b := Proc.devRef .tc main_v1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v1_16_12 (c : Dev nD) : W16 m ρ c (Proc.devRef .tc main_v1) = W12 m ρ c (Proc.devRef .tc main_v1) :=
  calc W16 m ρ c (Proc.devRef .tc main_v1)
    _ = W15 m ρ c (Proc.devRef .tc main_v1) := W16_of_ne m ρ c main_v1 (by decide)
    _ = W14 m ρ c (Proc.devRef .tc main_v1) := StableHlo.after_of_forall_not_mem (b := Proc.devRef .tc main_v1) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v1) := W14_of_ne m ρ c main_v1 (by decide)
    _ = W12 m ρ c (Proc.devRef .tc main_v1) := StableHlo.after_of_forall_not_mem (b := Proc.devRef .tc main_v1) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v3_6_1 (c : Dev nD) : W6 m ρ c (Proc.devRef .tc main_v3) = W1 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

theorem keep_v3_10_6 (c : Dev nD) : W10 m ρ c (Proc.devRef .tc main_v3) = W6 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := StableHlo.after_of_forall_not_mem (b := Proc.devRef .tc main_v3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v3) := W8_of_ne m ρ c main_v3 (by decide)
    _ = W6 m ρ c (Proc.devRef .tc main_v3) := StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v3_14_10 (c : Dev nD) : W14 m ρ c (Proc.devRef .tc main_v3) = W10 m ρ c (Proc.devRef .tc main_v3) :=
  calc W14 m ρ c (Proc.devRef .tc main_v3)
    _ = W13 m ρ c (Proc.devRef .tc main_v3) := W14_of_ne m ρ c main_v3 (by decide)
    _ = W12 m ρ c (Proc.devRef .tc main_v3) := StableHlo.after_of_forall_not_mem (b := Proc.devRef .tc main_v3) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v3) := W12_of_ne m ρ c main_v3 (by decide)
    _ = W10 m ρ c (Proc.devRef .tc main_v3) := StableHlo.after_of_forall_not_mem (b := Proc.devRef .tc main_v3) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v3_18_14 (c : Dev nD) : W18 m ρ c (Proc.devRef .tc main_v3) = W14 m ρ c (Proc.devRef .tc main_v3) :=
  calc W18 m ρ c (Proc.devRef .tc main_v3)
    _ = W17 m ρ c (Proc.devRef .tc main_v3) := W18_of_ne m ρ c main_v3 (by decide)
    _ = W16 m ρ c (Proc.devRef .tc main_v3) := StableHlo.after_of_forall_not_mem (b := Proc.devRef .tc main_v3) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_v3) := W16_of_ne m ρ c main_v3 (by decide)
    _ = W14 m ρ c (Proc.devRef .tc main_v3) := StableHlo.after_of_forall_not_mem (b := Proc.devRef .tc main_v3) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v6_4_2 (c : Dev nD) : W4 m ρ c (Proc.devRef .tc main_v6) = W2 m ρ c (Proc.devRef .tc main_v6) :=
  calc W4 m ρ c (Proc.devRef .tc main_v6)
    _ = W3 m ρ c (Proc.devRef .tc main_v6) := W4_of_ne m ρ c main_v6 (by decide)
    _ = W2 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v6_7_4 (c : Dev nD) : W7 m ρ c (Proc.devRef .tc main_v6) = W4 m ρ c (Proc.devRef .tc main_v6) :=
  calc W7 m ρ c (Proc.devRef .tc main_v6)
    _ = W6 m ρ c (Proc.devRef .tc main_v6) := StableHlo.after_of_forall_not_mem (b := Proc.devRef .tc main_v6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v9_5_4 (c : Dev nD) : W5 m ρ c (Proc.devRef .tc main_v9) = W4 m ρ c (Proc.devRef .tc main_v9) :=
  calc W5 m ρ c (Proc.devRef .tc main_v9)
    _ = W4 m ρ c (Proc.devRef .tc main_v9) := StableHlo.after_of_forall_not_mem (b := Proc.devRef .tc main_v9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v9_9_5 (c : Dev nD) : W9 m ρ c (Proc.devRef .tc main_v9) = W5 m ρ c (Proc.devRef .tc main_v9) :=
  calc W9 m ρ c (Proc.devRef .tc main_v9)
    _ = W8 m ρ c (Proc.devRef .tc main_v9) := StableHlo.after_of_forall_not_mem (b := Proc.devRef .tc main_v9) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v9) := W8_of_ne m ρ c main_v9 (by decide)
    _ = W6 m ρ c (Proc.devRef .tc main_v9) := StableHlo.after_of_forall_not_mem (b := Proc.devRef .tc main_v9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v9) := (W6_arr m ρ c 1).trans (((dat2 (V5 m ρ) c).arrAt_in 1 rfl _).trans (A_eq2 (V5 m ρ) c 1))

theorem keep_v9_13_9 (c : Dev nD) : W13 m ρ c (Proc.devRef .tc main_v9) = W9 m ρ c (Proc.devRef .tc main_v9) :=
  calc W13 m ρ c (Proc.devRef .tc main_v9)
    _ = W12 m ρ c (Proc.devRef .tc main_v9) := StableHlo.after_of_forall_not_mem (b := Proc.devRef .tc main_v9) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v9) := W12_of_ne m ρ c main_v9 (by decide)
    _ = W10 m ρ c (Proc.devRef .tc main_v9) := StableHlo.after_of_forall_not_mem (b := Proc.devRef .tc main_v9) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v9) := (W10_arr m ρ c 1).trans (((dat4 (V9 m ρ) c).arrAt_in 1 rfl _).trans (A_eq4 (V9 m ρ) c 1))

theorem keep_v9_17_13 (c : Dev nD) : W17 m ρ c (Proc.devRef .tc main_v9) = W13 m ρ c (Proc.devRef .tc main_v9) :=
  calc W17 m ρ c (Proc.devRef .tc main_v9)
    _ = W16 m ρ c (Proc.devRef .tc main_v9) := StableHlo.after_of_forall_not_mem (b := Proc.devRef .tc main_v9) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_v9) := W16_of_ne m ρ c main_v9 (by decide)
    _ = W14 m ρ c (Proc.devRef .tc main_v9) := StableHlo.after_of_forall_not_mem (b := Proc.devRef .tc main_v9) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v9) := (W14_arr m ρ c 1).trans (((dat6 (V13 m ρ) c).arrAt_in 1 rfl _).trans (A_eq6 (V13 m ρ) c 1))

theorem keep_v25_11_8 (c : Dev nD) : W11 m ρ c (Proc.devRef .tc main_v25) = W8 m ρ c (Proc.devRef .tc main_v25) :=
  calc W11 m ρ c (Proc.devRef .tc main_v25)
    _ = W10 m ρ c (Proc.devRef .tc main_v25) := StableHlo.after_of_forall_not_mem (b := Proc.devRef .tc main_v25) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v25) := W10_of_ne m ρ c main_v25 (by decide)
    _ = W8 m ρ c (Proc.devRef .tc main_v25) := StableHlo.after_of_forall_not_mem (b := Proc.devRef .tc main_v25) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v41_15_12 (c : Dev nD) : W15 m ρ c (Proc.devRef .tc main_v41) = W12 m ρ c (Proc.devRef .tc main_v41) :=
  calc W15 m ρ c (Proc.devRef .tc main_v41)
    _ = W14 m ρ c (Proc.devRef .tc main_v41) := StableHlo.after_of_forall_not_mem (b := Proc.devRef .tc main_v41) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v41) := W14_of_ne m ρ c main_v41 (by decide)
    _ = W12 m ρ c (Proc.devRef .tc main_v41) := StableHlo.after_of_forall_not_mem (b := Proc.devRef .tc main_v41) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v57_19_16 (c : Dev nD) : W19 m ρ c (Proc.devRef .tc main_v57) = W16 m ρ c (Proc.devRef .tc main_v57) :=
  calc W19 m ρ c (Proc.devRef .tc main_v57)
    _ = W18 m ρ c (Proc.devRef .tc main_v57) := StableHlo.after_of_forall_not_mem (b := Proc.devRef .tc main_v57) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_v57) := W18_of_ne m ρ c main_v57 (by decide)
    _ = W16 m ρ c (Proc.devRef .tc main_v57) := StableHlo.after_of_forall_not_mem (b := Proc.devRef .tc main_v57) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Keeps

end
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.Region0.lean ====
import proofs.«412257_j64622077936096_2_alg».proof.Proof.Gen.KernelIdeal.Frame
import proofs.«412257_j64622077936096_2_alg».proof.Proof.Spec
import proofs.«412257_j64622077936096_2_alg».proof.Proof.LibPlainDot
import Idealize.ShloMosaic.Lib.Pipeline.Value
import Idealize.ShloMosaic.Lib.ValueIdx

set_option maxRecDepth 16384

noncomputable section

/-! # The node-embedding region: what the node array holds after it

The region's grid has 20 points; point `t` reads the 5000 rows from row `5000·t` of the node features and the whole
of both weight matrices and both bias rows, and writes the same rows of the output: row by row the two-layer stage
`max (x · w₀ + b₀) 0 · w₁ + b₁`. A row of the output depends on the same row of the input only, so the tile's
rows are the stage's rows of the whole array; the 20 blocks tile the 100000 rows. Stated at the region's
entry contents `V`, whatever they are.

On the extended reals a change of float format is the identity and a matrix product into a zero accumulator is the
plain sum over the contracted axis, so the body's two products are the two sums of `dense2Row`. -/

namespace Cert.KernelIdeal.Region0

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Gine
open scoped BigOperators

variable (V : (c : Dev nD) → (b : Ref sig .tc) → Buf (Elt Ideal) ((c : Thread nD τ).loc b))

/-- The five input arrays as the region finds them. -/
abbrev xArr (c : Dev nD) : S100000x32.Idx → EReal := V c (Pipeline.arrRef spec0 0)
abbrev w0Arr (c : Dev nD) : S32x64.Idx → EReal := V c (Pipeline.arrRef spec0 1)
abbrev b0Arr (c : Dev nD) : S1x64.Idx → EReal := V c (Pipeline.arrRef spec0 2)
abbrev w1Arr (c : Dev nD) : S64x64.Idx → EReal := V c (Pipeline.arrRef spec0 3)
abbrev b1Arr (c : Dev nD) : S1x64.Idx → EReal := V c (Pipeline.arrRef spec0 4)

/-- Point `t`'s blocks of the five inputs. -/
abbrev xBlk (c : Dev nD) (t : Fin cfg0.N) : Vec Ideal S5000x32 .f32 := iblk0 V c 0 t
abbrev w0Blk (c : Dev nD) (t : Fin cfg0.N) : Vec Ideal S32x64 .f32 := iblk0 V c 1 t
abbrev b0Blk (c : Dev nD) (t : Fin cfg0.N) : Vec Ideal S1x64 .f32 := iblk0 V c 2 t
abbrev w1Blk (c : Dev nD) (t : Fin cfg0.N) : Vec Ideal S64x64 .f32 := iblk0 V c 3 t
abbrev b1Blk (c : Dev nD) (t : Fin cfg0.N) : Vec Ideal S1x64 .f32 := iblk0 V c 4 t

theorem hz : (![0, 0] : Fin 2 → Nat) = fun _ => 0 := funext fun a => by fin_cases a <;> rfl

/-- A bias row broadcast down the tile's rows, at an entry: the row's entry in that column. -/
theorem bias_apply (b : Vec Ideal S1x64 .f32) (p : Fin 5000) (q : Fin 64) :
    broadcastTo S5000x64 b broadcasts_S1x64_S5000x64 (ix2 p q) = b (ix2 0 q) :=
  broadcastTo_apply b broadcasts_S1x64_S5000x64 (ix2 p q) (ix2 0 q) fun a => by
    match a with
    | ⟨0, _⟩ => rfl
    | ⟨1, _⟩ => rfl

/-- The first product of the body, at an entry: the sum over the 32 input features. -/
theorem dot0_apply (l : FVec Ideal S5000x32 .f32) (r : FVec Ideal S32x64 .f32) (p : Fin 5000) (q : Fin 64) :
    matmul (F := Ideal) dot_S5000x32_S32x64_S5000x64_1_0_0_1_n_n none (truncf .bf16 l bitsLt_bf16_f32) (truncf .bf16 r bitsLt_bf16_f32)
        (constant S5000x64 .f32 0x00000000#32) (ix2 p q)
      = ∑ k : Fin 32, l (ix2 p k) * r (ix2 k q) :=
  Cert.PlainDot.matmul_zero_apply (M := 5000) (K := 32) (N := 64) dot_S5000x32_S32x64_S5000x64_1_0_0_1_n_n rfl none
    (truncf .bf16 l bitsLt_bf16_f32) (truncf .bf16 r bitsLt_bf16_f32) (ix2 p q)

/-- The second product of the body, at an entry: the sum over the 64 hidden features. -/
theorem dot1_apply (l : FVec Ideal S5000x64 .f32) (r : FVec Ideal S64x64 .f32) (p : Fin 5000) (q : Fin 64) :
    matmul (F := Ideal) dot_S5000x64_S64x64_S5000x64_1_0_0_1_n_n none (truncf .bf16 l bitsLt_bf16_f32) (truncf .bf16 r bitsLt_bf16_f32)
        (constant S5000x64 .f32 0x00000000#32) (ix2 p q)
      = ∑ k : Fin 64, l (ix2 p k) * r (ix2 k q) :=
  Cert.PlainDot.matmul_zero_apply (M := 5000) (K := 64) (N := 64) dot_S5000x64_S64x64_S5000x64_1_0_0_1_n_n rfl none
    (truncf .bf16 l bitsLt_bf16_f32) (truncf .bf16 r bitsLt_bf16_f32) (ix2 p q)

/-- The body's one store, entry by entry: the two-layer stage of the tile's row. -/
theorem pay_apply (v0 : Vec Ideal S5000x32 .f32) (v2 : Vec Ideal S32x64 .f32) (v4 : Vec Ideal S1x64 .f32) (v12 : Vec Ideal S64x64 .f32)
    (v14 : Vec Ideal S1x64 .f32) (p : Fin 5000) (q : Fin 64) :
    k0_pay1 (F := Ideal) v0 v2 v4 v12 v14 (ix2 p q) = dense2Row (fun k => v0 (ix2 p k)) v2 v4 v12 v14 q := by
  unfold k0_pay1 dense2Row affineRow
  simp only [addf, maximumf, broadcast, Ideal.addf_def, Ideal.maximumf_def, shapeCast_self]
  refine congrArg₂ (· + ·) ?_ (bias_apply v14 p q)
  refine (dot1_apply _ v12 p q).trans ?_
  refine Finset.sum_congr rfl fun k _ => ?_
  refine congrArg₂ (· * ·) ?_ rfl
  show max (matmul (F := Ideal) dot_S5000x32_S32x64_S5000x64_1_0_0_1_n_n none (truncf (F := Ideal) .bf16 v0 bitsLt_bf16_f32)
        (truncf (F := Ideal) .bf16 v2 bitsLt_bf16_f32)
        (constant S5000x64 .f32 0x00000000#32) (ix2 p k) + broadcastTo S5000x64 v4 broadcasts_S1x64_S5000x64 (ix2 p k))
      (Ideal.ofBits .f32 0x00000000#32) = _
  rw [Ideal.ofBits_zero_f32, dot0_apply v0 v2 p k, bias_apply v4 p k]

/-- The feature window and the output window move down the rows together, block `t` at rows `5000·t …`; the four
    parameter windows stay at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is its block of the two-layer stage of the five input arrays. -/
theorem flushed_eq (c : Dev nD) (t : Fin cfg0.N) :
    (dat0 V c).flushed 5 t = ((cfg0.win 5).blk t).view.read (Elt Ideal)
      (dense2 (xArr V c) (w0Arr V c) (b0Arr V c) (w1Arr V c) (b1Arr V c)) := by
  show (cfg0.win 5).cut (grid0.coords t) ((dat0 V c).after 5 t) = _
  rw [after0_5]
  unfold out0_5
  rw [View.canon_unit_zero hz]
  simp only [View.ld_unit_zero (S := S5000x32) hz, View.ld_unit_zero (S := S32x64) hz, View.ld_unit_zero (S := S1x64) hz,
    View.ld_unit_zero (S := S64x64) hz]
  obtain ⟨e00, e01, e10, e11, e20, e21, e30, e31, e40, e41, e50, e51⟩ := idx_facts t
  have ht : t.val < 20 := by have h := t.isLt; have hN : cfg0.N = 20 := N_0; omega
  funext j
  obtain ⟨p, q, rfl⟩ : ∃ (p : Fin 5000) (q : Fin 64), j = ix2 p q := ⟨j 0, j 1, eq_ix2 j⟩
  show k0_pay1 (F := Ideal) (xBlk V c t) (w0Blk V c t) (b0Blk V c t) (w1Blk V c t) (b1Blk V c t) (ix2 p q) = _
  refine (pay_apply (xBlk V c t) (w0Blk V c t) (b0Blk V c t) (w1Blk V c t) (b1Blk V c t) p q).trans ?_
  -- the global row of the tile's row `p`
  let r : Fin 100000 := ⟨t.val * 5000 + p.val, by have := p.isLt; omega⟩
  have h5 : ((cfg0.win 5).blk t).view.emb (ix2 p q) = ix2 r q := by
    funext a; apply Fin.ext
    match a with
    | ⟨0, _⟩ => show win0_5.index t (0 : Fin 2) * 5000 + 1 * p.val = t.val * 5000 + p.val; omega
    | ⟨1, _⟩ => show win0_5.index t (1 : Fin 2) * 64 + 1 * q.val = q.val; omega
  have hx : ∀ k : Fin 32, xBlk V c t (ix2 p k) = xArr V c (ix2 r k) := fun k => by
    show xArr V c (((cfg0.win 0).blk t).view.emb (ix2 p k)) = _
    refine congrArg _ ?_
    funext a; apply Fin.ext
    match a with
    | ⟨0, _⟩ => show win0_0.index t (0 : Fin 2) * 5000 + 1 * p.val = t.val * 5000 + p.val; omega
    | ⟨1, _⟩ => show win0_0.index t (1 : Fin 2) * 32 + 1 * k.val = k.val; omega
  have hw0 : w0Blk V c t = w0Arr V c := by
    funext y
    show w0Arr V c (((cfg0.win 1).blk t).view.emb y) = _
    refine congrArg _ ?_
    funext a; apply Fin.ext
    match a with
    | ⟨0, _⟩ => show win0_1.index t (0 : Fin 2) * 32 + 1 * (y 0).val = (y 0).val; omega
    | ⟨1, _⟩ => show win0_1.index t (1 : Fin 2) * 64 + 1 * (y 1).val = (y 1).val; omega
  have hb0 : b0Blk V c t = b0Arr V c := by
    funext y
    show b0Arr V c (((cfg0.win 2).blk t).view.emb y) = _
    refine congrArg _ ?_
    funext a; apply Fin.ext
    match a with
    | ⟨0, _⟩ => show win0_2.index t (0 : Fin 2) * 1 + 1 * (y 0).val = (y 0).val; omega
    | ⟨1, _⟩ => show win0_2.index t (1 : Fin 2) * 64 + 1 * (y 1).val = (y 1).val; omega
  have hw1 : w1Blk V c t = w1Arr V c := by
    funext y
    show w1Arr V c (((cfg0.win 3).blk t).view.emb y) = _
    refine congrArg _ ?_
    funext a; apply Fin.ext
    match a with
    | ⟨0, _⟩ => show win0_3.index t (0 : Fin 2) * 64 + 1 * (y 0).val = (y 0).val; omega
    | ⟨1, _⟩ => show win0_3.index t (1 : Fin 2) * 64 + 1 * (y 1).val = (y 1).val; omega
  have hb1 : b1Blk V c t = b1Arr V c := by
    funext y
    show b1Arr V c (((cfg0.win 4).blk t).view.emb y) = _
    refine congrArg _ ?_
    funext a; apply Fin.ext
    match a with
    | ⟨0, _⟩ => show win0_4.index t (0 : Fin 2) * 1 + 1 * (y 0).val = (y 0).val; omega
    | ⟨1, _⟩ => show win0_4.index t (1 : Fin 2) * 64 + 1 * (y 1).val = (y 1).val; omega
  show dense2Row (fun k => xBlk V c t (ix2 p k)) (w0Blk V c t) (b0Blk V c t) (w1Blk V c t) (b1Blk V c t) q
     = dense2 (xArr V c) (w0Arr V c) (b0Arr V c) (w1Arr V c) (b1Arr V c) (((cfg0.win 5).blk t).view.emb (ix2 p q))
  rw [h5, hw0, hb0, hw1, hb1, funext hx]
  rfl

/-- An index of the array is in point `t`'s block iff each coordinate is in the block's range on its axis. -/
theorem mem_blk (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v6).slice (win0_5.rect t)).set ↔ _
  rw [View.set_slice_whole, Rect.mem_set_unit]
  exact Iff.rfl

/-- The blocks tile the array: row `r` is in the block of point `r / 5000`. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨e00, e01, e10, e11, e20, e21, e30, e31, e40, e41, e50, e51⟩ := idx_facts t
  have e50' : win0_5.index t (0 : Fin 2) = (i 0).val / 5000 := e50
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- After the region the output array is the two-layer stage of the five input arrays as the region found them. -/
theorem value (c : Dev nD) :
    (dat0 V c).arrAt 5 cfg0.N = dense2 (xArr V c) (w0Arr V c) (b0Arr V c) (w1Arr V c) (b1Arr V c) :=
  (dat0 V c).arrAt_eq_of_cover 5 (dense2 (xArr V c) (w0Arr V c) (b0Arr V c) (w1Arr V c) (b1Arr V c))
    (fun t _ => flushed_eq V c t) cover

end Cert.KernelIdeal.Region0

end
-- ==== Proof.Region1.lean ====
import proofs.«412257_j64622077936096_2_alg».proof.Proof.Gen.KernelIdeal.Frame
import proofs.«412257_j64622077936096_2_alg».proof.Proof.Spec
import proofs.«412257_j64622077936096_2_alg».proof.Proof.LibPlainDot
import Idealize.ShloMosaic.Lib.Pipeline.Value
import Idealize.ShloMosaic.Lib.ValueIdx

set_option maxRecDepth 16384

noncomputable section

/-! # The edge-embedding region: what the edge array holds after it

The region's grid has 100 points; point `t` reads the 10000 rows from row `10000·t` of the edge features and the whole
of both weight matrices and both bias rows, and writes the same rows of the output: row by row the two-layer stage
`max (x · w₀ + b₀) 0 · w₁ + b₁`. A row of the output depends on the same row of the input only, so the tile's
rows are the stage's rows of the whole array; the 100 blocks tile the 1000000 rows. Stated at the region's
entry contents `V`, whatever they are.

On the extended reals a change of float format is the identity and a matrix product into a zero accumulator is the
plain sum over the contracted axis, so the body's two products are the two sums of `dense2Row`. -/

namespace Cert.KernelIdeal.Region1

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Gine
open scoped BigOperators

variable (V : (c : Dev nD) → (b : Ref sig .tc) → Buf (Elt Ideal) ((c : Thread nD τ).loc b))

/-- The five input arrays as the region finds them. -/
abbrev xArr (c : Dev nD) : S1000000x16.Idx → EReal := V c (Pipeline.arrRef spec1 0)
abbrev w0Arr (c : Dev nD) : S16x64.Idx → EReal := V c (Pipeline.arrRef spec1 1)
abbrev b0Arr (c : Dev nD) : S1x64.Idx → EReal := V c (Pipeline.arrRef spec1 2)
abbrev w1Arr (c : Dev nD) : S64x64.Idx → EReal := V c (Pipeline.arrRef spec1 3)
abbrev b1Arr (c : Dev nD) : S1x64.Idx → EReal := V c (Pipeline.arrRef spec1 4)

/-- Point `t`'s blocks of the five inputs. -/
abbrev xBlk (c : Dev nD) (t : Fin cfg1.N) : Vec Ideal S10000x16 .f32 := iblk1 V c 0 t
abbrev w0Blk (c : Dev nD) (t : Fin cfg1.N) : Vec Ideal S16x64 .f32 := iblk1 V c 1 t
abbrev b0Blk (c : Dev nD) (t : Fin cfg1.N) : Vec Ideal S1x64 .f32 := iblk1 V c 2 t
abbrev w1Blk (c : Dev nD) (t : Fin cfg1.N) : Vec Ideal S64x64 .f32 := iblk1 V c 3 t
abbrev b1Blk (c : Dev nD) (t : Fin cfg1.N) : Vec Ideal S1x64 .f32 := iblk1 V c 4 t

theorem hz : (![0, 0] : Fin 2 → Nat) = fun _ => 0 := funext fun a => by fin_cases a <;> rfl

/-- A bias row broadcast down the tile's rows, at an entry: the row's entry in that column. -/
theorem bias_apply (b : Vec Ideal S1x64 .f32) (p : Fin 10000) (q : Fin 64) :
    broadcastTo S10000x64 b broadcasts_S1x64_S10000x64 (ix2 p q) = b (ix2 0 q) :=
  broadcastTo_apply b broadcasts_S1x64_S10000x64 (ix2 p q) (ix2 0 q) fun a => by
    match a with
    | ⟨0, _⟩ => rfl
    | ⟨1, _⟩ => rfl

/-- The first product of the body, at an entry: the sum over the 16 input features. -/
theorem dot0_apply (l : FVec Ideal S10000x16 .f32) (r : FVec Ideal S16x64 .f32) (p : Fin 10000) (q : Fin 64) :
    matmul (F := Ideal) dot_S10000x16_S16x64_S10000x64_1_0_0_1_n_n none (truncf .bf16 l bitsLt_bf16_f32) (truncf .bf16 r bitsLt_bf16_f32)
        (constant S10000x64 .f32 0x00000000#32) (ix2 p q)
      = ∑ k : Fin 16, l (ix2 p k) * r (ix2 k q) :=
  Cert.PlainDot.matmul_zero_apply (M := 10000) (K := 16) (N := 64) dot_S10000x16_S16x64_S10000x64_1_0_0_1_n_n rfl none
    (truncf .bf16 l bitsLt_bf16_f32) (truncf .bf16 r bitsLt_bf16_f32) (ix2 p q)

/-- The second product of the body, at an entry: the sum over the 64 hidden features. -/
theorem dot1_apply (l : FVec Ideal S10000x64 .f32) (r : FVec Ideal S64x64 .f32) (p : Fin 10000) (q : Fin 64) :
    matmul (F := Ideal) dot_S10000x64_S64x64_S10000x64_1_0_0_1_n_n none (truncf .bf16 l bitsLt_bf16_f32) (truncf .bf16 r bitsLt_bf16_f32)
        (constant S10000x64 .f32 0x00000000#32) (ix2 p q)
      = ∑ k : Fin 64, l (ix2 p k) * r (ix2 k q) :=
  Cert.PlainDot.matmul_zero_apply (M := 10000) (K := 64) (N := 64) dot_S10000x64_S64x64_S10000x64_1_0_0_1_n_n rfl none
    (truncf .bf16 l bitsLt_bf16_f32) (truncf .bf16 r bitsLt_bf16_f32) (ix2 p q)

/-- The body's one store, entry by entry: the two-layer stage of the tile's row. -/
theorem pay_apply (v0 : Vec Ideal S10000x16 .f32) (v2 : Vec Ideal S16x64 .f32) (v4 : Vec Ideal S1x64 .f32) (v12 : Vec Ideal S64x64 .f32)
    (v14 : Vec Ideal S1x64 .f32) (p : Fin 10000) (q : Fin 64) :
    k1_pay1 (F := Ideal) v0 v2 v4 v12 v14 (ix2 p q) = dense2Row (fun k => v0 (ix2 p k)) v2 v4 v12 v14 q := by
  unfold k1_pay1 dense2Row affineRow
  simp only [addf, maximumf, broadcast, Ideal.addf_def, Ideal.maximumf_def, shapeCast_self]
  refine congrArg₂ (· + ·) ?_ (bias_apply v14 p q)
  refine (dot1_apply _ v12 p q).trans ?_
  refine Finset.sum_congr rfl fun k _ => ?_
  refine congrArg₂ (· * ·) ?_ rfl
  show max (matmul (F := Ideal) dot_S10000x16_S16x64_S10000x64_1_0_0_1_n_n none (truncf (F := Ideal) .bf16 v0 bitsLt_bf16_f32)
        (truncf (F := Ideal) .bf16 v2 bitsLt_bf16_f32)
        (constant S10000x64 .f32 0x00000000#32) (ix2 p k) + broadcastTo S10000x64 v4 broadcasts_S1x64_S10000x64 (ix2 p k))
      (Ideal.ofBits .f32 0x00000000#32) = _
  rw [Ideal.ofBits_zero_f32, dot0_apply v0 v2 p k, bias_apply v4 p k]

/-- The feature window and the output window move down the rows together, block `t` at rows `10000·t …`; the four
    parameter windows stay at their one block. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is its block of the two-layer stage of the five input arrays. -/
theorem flushed_eq (c : Dev nD) (t : Fin cfg1.N) :
    (dat1 V c).flushed 5 t = ((cfg1.win 5).blk t).view.read (Elt Ideal)
      (dense2 (xArr V c) (w0Arr V c) (b0Arr V c) (w1Arr V c) (b1Arr V c)) := by
  show (cfg1.win 5).cut (grid1.coords t) ((dat1 V c).after 5 t) = _
  rw [after1_5]
  unfold out1_5
  rw [View.canon_unit_zero hz]
  simp only [View.ld_unit_zero (S := S10000x16) hz, View.ld_unit_zero (S := S16x64) hz, View.ld_unit_zero (S := S1x64) hz,
    View.ld_unit_zero (S := S64x64) hz]
  obtain ⟨e00, e01, e10, e11, e20, e21, e30, e31, e40, e41, e50, e51⟩ := idx_facts t
  have ht : t.val < 100 := by have h := t.isLt; have hN : cfg1.N = 100 := N_1; omega
  funext j
  obtain ⟨p, q, rfl⟩ : ∃ (p : Fin 10000) (q : Fin 64), j = ix2 p q := ⟨j 0, j 1, eq_ix2 j⟩
  show k1_pay1 (F := Ideal) (xBlk V c t) (w0Blk V c t) (b0Blk V c t) (w1Blk V c t) (b1Blk V c t) (ix2 p q) = _
  refine (pay_apply (xBlk V c t) (w0Blk V c t) (b0Blk V c t) (w1Blk V c t) (b1Blk V c t) p q).trans ?_
  -- the global row of the tile's row `p`
  let r : Fin 1000000 := ⟨t.val * 10000 + p.val, by have := p.isLt; omega⟩
  have h5 : ((cfg1.win 5).blk t).view.emb (ix2 p q) = ix2 r q := by
    funext a; apply Fin.ext
    match a with
    | ⟨0, _⟩ => show win1_5.index t (0 : Fin 2) * 10000 + 1 * p.val = t.val * 10000 + p.val; omega
    | ⟨1, _⟩ => show win1_5.index t (1 : Fin 2) * 64 + 1 * q.val = q.val; omega
  have hx : ∀ k : Fin 16, xBlk V c t (ix2 p k) = xArr V c (ix2 r k) := fun k => by
    show xArr V c (((cfg1.win 0).blk t).view.emb (ix2 p k)) = _
    refine congrArg _ ?_
    funext a; apply Fin.ext
    match a with
    | ⟨0, _⟩ => show win1_0.index t (0 : Fin 2) * 10000 + 1 * p.val = t.val * 10000 + p.val; omega
    | ⟨1, _⟩ => show win1_0.index t (1 : Fin 2) * 16 + 1 * k.val = k.val; omega
  have hw0 : w0Blk V c t = w0Arr V c := by
    funext y
    show w0Arr V c (((cfg1.win 1).blk t).view.emb y) = _
    refine congrArg _ ?_
    funext a; apply Fin.ext
    match a with
    | ⟨0, _⟩ => show win1_1.index t (0 : Fin 2) * 16 + 1 * (y 0).val = (y 0).val; omega
    | ⟨1, _⟩ => show win1_1.index t (1 : Fin 2) * 64 + 1 * (y 1).val = (y 1).val; omega
  have hb0 : b0Blk V c t = b0Arr V c := by
    funext y
    show b0Arr V c (((cfg1.win 2).blk t).view.emb y) = _
    refine congrArg _ ?_
    funext a; apply Fin.ext
    match a with
    | ⟨0, _⟩ => show win1_2.index t (0 : Fin 2) * 1 + 1 * (y 0).val = (y 0).val; omega
    | ⟨1, _⟩ => show win1_2.index t (1 : Fin 2) * 64 + 1 * (y 1).val = (y 1).val; omega
  have hw1 : w1Blk V c t = w1Arr V c := by
    funext y
    show w1Arr V c (((cfg1.win 3).blk t).view.emb y) = _
    refine congrArg _ ?_
    funext a; apply Fin.ext
    match a with
    | ⟨0, _⟩ => show win1_3.index t (0 : Fin 2) * 64 + 1 * (y 0).val = (y 0).val; omega
    | ⟨1, _⟩ => show win1_3.index t (1 : Fin 2) * 64 + 1 * (y 1).val = (y 1).val; omega
  have hb1 : b1Blk V c t = b1Arr V c := by
    funext y
    show b1Arr V c (((cfg1.win 4).blk t).view.emb y) = _
    refine congrArg _ ?_
    funext a; apply Fin.ext
    match a with
    | ⟨0, _⟩ => show win1_4.index t (0 : Fin 2) * 1 + 1 * (y 0).val = (y 0).val; omega
    | ⟨1, _⟩ => show win1_4.index t (1 : Fin 2) * 64 + 1 * (y 1).val = (y 1).val; omega
  show dense2Row (fun k => xBlk V c t (ix2 p k)) (w0Blk V c t) (b0Blk V c t) (w1Blk V c t) (b1Blk V c t) q
     = dense2 (xArr V c) (w0Arr V c) (b0Arr V c) (w1Arr V c) (b1Arr V c) (((cfg1.win 5).blk t).view.emb (ix2 p q))
  rw [h5, hw0, hb0, hw1, hb1, funext hx]
  rfl

/-- An index of the array is in point `t`'s block iff each coordinate is in the block's range on its axis. -/
theorem mem_blk (t : Fin cfg1.N) (i : S1000000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v9).slice (win1_5.rect t)).set ↔ _
  rw [View.set_slice_whole, Rect.mem_set_unit]
  exact Iff.rfl

/-- The blocks tile the array: row `r` is in the block of point `r / 10000`. -/
theorem cover (i : S1000000x64.Idx) : ∃ t : Fin cfg1.N, (cfg1.win 5).flush t = true ∧ i ∈ ((cfg1.win 5).blk t).view.set := by
  have hi0 : (i 0).val < 1000000 := (i 0).isLt
  have hi1 : (i 1).val < 64 := (i 1).isLt
  have hN : cfg1.N = 100 := N_1
  let t : Fin cfg1.N := ⟨(i 0).val / 10000, by rw [hN]; omega⟩
  obtain ⟨e00, e01, e10, e11, e20, e21, e30, e31, e40, e41, e50, e51⟩ := idx_facts t
  have e50' : win1_5.index t (0 : Fin 2) = (i 0).val / 10000 := e50
  refine ⟨t, flush1_5 t, ?_⟩
  rw [mem_blk]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 64 ≤ (i 1).val ∧ (i 1).val < win1_5.index t (1 : Fin 2) * 64 + 64; omega

/-- After the region the output array is the two-layer stage of the five input arrays as the region found them. -/
theorem value (c : Dev nD) :
    (dat1 V c).arrAt 5 cfg1.N = dense2 (xArr V c) (w0Arr V c) (b0Arr V c) (w1Arr V c) (b1Arr V c) :=
  (dat1 V c).arrAt_eq_of_cover 5 (dense2 (xArr V c) (w0Arr V c) (b0Arr V c) (w1Arr V c) (b1Arr V c))
    (fun t _ => flushed_eq V c t) cover

end Cert.KernelIdeal.Region1

end
-- ==== Proof.ChainBase.lean ====
import proofs.«412257_j64622077936096_2_alg».proof.Proof.Gen.KernelIdeal.Frame
import proofs.«412257_j64622077936096_2_alg».proof.Proof.Network
import proofs.«412257_j64622077936096_2_alg».proof.Proof.Layout
import proofs.«412257_j64622077936096_2_alg».proof.Proof.Take
import proofs.«412257_j64622077936096_2_alg».proof.Proof.KeepsA
import proofs.«412257_j64622077936096_2_alg».proof.Proof.KeepsB
import proofs.«412257_j64622077936096_2_alg».proof.Proof.KeepsC
import proofs.«412257_j64622077936096_2_alg».proof.Proof.Region0
import proofs.«412257_j64622077936096_2_alg».proof.Proof.Region1
import Idealize.ShloMosaic.Lib.StableHlo.Run

set_option maxRecDepth 16384

noncomputable section

/-! # The kernel program's run, stage by stage: the two embeddings

The run's buffer contents at its boundaries are the fold `W0, …, W21`. Reading the fold forwards from the launch
memory: the first host stretch cuts the source and target index vectors out of the edge index array and lays two
bias vectors out as rows; the first region leaves the node array `h₀`, the two-layer stage of the node features;
the next stretch lays two more bias vectors out; the second region leaves the edge array `e`, the two-layer stage
of the edge features.

The three index-driven operations are named here in the program's own terms, as functions of the integer arguments:
the row gather at the wrapped source index, the scatter-add to the target nodes, the scatter-add to the graphs. -/

namespace Cert.KernelIdeal.Chain

open Idealize.ShloMosaic Idealize.ShloMosaic.TcCoe Idealize.SL.Sem Idealize.ShloMosaic.StableHlo
open Cert.KernelIdeal Cert.KernelIdeal.Gen
open Cert.KernelIdeal.Keeps Cert.KernelIdeal.Take Cert.Gine

variable (m : (ℓ : Loc nD τ sig) → Buf (Elt Ideal) ℓ) (ρ : Dev nD → PrngReg) (c : Dev nD)

/-- Rows 0 and 1 of the edge index array, as vectors: every edge's source index and target index. -/
abbrev edgeRow0 : IVec S1000000 32 :=
  shapeCast S1000000 (extractStridedSlice S1x1000000 ![0, 0] (m ((c : Thread nD τ).loc main_arg1)) slices_S2x1000000_S1x1000000_0_0) shapeCasts_S1x1000000_S1000000
abbrev edgeRow1 : IVec S1000000 32 :=
  shapeCast S1000000 (extractStridedSlice S1x1000000 ![1, 0] (m ((c : Thread nD τ).loc main_arg1)) slices_S2x1000000_S1x1000000_1_0) shapeCasts_S1x1000000_S1000000

/-- Node rows to edge rows: each edge's source row. -/
def gatherSrc : Nodes → Edges := fun h => gatherRows h (edgeRow0 m c)

/-- Edge rows summed into node rows: each edge's row added to its target node's. -/
def scatterDst : Edges → Nodes := fun u =>
  Host.scatterAdd scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 (edgeRow1 m c)) u

/-- Node rows summed into graph rows. -/
def pool : Nodes → Graphs := fun u =>
  Host.scatterAdd scatter_S512x64_S100000x1_S100000x64_1_0_0_1
    (broadcastInDim S512x64 ![] bcast_S_S512x64 (constant (F := Ideal) S_ .f32 0x00000000#32))
    (broadcastInDim S100000x1 ![0] bcast_S100000_S100000x1_0 (m ((c : Thread nD τ).loc main_arg3))) u

/-- Every edge's source index lies in `[-100000, 100000)`: what the precondition says of the edge index array. -/
abbrev SrcInRange : Prop :=
  ∀ j : S1000000.Idx, (-100000 : ℤ) ≤ (edgeRow0 m c j).toInt ∧ (edgeRow0 m c j).toInt < 100000

/-- The self-loop weight, as the word both programs carry. -/
abbrev selfWeight : EReal := Ideal.ofBits .f32 0x3F8CCCCD#32

/-- The node array after the first region, and the edge array after the second. -/
abbrev h0 : Nodes := dense2 (m ((c : Thread nD τ).loc main_arg0)) (m ((c : Thread nD τ).loc main_arg4)) (asRow (m ((c : Thread nD τ).loc main_arg5))) (m ((c : Thread nD τ).loc main_arg6)) (asRow (m ((c : Thread nD τ).loc main_arg7)))
abbrev eArr : Edges := dense2 (m ((c : Thread nD τ).loc main_arg2)) (m ((c : Thread nD τ).loc main_arg8)) (asRow (m ((c : Thread nD τ).loc main_arg9))) (m ((c : Thread nD τ).loc main_arg10)) (asRow (m ((c : Thread nD τ).loc main_arg11)))

/-! ## Typed references

An operation of a called function names its operands by typed references: contents travel to the buffer's own type and
back along an equation between the two types that holds by unfolding, so both ways are the identity. -/

/-- Contents carried to a typed reference's buffer and back are the contents. -/
theorem ofBuf_toBuf {sig : RefSig} {T : BufTy} {Val : EltTy → Type} (x : StableHlo.TRef sig T) (v : T.Contents Val) :
    x.ofBuf (x.toBuf v) = v := by
  obtain ⟨r, rfl, _, _⟩ := x
  rfl

/-- Read through the source index vector's typed reference, contents are unchanged. -/
theorem ofBuf_v1 (h1 : main_v1.ty = ⟨S1000000, .i32⟩) (h2 h3) (v : main_v1.ty.Contents (Elt Ideal)) :
    (StableHlo.TRef.of (sig := sig) main_v1 h1 h2 h3).ofBuf v = v := rfl

/-! ## After the first host stretch -/

theorem W1_v1 : W1 m ρ c (Proc.devRef .tc main_v1) = edgeRow0 m c := by
  show StableHlo.after (hostOps0 (F := Ideal)) (W0 m ρ c) (Proc.devRef .tc main_v1) = _
  after_results; rfl

theorem W1_v3 : W1 m ρ c (Proc.devRef .tc main_v3) = edgeRow1 m c := by
  show StableHlo.after (hostOps0 (F := Ideal)) (W0 m ρ c) (Proc.devRef .tc main_v3) = _
  after_results; rfl

theorem W1_v4 : W1 m ρ c (Proc.devRef .tc main_v4) = asRow (m ((c : Thread nD τ).loc main_arg5)) := by
  refine Eq.trans ?_ (reshape_row (m ((c : Thread nD τ).loc main_arg5)) shapeCasts_S64_S1x64)
  show StableHlo.after (hostOps0 (F := Ideal)) (W0 m ρ c) (Proc.devRef .tc main_v4) = _
  after_results; rfl

theorem W1_v5 : W1 m ρ c (Proc.devRef .tc main_v5) = asRow (m ((c : Thread nD τ).loc main_arg7)) := by
  refine Eq.trans ?_ (reshape_row (m ((c : Thread nD τ).loc main_arg7)) shapeCasts_S64_S1x64)
  show StableHlo.after (hostOps0 (F := Ideal)) (W0 m ρ c) (Proc.devRef .tc main_v5) = _
  after_results; rfl

/-! ## After the first region: the node array -/

theorem W2_v6 : W2 m ρ c (Proc.devRef .tc main_v6) = h0 m c := by
  refine (W2_arr m ρ c 5).trans ((Region0.value (V1 m ρ) c).trans ?_)
  have e0 : Region0.xArr (V1 m ρ) c = (m ((c : Thread nD τ).loc main_arg0)) := keep_arg0_1_0 m ρ c
  have e1 : Region0.w0Arr (V1 m ρ) c = (m ((c : Thread nD τ).loc main_arg4)) := keep_arg4_1_0 m ρ c
  have e2 : Region0.b0Arr (V1 m ρ) c = asRow (m ((c : Thread nD τ).loc main_arg5)) := W1_v4 m ρ c
  have e3 : Region0.w1Arr (V1 m ρ) c = (m ((c : Thread nD τ).loc main_arg6)) := keep_arg6_1_0 m ρ c
  have e4 : Region0.b1Arr (V1 m ρ) c = asRow (m ((c : Thread nD τ).loc main_arg7)) := W1_v5 m ρ c
  rw [e0, e1, e2, e3, e4]

/-! ## After the second host stretch and the second region: the edge array -/

theorem W3_v7 : W3 m ρ c (Proc.devRef .tc main_v7) = asRow (m ((c : Thread nD τ).loc main_arg9)) := by
  refine Eq.trans ?_ (reshape_row (m ((c : Thread nD τ).loc main_arg9)) shapeCasts_S64_S1x64)
  refine Eq.trans ?_ (congrArg (fun x => shapeCast S1x64 x shapeCasts_S64_S1x64) (keep_arg9_2_0 m ρ c))
  show StableHlo.after (hostOps1 (F := Ideal)) (W2 m ρ c) (Proc.devRef .tc main_v7) = _
  after_results; rfl

theorem W3_v8 : W3 m ρ c (Proc.devRef .tc main_v8) = asRow (m ((c : Thread nD τ).loc main_arg11)) := by
  refine Eq.trans ?_ (reshape_row (m ((c : Thread nD τ).loc main_arg11)) shapeCasts_S64_S1x64)
  refine Eq.trans ?_ (congrArg (fun x => shapeCast S1x64 x shapeCasts_S64_S1x64) (keep_arg11_2_0 m ρ c))
  show StableHlo.after (hostOps1 (F := Ideal)) (W2 m ρ c) (Proc.devRef .tc main_v8) = _
  after_results; rfl

theorem W4_v9 : W4 m ρ c (Proc.devRef .tc main_v9) = eArr m c := by
  refine (W4_arr m ρ c 5).trans ((Region1.value (V3 m ρ) c).trans ?_)
  have e0 : Region1.xArr (V3 m ρ) c = (m ((c : Thread nD τ).loc main_arg2)) := keep_arg2_3_0 m ρ c
  have e1 : Region1.w0Arr (V3 m ρ) c = (m ((c : Thread nD τ).loc main_arg8)) := keep_arg8_3_0 m ρ c
  have e2 : Region1.b0Arr (V3 m ρ) c = asRow (m ((c : Thread nD τ).loc main_arg9)) := W3_v7 m ρ c
  have e3 : Region1.w1Arr (V3 m ρ) c = (m ((c : Thread nD τ).loc main_arg10)) := keep_arg10_3_0 m ρ c
  have e4 : Region1.b1Arr (V3 m ρ) c = asRow (m ((c : Thread nD τ).loc main_arg11)) := W3_v8 m ρ c
  rw [e0, e1, e2, e3, e4]

/-! ## What the first round finds: the node array, the source indices, the edge array, the target indices -/

/-- (The range hypothesis is not used here: it is taken so that every round's entry fact has one shape.) -/
theorem W4_v6 (hr : SrcInRange m c) : W4 m ρ c (Proc.devRef .tc main_v6) = h0 m c := (keep_v6_4_2 m ρ c).trans (W2_v6 m ρ c)
theorem W4_v1 : W4 m ρ c (Proc.devRef .tc main_v1) = edgeRow0 m c := (keep_v1_4_1 m ρ c).trans (W1_v1 m ρ c)
theorem W5_v9 : W5 m ρ c (Proc.devRef .tc main_v9) = eArr m c := (keep_v9_5_4 m ρ c).trans (W4_v9 m ρ c)
theorem W6_v3 : W6 m ρ c (Proc.devRef .tc main_v3) = edgeRow1 m c := (keep_v3_6_1 m ρ c).trans (W1_v3 m ρ c)

end Cert.KernelIdeal.Chain

end
-- ==== Proof.Region2.lean ====
import proofs.«412257_j64622077936096_2_alg».proof.Proof.Gen.KernelIdeal.Frame
import proofs.«412257_j64622077936096_2_alg».proof.Proof.Spec
import Idealize.ShloMosaic.Lib.Pipeline.Value
import Idealize.ShloMosaic.Lib.ValueIdx

set_option maxRecDepth 16384

noncomputable section

/-! # The message region: what the edge array holds after it

The region's grid has 100 points; point `t` reads rows `10000·t … 10000·t + 9999` of the gathered source rows and
of the edge rows, and writes the same rows of the output: entry by entry the rectified sum `max (a + e) 0`. The
100 blocks tile the million rows, so after the region the output array is `message` of the two input arrays as
the region found them. Stated at the region's entry contents `V`, whatever they are. -/

namespace Cert.KernelIdeal.Region2

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Gine

variable (V : (c : Dev nD) → (b : Ref sig .tc) → Buf (Elt Ideal) ((c : Thread nD τ).loc b))

/-- The gathered source rows and the edge rows as the region finds them. -/
abbrev srcRows (c : Dev nD) : S1000000x64.Idx → EReal := V c (Pipeline.arrRef spec2 0)
abbrev edgeRows (c : Dev nD) : S1000000x64.Idx → EReal := V c (Pipeline.arrRef spec2 1)

/-- Point `t`'s blocks of the two inputs. -/
abbrev srcBlk (c : Dev nD) (t : Fin cfg2.N) : Vec Ideal S10000x64 .f32 := iblk2 V c 0 t
abbrev edgeBlk (c : Dev nD) (t : Fin cfg2.N) : Vec Ideal S10000x64 .f32 := iblk2 V c 1 t

theorem hz : (![0, 0] : Fin 2 → Nat) = fun _ => 0 := funext fun a => by fin_cases a <;> rfl

/-- The body's one store, entry by entry: the rectified sum of the two loaded blocks. -/
theorem pay_apply (v0 v2 : Vec Ideal S10000x64 .f32) (p : Fin 10000) (q : Fin 64) :
    k2_pay1 (F := Ideal) v0 v2 (ix2 p q) = max (v0 (ix2 p q) + v2 (ix2 p q)) 0 := by
  unfold k2_pay1
  simp only [maximumf, addf, broadcast, Ideal.maximumf_def, Ideal.addf_def, shapeCast_self]
  exact congrArg _ Ideal.ofBits_zero_f32

/-- The three windows move together: block `t` of each is rows `10000·t …`, all 64 columns. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point `t` writes back is its block of `message` of the two input arrays. -/
theorem flushed_eq (c : Dev nD) (t : Fin cfg2.N) :
    (dat2 V c).flushed 2 t = ((cfg2.win 2).blk t).view.read (Elt Ideal) (message (srcRows V c) (edgeRows V c)) := by
  show (cfg2.win 2).cut (grid2.coords t) ((dat2 V c).after 2 t) = _
  rw [after2_2]
  unfold out2_2
  rw [View.canon_unit_zero hz]
  simp only [View.ld_unit_zero (S := S10000x64) hz]
  obtain ⟨e0, e1, e2, e3, e4, e5⟩ := idx_facts t
  funext j
  obtain ⟨p, q, rfl⟩ : ∃ (p : Fin 10000) (q : Fin 64), j = ix2 p q := ⟨j 0, j 1, eq_ix2 j⟩
  show k2_pay1 (F := Ideal) (srcBlk V c t) (edgeBlk V c t) (ix2 p q) = _
  refine (pay_apply (srcBlk V c t) (edgeBlk V c t) p q).trans ?_
  show max (srcRows V c (((cfg2.win 0).blk t).view.emb (ix2 p q)) + edgeRows V c (((cfg2.win 1).blk t).view.emb (ix2 p q))) 0
     = max (srcRows V c (((cfg2.win 2).blk t).view.emb (ix2 p q)) + edgeRows V c (((cfg2.win 2).blk t).view.emb (ix2 p q))) 0
  have h0 : ((cfg2.win 0).blk t).view.emb (ix2 p q) = ((cfg2.win 2).blk t).view.emb (ix2 p q) := by
    funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 64 + 1 * q.val = win2_2.index t (1 : Fin 2) * 64 + 1 * q.val; omega
  have h1 : ((cfg2.win 1).blk t).view.emb (ix2 p q) = ((cfg2.win 2).blk t).view.emb (ix2 p q) := by
    funext a; apply Fin.ext
    match a with
    | ⟨0, _⟩ => show win2_1.index t (0 : Fin 2) * 10000 + 1 * p.val = win2_2.index t (0 : Fin 2) * 10000 + 1 * p.val; omega
    | ⟨1, _⟩ => show win2_1.index t (1 : Fin 2) * 64 + 1 * q.val = win2_2.index t (1 : Fin 2) * 64 + 1 * q.val; omega
  rw [h0, h1]

/-- An index of the array is in point `t`'s block iff each coordinate is in the block's range on its axis. -/
theorem mem_blk (t : Fin cfg2.N) (i : S1000000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v11).slice (win2_2.rect t)).set ↔ _
  rw [View.set_slice_whole, Rect.mem_set_unit]
  exact Iff.rfl

/-- The blocks tile the array: row `r` is in the block of point `r / 10000`. -/
theorem cover (i : S1000000x64.Idx) : ∃ t : Fin cfg2.N, (cfg2.win 2).flush t = true ∧ i ∈ ((cfg2.win 2).blk t).view.set := by
  have hi0 : (i 0).val < 1000000 := (i 0).isLt
  have hi1 : (i 1).val < 64 := (i 1).isLt
  have hN : cfg2.N = 100 := N_2
  let t : Fin cfg2.N := ⟨(i 0).val / 10000, by rw [hN]; omega⟩
  obtain ⟨e0, e1, e2, e3, e4, e5⟩ := idx_facts t
  have e4' : win2_2.index t (0 : Fin 2) = (i 0).val / 10000 := e4
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- After the region the output array is `message` of the two input arrays as the region found them. -/
theorem value (c : Dev nD) : (dat2 V c).arrAt 2 cfg2.N = message (srcRows V c) (edgeRows V c) :=
  (dat2 V c).arrAt_eq_of_cover 2 (message (srcRows V c) (edgeRows V c)) (fun t _ => flushed_eq V c t) cover

end Cert.KernelIdeal.Region2

end
-- ==== Proof.Region3.lean ====
import proofs.«412257_j64622077936096_2_alg».proof.Proof.Gen.KernelIdeal.Frame
import proofs.«412257_j64622077936096_2_alg».proof.Proof.Spec
import proofs.«412257_j64622077936096_2_alg».proof.Proof.LibPlainDot
import Idealize.ShloMosaic.Lib.Pipeline.Value
import Idealize.ShloMosaic.Lib.ValueIdx

set_option maxRecDepth 16384

noncomputable section

/-! # A residual convolution's update region: what the node array holds after it

The region's grid has 20 points; point `t` reads the 5000 rows from row `5000·t` of the aggregate and of the node
array, and the whole of both weight matrices and both bias rows, and writes the same rows of the output. Row by
row: the two-layer stage of `agg + s · h`, where `s` is the self-loop weight (the float the program carries for
`1 + ε`, kept as its word: both programs carry the same word, so it is never evaluated), then the rectified sum of
the node's own row and that update. A row of the output depends on the same row of the two inputs only; the 20
blocks tile the 100000 rows. Stated at the region's entry contents `V`, whatever they are. -/

namespace Cert.KernelIdeal.Region3

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Gine
open scoped BigOperators

variable (V : (c : Dev nD) → (b : Ref sig .tc) → Buf (Elt Ideal) ((c : Thread nD τ).loc b))

/-- The self-loop weight, as the word the program carries. -/
abbrev selfWeight : EReal := Ideal.ofBits .f32 0x3F8CCCCD#32

/-- The six input arrays as the region finds them. -/
abbrev aggArr (c : Dev nD) : S100000x64.Idx → EReal := V c (Pipeline.arrRef spec3 0)
abbrev hArr (c : Dev nD) : S100000x64.Idx → EReal := V c (Pipeline.arrRef spec3 1)
abbrev w0Arr (c : Dev nD) : S64x64.Idx → EReal := V c (Pipeline.arrRef spec3 2)
abbrev b0Arr (c : Dev nD) : S1x64.Idx → EReal := V c (Pipeline.arrRef spec3 3)
abbrev w1Arr (c : Dev nD) : S64x64.Idx → EReal := V c (Pipeline.arrRef spec3 4)
abbrev b1Arr (c : Dev nD) : S1x64.Idx → EReal := V c (Pipeline.arrRef spec3 5)

/-- Point `t`'s blocks of the six inputs. -/
abbrev aggBlk (c : Dev nD) (t : Fin cfg3.N) : Vec Ideal S5000x64 .f32 := iblk3 V c 0 t
abbrev hBlk (c : Dev nD) (t : Fin cfg3.N) : Vec Ideal S5000x64 .f32 := iblk3 V c 1 t
abbrev w0Blk (c : Dev nD) (t : Fin cfg3.N) : Vec Ideal S64x64 .f32 := iblk3 V c 2 t
abbrev b0Blk (c : Dev nD) (t : Fin cfg3.N) : Vec Ideal S1x64 .f32 := iblk3 V c 3 t
abbrev w1Blk (c : Dev nD) (t : Fin cfg3.N) : Vec Ideal S64x64 .f32 := iblk3 V c 4 t
abbrev b1Blk (c : Dev nD) (t : Fin cfg3.N) : Vec Ideal S1x64 .f32 := iblk3 V c 5 t

theorem hz : (![0, 0] : Fin 2 → Nat) = fun _ => 0 := funext fun a => by fin_cases a <;> rfl

/-- A bias row broadcast down the tile's rows, at an entry: the row's entry in that column. -/
theorem bias_apply (b : Vec Ideal S1x64 .f32) (p : Fin 5000) (q : Fin 64) :
    broadcastTo S5000x64 b broadcasts_S1x64_S5000x64 (ix2 p q) = b (ix2 0 q) :=
  broadcastTo_apply b broadcasts_S1x64_S5000x64 (ix2 p q) (ix2 0 q) fun a => by
    match a with
    | ⟨0, _⟩ => rfl
    | ⟨1, _⟩ => rfl

/-- Either product of the body, at an entry: the sum over the 64 features. -/
theorem dot_apply (l : FVec Ideal S5000x64 .f32) (r : FVec Ideal S64x64 .f32) (p : Fin 5000) (q : Fin 64) :
    matmul (F := Ideal) dot_S5000x64_S64x64_S5000x64_1_0_0_1_n_n none (truncf .bf16 l bitsLt_bf16_f32) (truncf .bf16 r bitsLt_bf16_f32)
        (constant S5000x64 .f32 0x00000000#32) (ix2 p q)
      = ∑ k : Fin 64, l (ix2 p k) * r (ix2 k q) :=
  Cert.PlainDot.matmul_zero_apply (M := 5000) (K := 64) (N := 64) dot_S5000x64_S64x64_S5000x64_1_0_0_1_n_n rfl none
    (truncf .bf16 l bitsLt_bf16_f32) (truncf .bf16 r bitsLt_bf16_f32) (ix2 p q)

/-- The body's one store, entry by entry: the rectified sum of the node's entry and the update of the tile's row. -/
theorem pay_apply (v0 v2 : Vec Ideal S5000x64 .f32) (v7 : Vec Ideal S64x64 .f32) (v10 : Vec Ideal S1x64 .f32) (v19 : Vec Ideal S64x64 .f32)
    (v22 : Vec Ideal S1x64 .f32) (p : Fin 5000) (q : Fin 64) :
    k3_pay1 (F := Ideal) v0 v2 v7 v10 v19 v22 (ix2 p q)
      = max (v2 (ix2 p q) + updateRow selfWeight (fun k => v0 (ix2 p k)) (fun k => v2 (ix2 p k)) v7 v10 v19 v22 q) 0 := by
  unfold k3_pay1 updateRow dense2Row affineRow
  simp only [addf, maximumf, broadcast, Ideal.addf_def, Ideal.maximumf_def, shapeCast_self]
  rw [show FloatOps.ofBits (F := Ideal) .f32 0x00000000#32 = (0 : EReal) from Ideal.ofBits_zero_f32]
  refine congrArg (fun z => max (v2 (ix2 p q) + z) 0) ?_
  refine congrArg₂ (· + ·) ?_ (bias_apply v22 p q)
  refine (dot_apply _ v19 p q).trans ?_
  refine Finset.sum_congr rfl fun k _ => ?_
  refine congrArg₂ (· * ·) ?_ rfl
  show max (matmul (F := Ideal) dot_S5000x64_S64x64_S5000x64_1_0_0_1_n_n none
        (truncf (F := Ideal) .bf16 (fun i => v0 i + FloatOps.mulf (F := Ideal) (FloatOps.ofBits .f32 0x3F8CCCCD#32) (v2 i)) bitsLt_bf16_f32)
        (truncf (F := Ideal) .bf16 v7 bitsLt_bf16_f32)
        (constant S5000x64 .f32 0x00000000#32) (ix2 p k) + broadcastTo S5000x64 v10 broadcasts_S1x64_S5000x64 (ix2 p k))
      (0 : EReal) = _
  rw [dot_apply (fun i => v0 i + FloatOps.mulf (F := Ideal) (FloatOps.ofBits .f32 0x3F8CCCCD#32) (v2 i)) v7 p k, bias_apply v10 p k]
  rfl

/-- The two node-row windows and the output window move down the rows together, block `t` at rows `5000·t …`; the
    four parameter windows stay at their one block. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- What point `t` writes back is its block of the residual update of the six input arrays. -/
theorem flushed_eq (c : Dev nD) (t : Fin cfg3.N) :
    (dat3 V c).flushed 6 t = ((cfg3.win 6).blk t).view.read (Elt Ideal)
      (updateResidual selfWeight (aggArr V c) (hArr V c) (w0Arr V c) (b0Arr V c) (w1Arr V c) (b1Arr V c)) := by
  show (cfg3.win 6).cut (grid3.coords t) ((dat3 V c).after 6 t) = _
  rw [after3_6]
  unfold out3_6
  rw [View.canon_unit_zero hz]
  simp only [View.ld_unit_zero (S := S5000x64) hz, View.ld_unit_zero (S := S64x64) hz, View.ld_unit_zero (S := S1x64) hz]
  obtain ⟨e00, e01, e10, e11, e20, e21, e30, e31, e40, e41, e50, e51, e60, e61⟩ := idx_facts t
  have ht : t.val < 20 := by have h := t.isLt; have hN : cfg3.N = 20 := N_3; omega
  funext j
  obtain ⟨p, q, rfl⟩ : ∃ (p : Fin 5000) (q : Fin 64), j = ix2 p q := ⟨j 0, j 1, eq_ix2 j⟩
  show k3_pay1 (F := Ideal) (aggBlk V c t) (hBlk V c t) (w0Blk V c t) (b0Blk V c t) (w1Blk V c t) (b1Blk V c t) (ix2 p q) = _
  refine (pay_apply (aggBlk V c t) (hBlk V c t) (w0Blk V c t) (b0Blk V c t) (w1Blk V c t) (b1Blk V c t) p q).trans ?_
  -- the global row of the tile's row `p`
  let r : Fin 100000 := ⟨t.val * 5000 + p.val, by have := p.isLt; omega⟩
  have h6 : ((cfg3.win 6).blk t).view.emb (ix2 p q) = ix2 r q := by
    funext a; apply Fin.ext
    match a with
    | ⟨0, _⟩ => show win3_6.index t (0 : Fin 2) * 5000 + 1 * p.val = t.val * 5000 + p.val; omega
    | ⟨1, _⟩ => show win3_6.index t (1 : Fin 2) * 64 + 1 * q.val = q.val; omega
  have hagg : ∀ k : Fin 64, aggBlk V c t (ix2 p k) = aggArr V c (ix2 r k) := fun k => by
    show aggArr V c (((cfg3.win 0).blk t).view.emb (ix2 p k)) = _
    refine congrArg _ ?_
    funext a; apply Fin.ext
    match a with
    | ⟨0, _⟩ => show win3_0.index t (0 : Fin 2) * 5000 + 1 * p.val = t.val * 5000 + p.val; omega
    | ⟨1, _⟩ => show win3_0.index t (1 : Fin 2) * 64 + 1 * k.val = k.val; omega
  have hh : ∀ k : Fin 64, hBlk V c t (ix2 p k) = hArr V c (ix2 r k) := fun k => by
    show hArr V c (((cfg3.win 1).blk t).view.emb (ix2 p k)) = _
    refine congrArg _ ?_
    funext a; apply Fin.ext
    match a with
    | ⟨0, _⟩ => show win3_1.index t (0 : Fin 2) * 5000 + 1 * p.val = t.val * 5000 + p.val; omega
    | ⟨1, _⟩ => show win3_1.index t (1 : Fin 2) * 64 + 1 * k.val = k.val; omega
  have hw0 : w0Blk V c t = w0Arr V c := by
    funext y
    show w0Arr V c (((cfg3.win 2).blk t).view.emb y) = _
    refine congrArg _ ?_
    funext a; apply Fin.ext
    match a with
    | ⟨0, _⟩ => show win3_2.index t (0 : Fin 2) * 64 + 1 * (y 0).val = (y 0).val; omega
    | ⟨1, _⟩ => show win3_2.index t (1 : Fin 2) * 64 + 1 * (y 1).val = (y 1).val; omega
  have hb0 : b0Blk V c t = b0Arr V c := by
    funext y
    show b0Arr V c (((cfg3.win 3).blk t).view.emb y) = _
    refine congrArg _ ?_
    funext a; apply Fin.ext
    match a with
    | ⟨0, _⟩ => show win3_3.index t (0 : Fin 2) * 1 + 1 * (y 0).val = (y 0).val; omega
    | ⟨1, _⟩ => show win3_3.index t (1 : Fin 2) * 64 + 1 * (y 1).val = (y 1).val; omega
  have hw1 : w1Blk V c t = w1Arr V c := by
    funext y
    show w1Arr V c (((cfg3.win 4).blk t).view.emb y) = _
    refine congrArg _ ?_
    funext a; apply Fin.ext
    match a with
    | ⟨0, _⟩ => show win3_4.index t (0 : Fin 2) * 64 + 1 * (y 0).val = (y 0).val; omega
    | ⟨1, _⟩ => show win3_4.index t (1 : Fin 2) * 64 + 1 * (y 1).val = (y 1).val; omega
  have hb1 : b1Blk V c t = b1Arr V c := by
    funext y
    show b1Arr V c (((cfg3.win 5).blk t).view.emb y) = _
    refine congrArg _ ?_
    funext a; apply Fin.ext
    match a with
    | ⟨0, _⟩ => show win3_5.index t (0 : Fin 2) * 1 + 1 * (y 0).val = (y 0).val; omega
    | ⟨1, _⟩ => show win3_5.index t (1 : Fin 2) * 64 + 1 * (y 1).val = (y 1).val; omega
  show max (hBlk V c t (ix2 p q) + updateRow selfWeight (fun k => aggBlk V c t (ix2 p k)) (fun k => hBlk V c t (ix2 p k))
        (w0Blk V c t) (b0Blk V c t) (w1Blk V c t) (b1Blk V c t) q) 0
     = updateResidual selfWeight (aggArr V c) (hArr V c) (w0Arr V c) (b0Arr V c) (w1Arr V c) (b1Arr V c) (((cfg3.win 6).blk t).view.emb (ix2 p q))
  rw [h6, hw0, hb0, hw1, hb1, funext hagg, funext hh, hh q]
  rfl

/-- An index of the array is in point `t`'s block iff each coordinate is in the block's range on its axis. -/
theorem mem_blk (t : Fin cfg3.N) (i : S100000x64.Idx) :
    i ∈ ((cfg3.win 6).blk t).view.set ↔ ∀ a : Fin 2, win3_6.index t a * S5000x64.size a ≤ (i a).val ∧ (i a).val < win3_6.index t a * S5000x64.size a + S5000x64.size a := by
  show i ∈ ((View.whole main_v25).slice (win3_6.rect t)).set ↔ _
  rw [View.set_slice_whole, Rect.mem_set_unit]
  exact Iff.rfl

/-- The blocks tile the array: row `r` is in the block of point `r / 5000`. -/
theorem cover (i : S100000x64.Idx) : ∃ t : Fin cfg3.N, (cfg3.win 6).flush t = true ∧ i ∈ ((cfg3.win 6).blk t).view.set := by
  have hi0 : (i 0).val < 100000 := (i 0).isLt
  have hi1 : (i 1).val < 64 := (i 1).isLt
  have hN : cfg3.N = 20 := N_3
  let t : Fin cfg3.N := ⟨(i 0).val / 5000, by rw [hN]; omega⟩
  obtain ⟨e00, e01, e10, e11, e20, e21, e30, e31, e40, e41, e50, e51, e60, e61⟩ := idx_facts t
  have e60' : win3_6.index t (0 : Fin 2) = (i 0).val / 5000 := e60
  refine ⟨t, flush3_6 t, ?_⟩
  rw [mem_blk]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 64 ≤ (i 1).val ∧ (i 1).val < win3_6.index t (1 : Fin 2) * 64 + 64; omega

/-- After the region the output array is the residual update of the six input arrays as the region found them. -/
theorem value (c : Dev nD) :
    (dat3 V c).arrAt 6 cfg3.N
      = updateResidual selfWeight (aggArr V c) (hArr V c) (w0Arr V c) (b0Arr V c) (w1Arr V c) (b1Arr V c) :=
  (dat3 V c).arrAt_eq_of_cover 6 (updateResidual selfWeight (aggArr V c) (hArr V c) (w0Arr V c) (b0Arr V c) (w1Arr V c) (b1Arr V c))
    (fun t _ => flushed_eq V c t) cover

end Cert.KernelIdeal.Region3

end
-- ==== Proof.Round0.lean ====
import proofs.«412257_j64622077936096_2_alg».proof.Proof.ChainBase
import proofs.«412257_j64622077936096_2_alg».proof.Proof.Region2
import proofs.«412257_j64622077936096_2_alg».proof.Proof.Region3

set_option maxRecDepth 16384

noncomputable section

/-! # The kernel program's run, stage by stage: residual round 0

The round finds the node array `h` in its buffer, the source indices, the edge array and the target indices. A host
stretch gathers each edge's source row of `h` (a filling gather: the plain one, the source indices being in range);
a region forms the messages; a host stretch scatter-adds them to the target nodes and cuts the round's two matrices
and two bias rows out of the stacked parameters; a region updates every node. The node array it leaves is `round`
of `h`. -/

namespace Cert.KernelIdeal.Chain

open Idealize.ShloMosaic Idealize.ShloMosaic.TcCoe Idealize.SL.Sem Idealize.ShloMosaic.StableHlo
open Cert.KernelIdeal Cert.KernelIdeal.Gen
open Cert.KernelIdeal.Keeps Cert.KernelIdeal.Take Cert.Gine

variable (m : (ℓ : Loc nD τ sig) → Buf (Elt Ideal) ℓ) (ρ : Dev nD → PrngReg) (c : Dev nD)

/-- The node array after round 0. -/
abbrev h1 : Nodes :=
  round selfWeight (gatherSrc m c) (scatterDst m c) (eArr m c)
    (layerMat (m ((c : Thread nD τ).loc main_arg12)) (0 : Fin 3)) (layerRow (m ((c : Thread nD τ).loc main_arg13)) (0 : Fin 3)) (layerMat (m ((c : Thread nD τ).loc main_arg14)) (0 : Fin 3)) (layerRow (m ((c : Thread nD τ).loc main_arg15)) (0 : Fin 3)) (h0 m c)

/-- Read through the node array's typed reference, and written through the gathered rows', contents are unchanged. -/
theorem ofBuf_hbuf0 (e1 : main_v6.ty = ⟨S100000x64, .f32⟩) (e2 e3) (v : main_v6.ty.Contents (Elt Ideal)) :
    (StableHlo.TRef.of (sig := sig) main_v6 e1 e2 e3).ofBuf v = v := rfl
theorem toBuf_gbuf0 (e1 : main_v10.ty = ⟨S1000000x64, .f32⟩) (e2 e3) (v : (⟨S1000000x64, .f32⟩ : BufTy).Contents (Elt Ideal)) :
    (StableHlo.TRef.of (sig := sig) main_v10 e1 e2 e3).toBuf v = v := rfl

/-- The gathered source rows, as the stretch computes them: the filling gather of the node array at the source indices. -/
theorem W5_v10_fill : W5 m ρ c (Proc.devRef .tc main_v10)
      = takeFill (W4 m ρ c (Proc.devRef .tc main_v6)) (W4 m ρ c (Proc.devRef .tc main_v1)) := by
  show StableHlo.after (hostOps2 (F := Ideal)) (W4 m ρ c) (Proc.devRef .tc main_v10) = _
  after_results_simp
  simp only [ofBuf_toBuf]
  rw [toBuf_gbuf0, ofBuf_hbuf0]
  simp only [ofBuf_v1]
  unfold takeFill
  rfl

/-- The gathered source rows. -/
theorem W5_v10 (hr : SrcInRange m c) : W5 m ρ c (Proc.devRef .tc main_v10) = gatherSrc m c (h0 m c) := by
  rw [W5_v10_fill, W4_v6 m ρ c hr, W4_v1, takeFill_eq _ _ hr]
  rfl

/-- The messages. -/
theorem W6_v11 (hr : SrcInRange m c) : W6 m ρ c (Proc.devRef .tc main_v11) = message (gatherSrc m c (h0 m c)) (eArr m c) := by
  refine (W6_arr m ρ c 2).trans ((Region2.value (V5 m ρ) c).trans ?_)
  have e0 : Region2.srcRows (V5 m ρ) c = gatherSrc m c (h0 m c) := W5_v10 m ρ c hr
  have e1 : Region2.edgeRows (V5 m ρ) c = eArr m c := W5_v9 m ρ c
  rw [e0, e1]

/-- The aggregate. -/
theorem W7_v14 (hr : SrcInRange m c) : W7 m ρ c (Proc.devRef .tc main_v14) = aggregate (gatherSrc m c) (scatterDst m c) (h0 m c) (eArr m c) := by
  have e : W7 m ρ c (Proc.devRef .tc main_v14)
      = Host.scatterAdd scatter_S100000x64_S1000000x1_S1000000x64_1_0_0_1
          (broadcastInDim S100000x64 ![] bcast_S_S100000x64 (constant (F := Ideal) S_ .f32 0x00000000#32))
          (broadcastInDim S1000000x1 ![0] bcast_S1000000_S1000000x1_0 (W6 m ρ c (Proc.devRef .tc main_v3)))
          (W6 m ρ c (Proc.devRef .tc main_v11)) := by
    show StableHlo.after (hostOps3 (F := Ideal)) (W6 m ρ c) (Proc.devRef .tc main_v14) = _
    after_results <;> rfl
  rw [e, W6_v3, W6_v11 m ρ c hr]
  rfl

/-- The round's first matrix. -/
theorem W7_v16 : W7 m ρ c (Proc.devRef .tc main_v16) = layerMat (m ((c : Thread nD τ).loc main_arg12)) (0 : Fin 3) := by
  refine Eq.trans ?_ (slice_mat (m ((c : Thread nD τ).loc main_arg12)) (0 : Fin 3) slices_S3x64x64_S1x64x64_0_0_0 shapeCasts_S1x64x64_S64x64)
  refine Eq.trans ?_ (congrArg (fun x => shapeCast S64x64 (extractStridedSlice S1x64x64 ![0, 0, 0] x slices_S3x64x64_S1x64x64_0_0_0)
    shapeCasts_S1x64x64_S64x64) (keep_arg12_6_0 m ρ c))
  show StableHlo.after (hostOps3 (F := Ideal)) (W6 m ρ c) (Proc.devRef .tc main_v16) = _
  after_results <;> rfl

/-- The round's second matrix. -/
theorem W7_v20 : W7 m ρ c (Proc.devRef .tc main_v20) = layerMat (m ((c : Thread nD τ).loc main_arg14)) (0 : Fin 3) := by
  refine Eq.trans ?_ (slice_mat (m ((c : Thread nD τ).loc main_arg14)) (0 : Fin 3) slices_S3x64x64_S1x64x64_0_0_0 shapeCasts_S1x64x64_S64x64)
  refine Eq.trans ?_ (congrArg (fun x => shapeCast S64x64 (extractStridedSlice S1x64x64 ![0, 0, 0] x slices_S3x64x64_S1x64x64_0_0_0)
    shapeCasts_S1x64x64_S64x64) (keep_arg14_6_0 m ρ c))
  show StableHlo.after (hostOps3 (F := Ideal)) (W6 m ρ c) (Proc.devRef .tc main_v20) = _
  after_results <;> rfl

/-- The round's first bias row. -/
theorem W7_v23 : W7 m ρ c (Proc.devRef .tc main_v23) = layerRow (m ((c : Thread nD τ).loc main_arg13)) (0 : Fin 3) := by
  refine Eq.trans ?_ (slice_row (m ((c : Thread nD τ).loc main_arg13)) (0 : Fin 3) slices_S3x64_S1x64_0_0 shapeCasts_S1x64_S64)
  refine Eq.trans ?_ (reshape_row _ shapeCasts_S64_S1x64)
  refine Eq.trans ?_ (congrArg (fun x => shapeCast S1x64 (shapeCast S64 (extractStridedSlice S1x64 ![0, 0] x slices_S3x64_S1x64_0_0)
    shapeCasts_S1x64_S64) shapeCasts_S64_S1x64) (keep_arg13_6_0 m ρ c))
  show StableHlo.after (hostOps3 (F := Ideal)) (W6 m ρ c) (Proc.devRef .tc main_v23) = _
  after_results <;> rfl

/-- The round's second bias row. -/
theorem W7_v24 : W7 m ρ c (Proc.devRef .tc main_v24) = layerRow (m ((c : Thread nD τ).loc main_arg15)) (0 : Fin 3) := by
  refine Eq.trans ?_ (slice_row (m ((c : Thread nD τ).loc main_arg15)) (0 : Fin 3) slices_S3x64_S1x64_0_0 shapeCasts_S1x64_S64)
  refine Eq.trans ?_ (reshape_row _ shapeCasts_S64_S1x64)
  refine Eq.trans ?_ (congrArg (fun x => shapeCast S1x64 (shapeCast S64 (extractStridedSlice S1x64 ![0, 0] x slices_S3x64_S1x64_0_0)
    shapeCasts_S1x64_S64) shapeCasts_S64_S1x64) (keep_arg15_6_0 m ρ c))
  show StableHlo.after (hostOps3 (F := Ideal)) (W6 m ρ c) (Proc.devRef .tc main_v24) = _
  after_results <;> rfl

/-- The node array the round leaves. -/
theorem W8_v25 (hr : SrcInRange m c) : W8 m ρ c (Proc.devRef .tc main_v25) = h1 m c := by
  refine (W8_arr m ρ c 6).trans ((Region3.value (V7 m ρ) c).trans ?_)
  have e0 : Region3.aggArr (V7 m ρ) c = aggregate (gatherSrc m c) (scatterDst m c) (h0 m c) (eArr m c) := W7_v14 m ρ c hr
  have e1 : Region3.hArr (V7 m ρ) c = h0 m c := (keep_v6_7_4 m ρ c).trans (W4_v6 m ρ c hr)
  have e2 : Region3.w0Arr (V7 m ρ) c = layerMat (m ((c : Thread nD τ).loc main_arg12)) (0 : Fin 3) := W7_v16 m ρ c
  have e3 : Region3.b0Arr (V7 m ρ) c = layerRow (m ((c : Thread nD τ).loc main_arg13)) (0 : Fin 3) := W7_v23 m ρ c
  have e4 : Region3.w1Arr (V7 m ρ) c = layerMat (m ((c : Thread nD τ).loc main_arg14)) (0 : Fin 3) := W7_v20 m ρ c
  have e5 : Region3.b1Arr (V7 m ρ) c = layerRow (m ((c : Thread nD τ).loc main_arg15)) (0 : Fin 3) := W7_v24 m ρ c
  rw [e0, e1, e2, e3, e4, e5]
  rfl

/-! ## What the next round finds -/

theorem W8_v1 : W8 m ρ c (Proc.devRef .tc main_v1) = edgeRow0 m c := (keep_v1_8_4 m ρ c).trans (W4_v1 m ρ c)
theorem W9_v9 : W9 m ρ c (Proc.devRef .tc main_v9) = eArr m c := (keep_v9_9_5 m ρ c).trans (W5_v9 m ρ c)
theorem W10_v3 : W10 m ρ c (Proc.devRef .tc main_v3) = edgeRow1 m c := (keep_v3_10_6 m ρ c).trans (W6_v3 m ρ c)

end Cert.KernelIdeal.Chain

end
-- ==== Proof.Region4.lean ====
import proofs.«412257_j64622077936096_2_alg».proof.Proof.Gen.KernelIdeal.Frame
import proofs.«412257_j64622077936096_2_alg».proof.Proof.Spec
import Idealize.ShloMosaic.Lib.Pipeline.Value
import Idealize.ShloMosaic.Lib.ValueIdx

set_option maxRecDepth 16384

noncomputable section

/-! # The message region: what the edge array holds after it

The region's grid has 100 points; point `t` reads rows `10000·t … 10000·t + 9999` of the gathered source rows and
of the edge rows, and writes the same rows of the output: entry by entry the rectified sum `max (a + e) 0`. The
100 blocks tile the million rows, so after the region the output array is `message` of the two input arrays as
the region found them. Stated at the region's entry contents `V`, whatever they are. -/

namespace Cert.KernelIdeal.Region4

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Gine

variable (V : (c : Dev nD) → (b : Ref sig .tc) → Buf (Elt Ideal) ((c : Thread nD τ).loc b))

/-- The gathered source rows and the edge rows as the region finds them. -/
abbrev srcRows (c : Dev nD) : S1000000x64.Idx → EReal := V c (Pipeline.arrRef spec4 0)
abbrev edgeRows (c : Dev nD) : S1000000x64.Idx → EReal := V c (Pipeline.arrRef spec4 1)

/-- Point `t`'s blocks of the two inputs. -/
abbrev srcBlk (c : Dev nD) (t : Fin cfg4.N) : Vec Ideal S10000x64 .f32 := iblk4 V c 0 t
abbrev edgeBlk (c : Dev nD) (t : Fin cfg4.N) : Vec Ideal S10000x64 .f32 := iblk4 V c 1 t

theorem hz : (![0, 0] : Fin 2 → Nat) = fun _ => 0 := funext fun a => by fin_cases a <;> rfl

/-- The body's one store, entry by entry: the rectified sum of the two loaded blocks. -/
theorem pay_apply (v0 v2 : Vec Ideal S10000x64 .f32) (p : Fin 10000) (q : Fin 64) :
    k4_pay1 (F := Ideal) v0 v2 (ix2 p q) = max (v0 (ix2 p q) + v2 (ix2 p q)) 0 := by
  unfold k4_pay1
  simp only [maximumf, addf, broadcast, Ideal.maximumf_def, Ideal.addf_def, shapeCast_self]
  exact congrArg _ Ideal.ofBits_zero_f32

/-- The three windows move together: block `t` of each is rows `10000·t …`, all 64 columns. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point `t` writes back is its block of `message` of the two input arrays. -/
theorem flushed_eq (c : Dev nD) (t : Fin cfg4.N) :
    (dat4 V c).flushed 2 t = ((cfg4.win 2).blk t).view.read (Elt Ideal) (message (srcRows V c) (edgeRows V c)) := by
  show (cfg4.win 2).cut (grid4.coords t) ((dat4 V c).after 2 t) = _
  rw [after4_2]
  unfold out4_2
  rw [View.canon_unit_zero hz]
  simp only [View.ld_unit_zero (S := S10000x64) hz]
  obtain ⟨e0, e1, e2, e3, e4, e5⟩ := idx_facts t
  funext j
  obtain ⟨p, q, rfl⟩ : ∃ (p : Fin 10000) (q : Fin 64), j = ix2 p q := ⟨j 0, j 1, eq_ix2 j⟩
  show k4_pay1 (F := Ideal) (srcBlk V c t) (edgeBlk V c t) (ix2 p q) = _
  refine (pay_apply (srcBlk V c t) (edgeBlk V c t) p q).trans ?_
  show max (srcRows V c (((cfg4.win 0).blk t).view.emb (ix2 p q)) + edgeRows V c (((cfg4.win 1).blk t).view.emb (ix2 p q))) 0
     = max (srcRows V c (((cfg4.win 2).blk t).view.emb (ix2 p q)) + edgeRows V c (((cfg4.win 2).blk t).view.emb (ix2 p q))) 0
  have h0 : ((cfg4.win 0).blk t).view.emb (ix2 p q) = ((cfg4.win 2).blk t).view.emb (ix2 p q) := by
    funext a; apply Fin.ext
    match a with
    | ⟨0, _⟩ => show win4_0.index t (0 : Fin 2) * 10000 + 1 * p.val = win4_2.index t (0 : Fin 2) * 10000 + 1 * p.val; omega
    | ⟨1, _⟩ => show win4_0.index t (1 : Fin 2) * 64 + 1 * q.val = win4_2.index t (1 : Fin 2) * 64 + 1 * q.val; omega
  have h1 : ((cfg4.win 1).blk t).view.emb (ix2 p q) = ((cfg4.win 2).blk t).view.emb (ix2 p q) := by
    funext a; apply Fin.ext
    match a with
    | ⟨0, _⟩ => show win4_1.index t (0 : Fin 2) * 10000 + 1 * p.val = win4_2.index t (0 : Fin 2) * 10000 + 1 * p.val; omega
    | ⟨1, _⟩ => show win4_1.index t (1 : Fin 2) * 64 + 1 * q.val = win4_2.index t (1 : Fin 2) * 64 + 1 * q.val; omega
  rw [h0, h1]

/-- An index of the array is in point `t`'s block iff each coordinate is in the block's range on its axis. -/
theorem mem_blk (t : Fin cfg4.N) (i : S1000000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v27).slice (win4_2.rect t)).set ↔ _
  rw [View.set_slice_whole, Rect.mem_set_unit]
  exact Iff.rfl

/-- The blocks tile the array: row `r` is in the block of point `r / 10000`. -/
theorem cover (i : S1000000x64.Idx) : ∃ t : Fin cfg4.N, (cfg4.win 2).flush t = true ∧ i ∈ ((cfg4.win 2).blk t).view.set := by
  have hi0 : (i 0).val < 1000000 := (i 0).isLt
  have hi1 : (i 1).val < 64 := (i 1).isLt
  have hN : cfg4.N = 100 := N_4
  let t : Fin cfg4.N := ⟨(i 0).val / 10000, by rw [hN]; omega⟩
  obtain ⟨e0, e1, e2, e3, e4, e5⟩ := idx_facts t
  have e4' : win4_2.index t (0 : Fin 2) = (i 0).val / 10000 := e4
  refine ⟨t, flush4_2 t, ?_⟩
  rw [mem_blk]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 64 ≤ (i 1).val ∧ (i 1).val < win4_2.index t (1 : Fin 2) * 64 + 64; omega

/-- After the region the output array is `message` of the two input arrays as the region found them. -/
theorem value (c : Dev nD) : (dat4 V c).arrAt 2 cfg4.N = message (srcRows V c) (edgeRows V c) :=
  (dat4 V c).arrAt_eq_of_cover 2 (message (srcRows V c) (edgeRows V c)) (fun t _ => flushed_eq V c t) cover

end Cert.KernelIdeal.Region4

end
-- ==== Proof.Region5.lean ====
import proofs.«412257_j64622077936096_2_alg».proof.Proof.Gen.KernelIdeal.Frame
import proofs.«412257_j64622077936096_2_alg».proof.Proof.Spec
import proofs.«412257_j64622077936096_2_alg».proof.Proof.LibPlainDot
import Idealize.ShloMosaic.Lib.Pipeline.Value
import Idealize.ShloMosaic.Lib.ValueIdx

set_option maxRecDepth 16384

noncomputable section

/-! # A residual convolution's update region: what the node array holds after it

The region's grid has 20 points; point `t` reads the 5000 rows from row `5000·t` of the aggregate and of the node
array, and the whole of both weight matrices and both bias rows, and writes the same rows of the output. Row by
row: the two-layer stage of `agg + s · h`, where `s` is the self-loop weight (the float the program carries for
`1 + ε`, kept as its word: both programs carry the same word, so it is never evaluated), then the rectified sum of
the node's own row and that update. A row of the output depends on the same row of the two inputs only; the 20
blocks tile the 100000 rows. Stated at the region's entry contents `V`, whatever they are. -/

namespace Cert.KernelIdeal.Region5

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Gine
open scoped BigOperators

variable (V : (c : Dev nD) → (b : Ref sig .tc) → Buf (Elt Ideal) ((c : Thread nD τ).loc b))

/-- The self-loop weight, as the word the program carries. -/
abbrev selfWeight : EReal := Ideal.ofBits .f32 0x3F8CCCCD#32

/-- The six input arrays as the region finds them. -/
abbrev aggArr (c : Dev nD) : S100000x64.Idx → EReal := V c (Pipeline.arrRef spec5 0)
abbrev hArr (c : Dev nD) : S100000x64.Idx → EReal := V c (Pipeline.arrRef spec5 1)
abbrev w0Arr (c : Dev nD) : S64x64.Idx → EReal := V c (Pipeline.arrRef spec5 2)
abbrev b0Arr (c : Dev nD) : S1x64.Idx → EReal := V c (Pipeline.arrRef spec5 3)
abbrev w1Arr (c : Dev nD) : S64x64.Idx → EReal := V c (Pipeline.arrRef spec5 4)
abbrev b1Arr (c : Dev nD) : S1x64.Idx → EReal := V c (Pipeline.arrRef spec5 5)

/-- Point `t`'s blocks of the six inputs. -/
abbrev aggBlk (c : Dev nD) (t : Fin cfg5.N) : Vec Ideal S5000x64 .f32 := iblk5 V c 0 t
abbrev hBlk (c : Dev nD) (t : Fin cfg5.N) : Vec Ideal S5000x64 .f32 := iblk5 V c 1 t
abbrev w0Blk (c : Dev nD) (t : Fin cfg5.N) : Vec Ideal S64x64 .f32 := iblk5 V c 2 t
abbrev b0Blk (c : Dev nD) (t : Fin cfg5.N) : Vec Ideal S1x64 .f32 := iblk5 V c 3 t
abbrev w1Blk (c : Dev nD) (t : Fin cfg5.N) : Vec Ideal S64x64 .f32 := iblk5 V c 4 t
abbrev b1Blk (c : Dev nD) (t : Fin cfg5.N) : Vec Ideal S1x64 .f32 := iblk5 V c 5 t

theorem hz : (![0, 0] : Fin 2 → Nat) = fun _ => 0 := funext fun a => by fin_cases a <;> rfl

/-- A bias row broadcast down the tile's rows, at an entry: the row's entry in that column. -/
theorem bias_apply (b : Vec Ideal S1x64 .f32) (p : Fin 5000) (q : Fin 64) :
    broadcastTo S5000x64 b broadcasts_S1x64_S5000x64 (ix2 p q) = b (ix2 0 q) :=
  broadcastTo_apply b broadcasts_S1x64_S5000x64 (ix2 p q) (ix2 0 q) fun a => by
    match a with
    | ⟨0, _⟩ => rfl
    | ⟨1, _⟩ => rfl

/-- Either product of the body, at an entry: the sum over the 64 features. -/
theorem dot_apply (l : FVec Ideal S5000x64 .f32) (r : FVec Ideal S64x64 .f32) (p : Fin 5000) (q : Fin 64) :
    matmul (F := Ideal) dot_S5000x64_S64x64_S5000x64_1_0_0_1_n_n none (truncf .bf16 l bitsLt_bf16_f32) (truncf .bf16 r bitsLt_bf16_f32)
        (constant S5000x64 .f32 0x00000000#32) (ix2 p q)
      = ∑ k : Fin 64, l (ix2 p k) * r (ix2 k q) :=
  Cert.PlainDot.matmul_zero_apply (M := 5000) (K := 64) (N := 64) dot_S5000x64_S64x64_S5000x64_1_0_0_1_n_n rfl none
    (truncf .bf16 l bitsLt_bf16_f32) (truncf .bf16 r bitsLt_bf16_f32) (ix2 p q)

/-- The body's one store, entry by entry: the rectified sum of the node's entry and the update of the tile's row. -/
theorem pay_apply (v0 v2 : Vec Ideal S5000x64 .f32) (v7 : Vec Ideal S64x64 .f32) (v10 : Vec Ideal S1x64 .f32) (v19 : Vec Ideal S64x64 .f32)
    (v22 : Vec Ideal S1x64 .f32) (p : Fin 5000) (q : Fin 64) :
    k5_pay1 (F := Ideal) v0 v2 v7 v10 v19 v22 (ix2 p q)
      = max (v2 (ix2 p q) + updateRow selfWeight (fun k => v0 (ix2 p k)) (fun k => v2 (ix2 p k)) v7 v10 v19 v22 q) 0 := by
  unfold k5_pay1 updateRow dense2Row affineRow
  simp only [addf, maximumf, broadcast, Ideal.addf_def, Ideal.maximumf_def, shapeCast_self]
  rw [show FloatOps.ofBits (F := Ideal) .f32 0x00000000#32 = (0 : EReal) from Ideal.ofBits_zero_f32]
  refine congrArg (fun z => max (v2 (ix2 p q) + z) 0) ?_
  refine congrArg₂ (· + ·) ?_ (bias_apply v22 p q)
  refine (dot_apply _ v19 p q).trans ?_
  refine Finset.sum_congr rfl fun k _ => ?_
  refine congrArg₂ (· * ·) ?_ rfl
  show max (matmul (F := Ideal) dot_S5000x64_S64x64_S5000x64_1_0_0_1_n_n none
        (truncf (F := Ideal) .bf16 (fun i => v0 i + FloatOps.mulf (F := Ideal) (FloatOps.ofBits .f32 0x3F8CCCCD#32) (v2 i)) bitsLt_bf16_f32)
        (truncf (F := Ideal) .bf16 v7 bitsLt_bf16_f32)
        (constant S5000x64 .f32 0x00000000#32) (ix2 p k) + broadcastTo S5000x64 v10 broadcasts_S1x64_S5000x64 (ix2 p k))
      (0 : EReal) = _
  rw [dot_apply (fun i => v0 i + FloatOps.mulf (F := Ideal) (FloatOps.ofBits .f32 0x3F8CCCCD#32) (v2 i)) v7 p k, bias_apply v10 p k]
  rfl

/-- The two node-row windows and the output window move down the rows together, block `t` at rows `5000·t …`; the
    four parameter windows stay at their one block. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- What point `t` writes back is its block of the residual update of the six input arrays. -/
theorem flushed_eq (c : Dev nD) (t : Fin cfg5.N) :
    (dat5 V c).flushed 6 t = ((cfg5.win 6).blk t).view.read (Elt Ideal)
      (updateResidual selfWeight (aggArr V c) (hArr V c) (w0Arr V c) (b0Arr V c) (w1Arr V c) (b1Arr V c)) := by
  show (cfg5.win 6).cut (grid5.coords t) ((dat5 V c).after 6 t) = _
  rw [after5_6]
  unfold out5_6
  rw [View.canon_unit_zero hz]
  simp only [View.ld_unit_zero (S := S5000x64) hz, View.ld_unit_zero (S := S64x64) hz, View.ld_unit_zero (S := S1x64) hz]
  obtain ⟨e00, e01, e10, e11, e20, e21, e30, e31, e40, e41, e50, e51, e60, e61⟩ := idx_facts t
  have ht : t.val < 20 := by have h := t.isLt; have hN : cfg5.N = 20 := N_5; omega
  funext j
  obtain ⟨p, q, rfl⟩ : ∃ (p : Fin 5000) (q : Fin 64), j = ix2 p q := ⟨j 0, j 1, eq_ix2 j⟩
  show k5_pay1 (F := Ideal) (aggBlk V c t) (hBlk V c t) (w0Blk V c t) (b0Blk V c t) (w1Blk V c t) (b1Blk V c t) (ix2 p q) = _
  refine (pay_apply (aggBlk V c t) (hBlk V c t) (w0Blk V c t) (b0Blk V c t) (w1Blk V c t) (b1Blk V c t) p q).trans ?_
  -- the global row of the tile's row `p`
  let r : Fin 100000 := ⟨t.val * 5000 + p.val, by have := p.isLt; omega⟩
  have h6 : ((cfg5.win 6).blk t).view.emb (ix2 p q) = ix2 r q := by
    funext a; apply Fin.ext
    match a with
    | ⟨0, _⟩ => show win5_6.index t (0 : Fin 2) * 5000 + 1 * p.val = t.val * 5000 + p.val; omega
    | ⟨1, _⟩ => show win5_6.index t (1 : Fin 2) * 64 + 1 * q.val = q.val; omega
  have hagg : ∀ k : Fin 64, aggBlk V c t (ix2 p k) = aggArr V c (ix2 r k) := fun k => by
    show aggArr V c (((cfg5.win 0).blk t).view.emb (ix2 p k)) = _
    refine congrArg _ ?_
    funext a; apply Fin.ext
    match a with
    | ⟨0, _⟩ => show win5_0.index t (0 : Fin 2) * 5000 + 1 * p.val = t.val * 5000 + p.val; omega
    | ⟨1, _⟩ => show win5_0.index t (1 : Fin 2) * 64 + 1 * k.val = k.val; omega
  have hh : ∀ k : Fin 64, hBlk V c t (ix2 p k) = hArr V c (ix2 r k) := fun k => by
    show hArr V c (((cfg5.win 1).blk t).view.emb (ix2 p k)) = _
    refine congrArg _ ?_
    funext a; apply Fin.ext
    match a with
    | ⟨0, _⟩ => show win5_1.index t (0 : Fin 2) * 5000 + 1 * p.val = t.val * 5000 + p.val; omega
    | ⟨1, _⟩ => show win5_1.index t (1 : Fin 2) * 64 + 1 * k.val = k.val; omega
  have hw0 : w0Blk V c t = w0Arr V c := by
    funext y
    show w0Arr V c (((cfg5.win 2).blk t).view.emb y) = _
    refine congrArg _ ?_
    funext a; apply Fin.ext
    match a with
    | ⟨0, _⟩ => show win5_2.index t (0 : Fin 2) * 64 + 1 * (y 0).val = (y 0).val; omega
    | ⟨1, _⟩ => show win5_2.index t (1 : Fin 2) * 64 + 1 * (y 1).val = (y 1).val; omega
  have hb0 : b0Blk V c t = b0Arr V c := by
    funext y
    show b0Arr V c (((cfg5.win 3).blk t).view.emb y) = _
    refine congrArg _ ?_
    funext a; apply Fin.ext
    match a with
    | ⟨0, _⟩ => show win5_3.index t (0 : Fin 2) * 1 + 1 * (y 0).val = (y 0).val; omega
    | ⟨1, _⟩ => show win5_3.index t (1 : Fin 2) * 64 + 1 * (y 1).val = (y 1).val; omega
  have hw1 : w1Blk V c t = w1Arr V c := by
    funext y
    show w1Arr V c (((cfg5.win 4).blk t).view.emb y) = _
    refine congrArg _ ?_
    funext a; apply Fin.ext
    match a with
    | ⟨0, _⟩ => show win5_4.index t (0 : Fin 2) * 64 + 1 * (y 0).val = (y 0).val; omega
    | ⟨1, _⟩ => show win5_4.index t (1 : Fin 2) * 64 + 1 * (y 1).val = (y 1).val; omega
  have hb1 : b1Blk V c t = b1Arr V c := by
    funext y
    show b1Arr V c (((cfg5.win 5).blk t).view.emb y) = _
    refine congrArg _ ?_
    funext a; apply Fin.ext
    match a with
    | ⟨0, _⟩ => show win5_5.index t (0 : Fin 2) * 1 + 1 * (y 0).val = (y 0).val; omega
    | ⟨1, _⟩ => show win5_5.index t (1 : Fin 2) * 64 + 1 * (y 1).val = (y 1).val; omega
  show max (hBlk V c t (ix2 p q) + updateRow selfWeight (fun k => aggBlk V c t (ix2 p k)) (fun k => hBlk V c t (ix2 p k))
        (w0Blk V c t) (b0Blk V c t) (w1Blk V c t) (b1Blk V c t) q) 0
     = updateResidual selfWeight (aggArr V c) (hArr V c) (w0Arr V c) (b0Arr V c) (w1Arr V c) (b1Arr V c) (((cfg5.win 6).blk t).view.emb (ix2 p q))
  rw [h6, hw0, hb0, hw1, hb1, funext hagg, funext hh, hh q]
  rfl

/-- An index of the array is in point `t`'s block iff each coordinate is in the block's range on its axis. -/
theorem mem_blk (t : Fin cfg5.N) (i : S100000x64.Idx) :
    i ∈ ((cfg5.win 6).blk t).view.set ↔ ∀ a : Fin 2, win5_6.index t a * S5000x64.size a ≤ (i a).val ∧ (i a).val < win5_6.index t a * S5000x64.size a + S5000x64.size a := by
  show i ∈ ((View.whole main_v41).slice (win5_6.rect t)).set ↔ _
  rw [View.set_slice_whole, Rect.mem_set_unit]
  exact Iff.rfl

/-- The blocks tile the array: row `r` is in the block of point `r / 5000`. -/
theorem cover (i : S100000x64.Idx) : ∃ t : Fin cfg5.N, (cfg5.win 6).flush t = true ∧ i ∈ ((cfg5.win 6).blk t).view.set := by
  have hi0 : (i 0).val < 100000 := (i 0).isLt
  have hi1 : (i 1).val < 64 := (i 1).isLt
  have hN : cfg5.N = 20 := N_5
  let t : Fin cfg5.N := ⟨(i 0).val / 5000, by rw [hN]; omega⟩
  obtain ⟨e00, e01, e10, e11, e20, e21, e30, e31, e40, e41, e50, e51, e60, e61⟩ := idx_facts t
  have e60' : win5_6.index t (0 : Fin 2) = (i 0).val / 5000 := e60
  refine ⟨t, flush5_6 t, ?_⟩
  rw [mem_blk]
  intro a
  match a with
  | ⟨0, _⟩ => show win5_6.index t (0 : Fin 2) * 5000 ≤ (i 0).val ∧ (i 0).val < win5_6.index t (0 : Fin 2) * 5000 + 5000; omega
  | ⟨1, _⟩ => show win5_6.index t (1 : Fin 2) * 64 ≤ (i 1).val ∧ (i 1).val < win5_6.index t (1 : Fin 2) * 64 + 64; omega

/-- After the region the output array is the residual update of the six input arrays as the region found them. -/
theorem value (c : Dev nD) :
    (dat5 V c).arrAt 6 cfg5.N
      = updateResidual selfWeight (aggArr V c) (hArr V c) (w0Arr V c) (b0Arr V c) (w1Arr V c) (b1Arr V c) :=
  (dat5 V c).arrAt_eq_of_cover 6 (updateResidual selfWeight (aggArr V c) (hArr V c) (w0Arr V c) (b0Arr V c) (w1Arr V c) (b1Arr V c))
    (fun t _ => flushed_eq V c t) cover

end Cert.KernelIdeal.Region5

end
-- ==== Proof.Round1.lean ====
import proofs.«412257_j64622077936096_2_alg».proof.Proof.Round0
import proofs.«412257_j64622077936096_2_alg».proof.Proof.Region4
import proofs.«412257_j64622077936096_2_alg».proof.Proof.Region5

set_option maxRecDepth 16384

noncomputable section

/-! # The kernel program's run, stage by stage: residual round 1

The round finds the node array `h` in its buffer, the source indices, the edge array and the target indices. A host
stretch gathers each edge's source row of `h` (a filling gather: the plain one, the source indices being in range);
a region forms the messages; a host stretch scatter-adds them to the target nodes and cuts the round's two matrices
and two bias rows out of the stacked parameters; a region updates every node. The node array it leaves is `round`
of `h`. -/

namespace Cert.KernelIdeal.Chain

open Idealize.ShloMosaic Idealize.ShloMosaic.TcCoe Idealize.SL.Sem Idealize.ShloMosaic.StableHlo
open Cert.KernelIdeal Cert.KernelIdeal.Gen
open Cert.KernelIdeal.Keeps Cert.KernelIdeal.Take Cert.Gine

variable (m : (ℓ : Loc nD τ sig) → Buf (Elt Ideal) ℓ) (ρ : Dev nD → PrngReg) (c : Dev nD)

/-- The node array after round 1. -/
abbrev h2 : Nodes :=
  round selfWeight (gatherSrc m c) (scatterDst m c) (eArr m c)
    (layerMat (m ((c : Thread nD τ).loc main_arg12)) (1 : Fin 3)) (layerRow (m ((c : Thread nD τ).loc main_arg13)) (1 : Fin 3)) (layerMat (m ((c : Thread nD τ).loc main_arg14)) (1 : Fin 3)) (layerRow (m ((c : Thread nD τ).loc main_arg15)) (1 : Fin 3)) (h1 m c)

/-- Read through the node array's typed reference, and written through the gathered rows', contents are unchanged. -/
theorem ofBuf_hbuf1 (e1 : main_v25.ty = ⟨S100000x64, .f32⟩) (e2 e3) (v : main_v25.ty.Contents (Elt Ideal)) :
    (StableHlo.TRef.of (sig := sig) main_v25 e1 e2 e3).ofBuf v = v := rfl
theorem toBuf_gbuf1 (e1 : main_v26.ty = ⟨S1000000x64, .f32⟩) (e2 e3) (v : (⟨S1000000x64, .f32⟩ : BufTy).Contents (Elt Ideal)) :
    (StableHlo.TRef.of (sig := sig) main_v26 e1 e2 e3).toBuf v = v := rfl

/-- The gathered source rows, as the stretch computes them: the filling gather of the node array at the source indices. -/
theorem W9_v26_fill : W9 m ρ c (Proc.devRef .tc main_v26)
      = takeFill (W8 m ρ c (Proc.devRef .tc main_v25)) (W8 m ρ c (Proc.devRef .tc main_v1)) := by
  show StableHlo.after (hostOps4 (F := Ideal)) (W8 m ρ c) (Proc.devRef .tc main_v26) = _
  after_results_simp
  simp only [ofBuf_toBuf]
  rw [toBuf_gbuf1, ofBuf_hbuf1]
  simp only [ofBuf_v1]
  unfold takeFill
  rfl

/-- The gathered source rows. -/
theorem W9_v26 (hr : SrcInRange m c) : W9 m ρ c (Proc.devRef .tc main_v26) = gatherSrc m c (h1 m c) := by
  rw [W9_v26_fill, W8_v25 m ρ c hr, W8_v1, takeFill_eq _ _ hr]
  rfl

/-- The messages. -/
theorem W10_v27 (hr : SrcInRange m c) : W10 m ρ c (Proc.devRef .tc main_v27) = message (gatherSrc m c (h1 m c)) (eArr m c) := by
  refine (W10_arr m ρ c 2).trans ((Region4.value (V9 m ρ) c).trans ?_)
  have e0 : Region4.srcRows (V9 m ρ) c = gatherSrc m c (h1 m c) := W9_v26 m ρ c hr
  have e1 : Region4.edgeRows (V9 m ρ) c = eArr m c := W9_v9 m ρ c
  rw [e0, e1]

/-- The aggregate. -/
theorem W11_v30 (hr : SrcInRange m c) : W11 m ρ c (Proc.devRef .tc main_v30) = aggregate (gatherSrc m c) (scatterDst m c) (h1 m c) (eArr m c) := by
  have e : W11 m ρ c (Proc.devRef .tc main_v30)
      = Host.scatterAdd scatter_S100000x64_S1000000x1_S1000000x64_1_0_0_1
          (broadcastInDim S100000x64 ![] bcast_S_S100000x64 (constant (F := Ideal) S_ .f32 0x00000000#32))
          (broadcastInDim S1000000x1 ![0] bcast_S1000000_S1000000x1_0 (W10 m ρ c (Proc.devRef .tc main_v3)))
          (W10 m ρ c (Proc.devRef .tc main_v27)) := by
    show StableHlo.after (hostOps5 (F := Ideal)) (W10 m ρ c) (Proc.devRef .tc main_v30) = _
    after_results <;> rfl
  rw [e, W10_v3, W10_v27 m ρ c hr]
  rfl

/-- The round's first matrix. -/
theorem W11_v32 : W11 m ρ c (Proc.devRef .tc main_v32) = layerMat (m ((c : Thread nD τ).loc main_arg12)) (1 : Fin 3) := by
  refine Eq.trans ?_ (slice_mat (m ((c : Thread nD τ).loc main_arg12)) (1 : Fin 3) slices_S3x64x64_S1x64x64_1_0_0 shapeCasts_S1x64x64_S64x64)
  refine Eq.trans ?_ (congrArg (fun x => shapeCast S64x64 (extractStridedSlice S1x64x64 ![1, 0, 0] x slices_S3x64x64_S1x64x64_1_0_0)
    shapeCasts_S1x64x64_S64x64) (keep_arg12_10_0 m ρ c))
  show StableHlo.after (hostOps5 (F := Ideal)) (W10 m ρ c) (Proc.devRef .tc main_v32) = _
  after_results <;> rfl

/-- The round's second matrix. -/
theorem W11_v36 : W11 m ρ c (Proc.devRef .tc main_v36) = layerMat (m ((c : Thread nD τ).loc main_arg14)) (1 : Fin 3) := by
  refine Eq.trans ?_ (slice_mat (m ((c : Thread nD τ).loc main_arg14)) (1 : Fin 3) slices_S3x64x64_S1x64x64_1_0_0 shapeCasts_S1x64x64_S64x64)
  refine Eq.trans ?_ (congrArg (fun x => shapeCast S64x64 (extractStridedSlice S1x64x64 ![1, 0, 0] x slices_S3x64x64_S1x64x64_1_0_0)
    shapeCasts_S1x64x64_S64x64) (keep_arg14_10_0 m ρ c))
  show StableHlo.after (hostOps5 (F := Ideal)) (W10 m ρ c) (Proc.devRef .tc main_v36) = _
  after_results <;> rfl

/-- The round's first bias row. -/
theorem W11_v39 : W11 m ρ c (Proc.devRef .tc main_v39) = layerRow (m ((c : Thread nD τ).loc main_arg13)) (1 : Fin 3) := by
  refine Eq.trans ?_ (slice_row (m ((c : Thread nD τ).loc main_arg13)) (1 : Fin 3) slices_S3x64_S1x64_1_0 shapeCasts_S1x64_S64)
  refine Eq.trans ?_ (reshape_row _ shapeCasts_S64_S1x64)
  refine Eq.trans ?_ (congrArg (fun x => shapeCast S1x64 (shapeCast S64 (extractStridedSlice S1x64 ![1, 0] x slices_S3x64_S1x64_1_0)
    shapeCasts_S1x64_S64) shapeCasts_S64_S1x64) (keep_arg13_10_0 m ρ c))
  show StableHlo.after (hostOps5 (F := Ideal)) (W10 m ρ c) (Proc.devRef .tc main_v39) = _
  after_results <;> rfl

/-- The round's second bias row. -/
theorem W11_v40 : W11 m ρ c (Proc.devRef .tc main_v40) = layerRow (m ((c : Thread nD τ).loc main_arg15)) (1 : Fin 3) := by
  refine Eq.trans ?_ (slice_row (m ((c : Thread nD τ).loc main_arg15)) (1 : Fin 3) slices_S3x64_S1x64_1_0 shapeCasts_S1x64_S64)
  refine Eq.trans ?_ (reshape_row _ shapeCasts_S64_S1x64)
  refine Eq.trans ?_ (congrArg (fun x => shapeCast S1x64 (shapeCast S64 (extractStridedSlice S1x64 ![1, 0] x slices_S3x64_S1x64_1_0)
    shapeCasts_S1x64_S64) shapeCasts_S64_S1x64) (keep_arg15_10_0 m ρ c))
  show StableHlo.after (hostOps5 (F := Ideal)) (W10 m ρ c) (Proc.devRef .tc main_v40) = _
  after_results <;> rfl

/-- The node array the round leaves. -/
theorem W12_v41 (hr : SrcInRange m c) : W12 m ρ c (Proc.devRef .tc main_v41) = h2 m c := by
  refine (W12_arr m ρ c 6).trans ((Region5.value (V11 m ρ) c).trans ?_)
  have e0 : Region5.aggArr (V11 m ρ) c = aggregate (gatherSrc m c) (scatterDst m c) (h1 m c) (eArr m c) := W11_v30 m ρ c hr
  have e1 : Region5.hArr (V11 m ρ) c = h1 m c := (keep_v25_11_8 m ρ c).trans (W8_v25 m ρ c hr)
  have e2 : Region5.w0Arr (V11 m ρ) c = layerMat (m ((c : Thread nD τ).loc main_arg12)) (1 : Fin 3) := W11_v32 m ρ c
  have e3 : Region5.b0Arr (V11 m ρ) c = layerRow (m ((c : Thread nD τ).loc main_arg13)) (1 : Fin 3) := W11_v39 m ρ c
  have e4 : Region5.w1Arr (V11 m ρ) c = layerMat (m ((c : Thread nD τ).loc main_arg14)) (1 : Fin 3) := W11_v36 m ρ c
  have e5 : Region5.b1Arr (V11 m ρ) c = layerRow (m ((c : Thread nD τ).loc main_arg15)) (1 : Fin 3) := W11_v40 m ρ c
  rw [e0, e1, e2, e3, e4, e5]
  rfl

/-! ## What the next round finds -/

theorem W12_v1 : W12 m ρ c (Proc.devRef .tc main_v1) = edgeRow0 m c := (keep_v1_12_8 m ρ c).trans (W8_v1 m ρ c)
theorem W13_v9 : W13 m ρ c (Proc.devRef .tc main_v9) = eArr m c := (keep_v9_13_9 m ρ c).trans (W9_v9 m ρ c)
theorem W14_v3 : W14 m ρ c (Proc.devRef .tc main_v3) = edgeRow1 m c := (keep_v3_14_10 m ρ c).trans (W10_v3 m ρ c)

end Cert.KernelIdeal.Chain

end
-- ==== Proof.Region6.lean ====
import proofs.«412257_j64622077936096_2_alg».proof.Proof.Gen.KernelIdeal.Frame
import proofs.«412257_j64622077936096_2_alg».proof.Proof.Spec
import Idealize.ShloMosaic.Lib.Pipeline.Value
import Idealize.ShloMosaic.Lib.ValueIdx

set_option maxRecDepth 16384

noncomputable section

/-! # The message region: what the edge array holds after it

The region's grid has 100 points; point `t` reads rows `10000·t … 10000·t + 9999` of the gathered source rows and
of the edge rows, and writes the same rows of the output: entry by entry the rectified sum `max (a + e) 0`. The
100 blocks tile the million rows, so after the region the output array is `message` of the two input arrays as
the region found them. Stated at the region's entry contents `V`, whatever they are. -/

namespace Cert.KernelIdeal.Region6

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Gine

variable (V : (c : Dev nD) → (b : Ref sig .tc) → Buf (Elt Ideal) ((c : Thread nD τ).loc b))

/-- The gathered source rows and the edge rows as the region finds them. -/
abbrev srcRows (c : Dev nD) : S1000000x64.Idx → EReal := V c (Pipeline.arrRef spec6 0)
abbrev edgeRows (c : Dev nD) : S1000000x64.Idx → EReal := V c (Pipeline.arrRef spec6 1)

/-- Point `t`'s blocks of the two inputs. -/
abbrev srcBlk (c : Dev nD) (t : Fin cfg6.N) : Vec Ideal S10000x64 .f32 := iblk6 V c 0 t
abbrev edgeBlk (c : Dev nD) (t : Fin cfg6.N) : Vec Ideal S10000x64 .f32 := iblk6 V c 1 t

theorem hz : (![0, 0] : Fin 2 → Nat) = fun _ => 0 := funext fun a => by fin_cases a <;> rfl

/-- The body's one store, entry by entry: the rectified sum of the two loaded blocks. -/
theorem pay_apply (v0 v2 : Vec Ideal S10000x64 .f32) (p : Fin 10000) (q : Fin 64) :
    k6_pay1 (F := Ideal) v0 v2 (ix2 p q) = max (v0 (ix2 p q) + v2 (ix2 p q)) 0 := by
  unfold k6_pay1
  simp only [maximumf, addf, broadcast, Ideal.maximumf_def, Ideal.addf_def, shapeCast_self]
  exact congrArg _ Ideal.ofBits_zero_f32

/-- The three windows move together: block `t` of each is rows `10000·t …`, all 64 columns. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0 :=
  (by decide +kernel : ∀ t : Fin grid6.N, _)

/-- What point `t` writes back is its block of `message` of the two input arrays. -/
theorem flushed_eq (c : Dev nD) (t : Fin cfg6.N) :
    (dat6 V c).flushed 2 t = ((cfg6.win 2).blk t).view.read (Elt Ideal) (message (srcRows V c) (edgeRows V c)) := by
  show (cfg6.win 2).cut (grid6.coords t) ((dat6 V c).after 2 t) = _
  rw [after6_2]
  unfold out6_2
  rw [View.canon_unit_zero hz]
  simp only [View.ld_unit_zero (S := S10000x64) hz]
  obtain ⟨e0, e1, e2, e3, e4, e5⟩ := idx_facts t
  funext j
  obtain ⟨p, q, rfl⟩ : ∃ (p : Fin 10000) (q : Fin 64), j = ix2 p q := ⟨j 0, j 1, eq_ix2 j⟩
  show k6_pay1 (F := Ideal) (srcBlk V c t) (edgeBlk V c t) (ix2 p q) = _
  refine (pay_apply (srcBlk V c t) (edgeBlk V c t) p q).trans ?_
  show max (srcRows V c (((cfg6.win 0).blk t).view.emb (ix2 p q)) + edgeRows V c (((cfg6.win 1).blk t).view.emb (ix2 p q))) 0
     = max (srcRows V c (((cfg6.win 2).blk t).view.emb (ix2 p q)) + edgeRows V c (((cfg6.win 2).blk t).view.emb (ix2 p q))) 0
  have h0 : ((cfg6.win 0).blk t).view.emb (ix2 p q) = ((cfg6.win 2).blk t).view.emb (ix2 p q) := by
    funext a; apply Fin.ext
    match a with
    | ⟨0, _⟩ => show win6_0.index t (0 : Fin 2) * 10000 + 1 * p.val = win6_2.index t (0 : Fin 2) * 10000 + 1 * p.val; omega
    | ⟨1, _⟩ => show win6_0.index t (1 : Fin 2) * 64 + 1 * q.val = win6_2.index t (1 : Fin 2) * 64 + 1 * q.val; omega
  have h1 : ((cfg6.win 1).blk t).view.emb (ix2 p q) = ((cfg6.win 2).blk t).view.emb (ix2 p q) := by
    funext a; apply Fin.ext
    match a with
    | ⟨0, _⟩ => show win6_1.index t (0 : Fin 2) * 10000 + 1 * p.val = win6_2.index t (0 : Fin 2) * 10000 + 1 * p.val; omega
    | ⟨1, _⟩ => show win6_1.index t (1 : Fin 2) * 64 + 1 * q.val = win6_2.index t (1 : Fin 2) * 64 + 1 * q.val; omega
  rw [h0, h1]

/-- An index of the array is in point `t`'s block iff each coordinate is in the block's range on its axis. -/
theorem mem_blk (t : Fin cfg6.N) (i : S1000000x64.Idx) :
    i ∈ ((cfg6.win 2).blk t).view.set ↔ ∀ a : Fin 2, win6_2.index t a * S10000x64.size a ≤ (i a).val ∧ (i a).val < win6_2.index t a * S10000x64.size a + S10000x64.size a := by
  show i ∈ ((View.whole main_v43).slice (win6_2.rect t)).set ↔ _
  rw [View.set_slice_whole, Rect.mem_set_unit]
  exact Iff.rfl

/-- The blocks tile the array: row `r` is in the block of point `r / 10000`. -/
theorem cover (i : S1000000x64.Idx) : ∃ t : Fin cfg6.N, (cfg6.win 2).flush t = true ∧ i ∈ ((cfg6.win 2).blk t).view.set := by
  have hi0 : (i 0).val < 1000000 := (i 0).isLt
  have hi1 : (i 1).val < 64 := (i 1).isLt
  have hN : cfg6.N = 100 := N_6
  let t : Fin cfg6.N := ⟨(i 0).val / 10000, by rw [hN]; omega⟩
  obtain ⟨e0, e1, e2, e3, e4, e5⟩ := idx_facts t
  have e4' : win6_2.index t (0 : Fin 2) = (i 0).val / 10000 := e4
  refine ⟨t, flush6_2 t, ?_⟩
  rw [mem_blk]
  intro a
  match a with
  | ⟨0, _⟩ => show win6_2.index t (0 : Fin 2) * 10000 ≤ (i 0).val ∧ (i 0).val < win6_2.index t (0 : Fin 2) * 10000 + 10000; omega
  | ⟨1, _⟩ => show win6_2.index t (1 : Fin 2) * 64 ≤ (i 1).val ∧ (i 1).val < win6_2.index t (1 : Fin 2) * 64 + 64; omega

/-- After the region the output array is `message` of the two input arrays as the region found them. -/
theorem value (c : Dev nD) : (dat6 V c).arrAt 2 cfg6.N = message (srcRows V c) (edgeRows V c) :=
  (dat6 V c).arrAt_eq_of_cover 2 (message (srcRows V c) (edgeRows V c)) (fun t _ => flushed_eq V c t) cover

end Cert.KernelIdeal.Region6

end
-- ==== Proof.Region7.lean ====
import proofs.«412257_j64622077936096_2_alg».proof.Proof.Gen.KernelIdeal.Frame
import proofs.«412257_j64622077936096_2_alg».proof.Proof.Spec
import proofs.«412257_j64622077936096_2_alg».proof.Proof.LibPlainDot
import Idealize.ShloMosaic.Lib.Pipeline.Value
import Idealize.ShloMosaic.Lib.ValueIdx

set_option maxRecDepth 16384

noncomputable section

/-! # A residual convolution's update region: what the node array holds after it

The region's grid has 20 points; point `t` reads the 5000 rows from row `5000·t` of the aggregate and of the node
array, and the whole of both weight matrices and both bias rows, and writes the same rows of the output. Row by
row: the two-layer stage of `agg + s · h`, where `s` is the self-loop weight (the float the program carries for
`1 + ε`, kept as its word: both programs carry the same word, so it is never evaluated), then the rectified sum of
the node's own row and that update. A row of the output depends on the same row of the two inputs only; the 20
blocks tile the 100000 rows. Stated at the region's entry contents `V`, whatever they are. -/

namespace Cert.KernelIdeal.Region7

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Gine
open scoped BigOperators

variable (V : (c : Dev nD) → (b : Ref sig .tc) → Buf (Elt Ideal) ((c : Thread nD τ).loc b))

/-- The self-loop weight, as the word the program carries. -/
abbrev selfWeight : EReal := Ideal.ofBits .f32 0x3F8CCCCD#32

/-- The six input arrays as the region finds them. -/
abbrev aggArr (c : Dev nD) : S100000x64.Idx → EReal := V c (Pipeline.arrRef spec7 0)
abbrev hArr (c : Dev nD) : S100000x64.Idx → EReal := V c (Pipeline.arrRef spec7 1)
abbrev w0Arr (c : Dev nD) : S64x64.Idx → EReal := V c (Pipeline.arrRef spec7 2)
abbrev b0Arr (c : Dev nD) : S1x64.Idx → EReal := V c (Pipeline.arrRef spec7 3)
abbrev w1Arr (c : Dev nD) : S64x64.Idx → EReal := V c (Pipeline.arrRef spec7 4)
abbrev b1Arr (c : Dev nD) : S1x64.Idx → EReal := V c (Pipeline.arrRef spec7 5)

/-- Point `t`'s blocks of the six inputs. -/
abbrev aggBlk (c : Dev nD) (t : Fin cfg7.N) : Vec Ideal S5000x64 .f32 := iblk7 V c 0 t
abbrev hBlk (c : Dev nD) (t : Fin cfg7.N) : Vec Ideal S5000x64 .f32 := iblk7 V c 1 t
abbrev w0Blk (c : Dev nD) (t : Fin cfg7.N) : Vec Ideal S64x64 .f32 := iblk7 V c 2 t
abbrev b0Blk (c : Dev nD) (t : Fin cfg7.N) : Vec Ideal S1x64 .f32 := iblk7 V c 3 t
abbrev w1Blk (c : Dev nD) (t : Fin cfg7.N) : Vec Ideal S64x64 .f32 := iblk7 V c 4 t
abbrev b1Blk (c : Dev nD) (t : Fin cfg7.N) : Vec Ideal S1x64 .f32 := iblk7 V c 5 t

theorem hz : (![0, 0] : Fin 2 → Nat) = fun _ => 0 := funext fun a => by fin_cases a <;> rfl

/-- A bias row broadcast down the tile's rows, at an entry: the row's entry in that column. -/
theorem bias_apply (b : Vec Ideal S1x64 .f32) (p : Fin 5000) (q : Fin 64) :
    broadcastTo S5000x64 b broadcasts_S1x64_S5000x64 (ix2 p q) = b (ix2 0 q) :=
  broadcastTo_apply b broadcasts_S1x64_S5000x64 (ix2 p q) (ix2 0 q) fun a => by
    match a with
    | ⟨0, _⟩ => rfl
    | ⟨1, _⟩ => rfl

/-- Either product of the body, at an entry: the sum over the 64 features. -/
theorem dot_apply (l : FVec Ideal S5000x64 .f32) (r : FVec Ideal S64x64 .f32) (p : Fin 5000) (q : Fin 64) :
    matmul (F := Ideal) dot_S5000x64_S64x64_S5000x64_1_0_0_1_n_n none (truncf .bf16 l bitsLt_bf16_f32) (truncf .bf16 r bitsLt_bf16_f32)
        (constant S5000x64 .f32 0x00000000#32) (ix2 p q)
      = ∑ k : Fin 64, l (ix2 p k) * r (ix2 k q) :=
  Cert.PlainDot.matmul_zero_apply (M := 5000) (K := 64) (N := 64) dot_S5000x64_S64x64_S5000x64_1_0_0_1_n_n rfl none
    (truncf .bf16 l bitsLt_bf16_f32) (truncf .bf16 r bitsLt_bf16_f32) (ix2 p q)

/-- The body's one store, entry by entry: the rectified sum of the node's entry and the update of the tile's row. -/
theorem pay_apply (v0 v2 : Vec Ideal S5000x64 .f32) (v7 : Vec Ideal S64x64 .f32) (v10 : Vec Ideal S1x64 .f32) (v19 : Vec Ideal S64x64 .f32)
    (v22 : Vec Ideal S1x64 .f32) (p : Fin 5000) (q : Fin 64) :
    k7_pay1 (F := Ideal) v0 v2 v7 v10 v19 v22 (ix2 p q)
      = max (v2 (ix2 p q) + updateRow selfWeight (fun k => v0 (ix2 p k)) (fun k => v2 (ix2 p k)) v7 v10 v19 v22 q) 0 := by
  unfold k7_pay1 updateRow dense2Row affineRow
  simp only [addf, maximumf, broadcast, Ideal.addf_def, Ideal.maximumf_def, shapeCast_self]
  rw [show FloatOps.ofBits (F := Ideal) .f32 0x00000000#32 = (0 : EReal) from Ideal.ofBits_zero_f32]
  refine congrArg (fun z => max (v2 (ix2 p q) + z) 0) ?_
  refine congrArg₂ (· + ·) ?_ (bias_apply v22 p q)
  refine (dot_apply _ v19 p q).trans ?_
  refine Finset.sum_congr rfl fun k _ => ?_
  refine congrArg₂ (· * ·) ?_ rfl
  show max (matmul (F := Ideal) dot_S5000x64_S64x64_S5000x64_1_0_0_1_n_n none
        (truncf (F := Ideal) .bf16 (fun i => v0 i + FloatOps.mulf (F := Ideal) (FloatOps.ofBits .f32 0x3F8CCCCD#32) (v2 i)) bitsLt_bf16_f32)
        (truncf (F := Ideal) .bf16 v7 bitsLt_bf16_f32)
        (constant S5000x64 .f32 0x00000000#32) (ix2 p k) + broadcastTo S5000x64 v10 broadcasts_S1x64_S5000x64 (ix2 p k))
      (0 : EReal) = _
  rw [dot_apply (fun i => v0 i + FloatOps.mulf (F := Ideal) (FloatOps.ofBits .f32 0x3F8CCCCD#32) (v2 i)) v7 p k, bias_apply v10 p k]
  rfl

/-- The two node-row windows and the output window move down the rows together, block `t` at rows `5000·t …`; the
    four parameter windows stay at their one block. -/
theorem idx_facts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = t.val ∧ win7_6.index t (1 : Fin 2) = 0 :=
  (by decide +kernel : ∀ t : Fin grid7.N, _)

/-- What point `t` writes back is its block of the residual update of the six input arrays. -/
theorem flushed_eq (c : Dev nD) (t : Fin cfg7.N) :
    (dat7 V c).flushed 6 t = ((cfg7.win 6).blk t).view.read (Elt Ideal)
      (updateResidual selfWeight (aggArr V c) (hArr V c) (w0Arr V c) (b0Arr V c) (w1Arr V c) (b1Arr V c)) := by
  show (cfg7.win 6).cut (grid7.coords t) ((dat7 V c).after 6 t) = _
  rw [after7_6]
  unfold out7_6
  rw [View.canon_unit_zero hz]
  simp only [View.ld_unit_zero (S := S5000x64) hz, View.ld_unit_zero (S := S64x64) hz, View.ld_unit_zero (S := S1x64) hz]
  obtain ⟨e00, e01, e10, e11, e20, e21, e30, e31, e40, e41, e50, e51, e60, e61⟩ := idx_facts t
  have ht : t.val < 20 := by have h := t.isLt; have hN : cfg7.N = 20 := N_7; omega
  funext j
  obtain ⟨p, q, rfl⟩ : ∃ (p : Fin 5000) (q : Fin 64), j = ix2 p q := ⟨j 0, j 1, eq_ix2 j⟩
  show k7_pay1 (F := Ideal) (aggBlk V c t) (hBlk V c t) (w0Blk V c t) (b0Blk V c t) (w1Blk V c t) (b1Blk V c t) (ix2 p q) = _
  refine (pay_apply (aggBlk V c t) (hBlk V c t) (w0Blk V c t) (b0Blk V c t) (w1Blk V c t) (b1Blk V c t) p q).trans ?_
  -- the global row of the tile's row `p`
  let r : Fin 100000 := ⟨t.val * 5000 + p.val, by have := p.isLt; omega⟩
  have h6 : ((cfg7.win 6).blk t).view.emb (ix2 p q) = ix2 r q := by
    funext a; apply Fin.ext
    match a with
    | ⟨0, _⟩ => show win7_6.index t (0 : Fin 2) * 5000 + 1 * p.val = t.val * 5000 + p.val; omega
    | ⟨1, _⟩ => show win7_6.index t (1 : Fin 2) * 64 + 1 * q.val = q.val; omega
  have hagg : ∀ k : Fin 64, aggBlk V c t (ix2 p k) = aggArr V c (ix2 r k) := fun k => by
    show aggArr V c (((cfg7.win 0).blk t).view.emb (ix2 p k)) = _
    refine congrArg _ ?_
    funext a; apply Fin.ext
    match a with
    | ⟨0, _⟩ => show win7_0.index t (0 : Fin 2) * 5000 + 1 * p.val = t.val * 5000 + p.val; omega
    | ⟨1, _⟩ => show win7_0.index t (1 : Fin 2) * 64 + 1 * k.val = k.val; omega
  have hh : ∀ k : Fin 64, hBlk V c t (ix2 p k) = hArr V c (ix2 r k) := fun k => by
    show hArr V c (((cfg7.win 1).blk t).view.emb (ix2 p k)) = _
    refine congrArg _ ?_
    funext a; apply Fin.ext
    match a with
    | ⟨0, _⟩ => show win7_1.index t (0 : Fin 2) * 5000 + 1 * p.val = t.val * 5000 + p.val; omega
    | ⟨1, _⟩ => show win7_1.index t (1 : Fin 2) * 64 + 1 * k.val = k.val; omega
  have hw0 : w0Blk V c t = w0Arr V c := by
    funext y
    show w0Arr V c (((cfg7.win 2).blk t).view.emb y) = _
    refine congrArg _ ?_
    funext a; apply Fin.ext
    match a with
    | ⟨0, _⟩ => show win7_2.index t (0 : Fin 2) * 64 + 1 * (y 0).val = (y 0).val; omega
    | ⟨1, _⟩ => show win7_2.index t (1 : Fin 2) * 64 + 1 * (y 1).val = (y 1).val; omega
  have hb0 : b0Blk V c t = b0Arr V c := by
    funext y
    show b0Arr V c (((cfg7.win 3).blk t).view.emb y) = _
    refine congrArg _ ?_
    funext a; apply Fin.ext
    match a with
    | ⟨0, _⟩ => show win7_3.index t (0 : Fin 2) * 1 + 1 * (y 0).val = (y 0).val; omega
    | ⟨1, _⟩ => show win7_3.index t (1 : Fin 2) * 64 + 1 * (y 1).val = (y 1).val; omega
  have hw1 : w1Blk V c t = w1Arr V c := by
    funext y
    show w1Arr V c (((cfg7.win 4).blk t).view.emb y) = _
    refine congrArg _ ?_
    funext a; apply Fin.ext
    match a with
    | ⟨0, _⟩ => show win7_4.index t (0 : Fin 2) * 64 + 1 * (y 0).val = (y 0).val; omega
    | ⟨1, _⟩ => show win7_4.index t (1 : Fin 2) * 64 + 1 * (y 1).val = (y 1).val; omega
  have hb1 : b1Blk V c t = b1Arr V c := by
    funext y
    show b1Arr V c (((cfg7.win 5).blk t).view.emb y) = _
    refine congrArg _ ?_
    funext a; apply Fin.ext
    match a with
    | ⟨0, _⟩ => show win7_5.index t (0 : Fin 2) * 1 + 1 * (y 0).val = (y 0).val; omega
    | ⟨1, _⟩ => show win7_5.index t (1 : Fin 2) * 64 + 1 * (y 1).val = (y 1).val; omega
  show max (hBlk V c t (ix2 p q) + updateRow selfWeight (fun k => aggBlk V c t (ix2 p k)) (fun k => hBlk V c t (ix2 p k))
        (w0Blk V c t) (b0Blk V c t) (w1Blk V c t) (b1Blk V c t) q) 0
     = updateResidual selfWeight (aggArr V c) (hArr V c) (w0Arr V c) (b0Arr V c) (w1Arr V c) (b1Arr V c) (((cfg7.win 6).blk t).view.emb (ix2 p q))
  rw [h6, hw0, hb0, hw1, hb1, funext hagg, funext hh, hh q]
  rfl

/-- An index of the array is in point `t`'s block iff each coordinate is in the block's range on its axis. -/
theorem mem_blk (t : Fin cfg7.N) (i : S100000x64.Idx) :
    i ∈ ((cfg7.win 6).blk t).view.set ↔ ∀ a : Fin 2, win7_6.index t a * S5000x64.size a ≤ (i a).val ∧ (i a).val < win7_6.index t a * S5000x64.size a + S5000x64.size a := by
  show i ∈ ((View.whole main_v57).slice (win7_6.rect t)).set ↔ _
  rw [View.set_slice_whole, Rect.mem_set_unit]
  exact Iff.rfl

/-- The blocks tile the array: row `r` is in the block of point `r / 5000`. -/
theorem cover (i : S100000x64.Idx) : ∃ t : Fin cfg7.N, (cfg7.win 6).flush t = true ∧ i ∈ ((cfg7.win 6).blk t).view.set := by
  have hi0 : (i 0).val < 100000 := (i 0).isLt
  have hi1 : (i 1).val < 64 := (i 1).isLt
  have hN : cfg7.N = 20 := N_7
  let t : Fin cfg7.N := ⟨(i 0).val / 5000, by rw [hN]; omega⟩
  obtain ⟨e00, e01, e10, e11, e20, e21, e30, e31, e40, e41, e50, e51, e60, e61⟩ := idx_facts t
  have e60' : win7_6.index t (0 : Fin 2) = (i 0).val / 5000 := e60
  refine ⟨t, flush7_6 t, ?_⟩
  rw [mem_blk]
  intro a
  match a with
  | ⟨0, _⟩ => show win7_6.index t (0 : Fin 2) * 5000 ≤ (i 0).val ∧ (i 0).val < win7_6.index t (0 : Fin 2) * 5000 + 5000; omega
  | ⟨1, _⟩ => show win7_6.index t (1 : Fin 2) * 64 ≤ (i 1).val ∧ (i 1).val < win7_6.index t (1 : Fin 2) * 64 + 64; omega

/-- After the region the output array is the residual update of the six input arrays as the region found them. -/
theorem value (c : Dev nD) :
    (dat7 V c).arrAt 6 cfg7.N
      = updateResidual selfWeight (aggArr V c) (hArr V c) (w0Arr V c) (b0Arr V c) (w1Arr V c) (b1Arr V c) :=
  (dat7 V c).arrAt_eq_of_cover 6 (updateResidual selfWeight (aggArr V c) (hArr V c) (w0Arr V c) (b0Arr V c) (w1Arr V c) (b1Arr V c))
    (fun t _ => flushed_eq V c t) cover

end Cert.KernelIdeal.Region7

end
-- ==== Proof.Round2.lean ====
import proofs.«412257_j64622077936096_2_alg».proof.Proof.Round1
import proofs.«412257_j64622077936096_2_alg».proof.Proof.Region6
import proofs.«412257_j64622077936096_2_alg».proof.Proof.Region7

set_option maxRecDepth 16384

noncomputable section

/-! # The kernel program's run, stage by stage: residual round 2

The round finds the node array `h` in its buffer, the source indices, the edge array and the target indices. A host
stretch gathers each edge's source row of `h` (a filling gather: the plain one, the source indices being in range);
a region forms the messages; a host stretch scatter-adds them to the target nodes and cuts the round's two matrices
and two bias rows out of the stacked parameters; a region updates every node. The node array it leaves is `round`
of `h`. -/

namespace Cert.KernelIdeal.Chain

open Idealize.ShloMosaic Idealize.ShloMosaic.TcCoe Idealize.SL.Sem Idealize.ShloMosaic.StableHlo
open Cert.KernelIdeal Cert.KernelIdeal.Gen
open Cert.KernelIdeal.Keeps Cert.KernelIdeal.Take Cert.Gine

variable (m : (ℓ : Loc nD τ sig) → Buf (Elt Ideal) ℓ) (ρ : Dev nD → PrngReg) (c : Dev nD)

/-- The node array after round 2. -/
abbrev h3 : Nodes :=
  round selfWeight (gatherSrc m c) (scatterDst m c) (eArr m c)
    (layerMat (m ((c : Thread nD τ).loc main_arg12)) (2 : Fin 3)) (layerRow (m ((c : Thread nD τ).loc main_arg13)) (2 : Fin 3)) (layerMat (m ((c : Thread nD τ).loc main_arg14)) (2 : Fin 3)) (layerRow (m ((c : Thread nD τ).loc main_arg15)) (2 : Fin 3)) (h2 m c)

/-- Read through the node array's typed reference, and written through the gathered rows', contents are unchanged. -/
theorem ofBuf_hbuf2 (e1 : main_v41.ty = ⟨S100000x64, .f32⟩) (e2 e3) (v : main_v41.ty.Contents (Elt Ideal)) :
    (StableHlo.TRef.of (sig := sig) main_v41 e1 e2 e3).ofBuf v = v := rfl
theorem toBuf_gbuf2 (e1 : main_v42.ty = ⟨S1000000x64, .f32⟩) (e2 e3) (v : (⟨S1000000x64, .f32⟩ : BufTy).Contents (Elt Ideal)) :
    (StableHlo.TRef.of (sig := sig) main_v42 e1 e2 e3).toBuf v = v := rfl

/-- The gathered source rows, as the stretch computes them: the filling gather of the node array at the source indices. -/
theorem W13_v42_fill : W13 m ρ c (Proc.devRef .tc main_v42)
      = takeFill (W12 m ρ c (Proc.devRef .tc main_v41)) (W12 m ρ c (Proc.devRef .tc main_v1)) := by
  show StableHlo.after (hostOps6 (F := Ideal)) (W12 m ρ c) (Proc.devRef .tc main_v42) = _
  after_results_simp
  simp only [ofBuf_toBuf]
  rw [toBuf_gbuf2, ofBuf_hbuf2]
  simp only [ofBuf_v1]
  unfold takeFill
  rfl

/-- The gathered source rows. -/
theorem W13_v42 (hr : SrcInRange m c) : W13 m ρ c (Proc.devRef .tc main_v42) = gatherSrc m c (h2 m c) := by
  rw [W13_v42_fill, W12_v41 m ρ c hr, W12_v1, takeFill_eq _ _ hr]
  rfl

/-- The messages. -/
theorem W14_v43 (hr : SrcInRange m c) : W14 m ρ c (Proc.devRef .tc main_v43) = message (gatherSrc m c (h2 m c)) (eArr m c) := by
  refine (W14_arr m ρ c 2).trans ((Region6.value (V13 m ρ) c).trans ?_)
  have e0 : Region6.srcRows (V13 m ρ) c = gatherSrc m c (h2 m c) := W13_v42 m ρ c hr
  have e1 : Region6.edgeRows (V13 m ρ) c = eArr m c := W13_v9 m ρ c
  rw [e0, e1]

/-- The aggregate. -/
theorem W15_v46 (hr : SrcInRange m c) : W15 m ρ c (Proc.devRef .tc main_v46) = aggregate (gatherSrc m c) (scatterDst m c) (h2 m c) (eArr m c) := by
  have e : W15 m ρ c (Proc.devRef .tc main_v46)
      = Host.scatterAdd scatter_S100000x64_S1000000x1_S1000000x64_1_0_0_1
          (broadcastInDim S100000x64 ![] bcast_S_S100000x64 (constant (F := Ideal) S_ .f32 0x00000000#32))
          (broadcastInDim S1000000x1 ![0] bcast_S1000000_S1000000x1_0 (W14 m ρ c (Proc.devRef .tc main_v3)))
          (W14 m ρ c (Proc.devRef .tc main_v43)) := by
    show StableHlo.after (hostOps7 (F := Ideal)) (W14 m ρ c) (Proc.devRef .tc main_v46) = _
    after_results <;> rfl
  rw [e, W14_v3, W14_v43 m ρ c hr]
  rfl

/-- The round's first matrix. -/
theorem W15_v48 : W15 m ρ c (Proc.devRef .tc main_v48) = layerMat (m ((c : Thread nD τ).loc main_arg12)) (2 : Fin 3) := by
  refine Eq.trans ?_ (slice_mat (m ((c : Thread nD τ).loc main_arg12)) (2 : Fin 3) slices_S3x64x64_S1x64x64_2_0_0 shapeCasts_S1x64x64_S64x64)
  refine Eq.trans ?_ (congrArg (fun x => shapeCast S64x64 (extractStridedSlice S1x64x64 ![2, 0, 0] x slices_S3x64x64_S1x64x64_2_0_0)
    shapeCasts_S1x64x64_S64x64) (keep_arg12_14_0 m ρ c))
  show StableHlo.after (hostOps7 (F := Ideal)) (W14 m ρ c) (Proc.devRef .tc main_v48) = _
  after_results <;> rfl

/-- The round's second matrix. -/
theorem W15_v52 : W15 m ρ c (Proc.devRef .tc main_v52) = layerMat (m ((c : Thread nD τ).loc main_arg14)) (2 : Fin 3) := by
  refine Eq.trans ?_ (slice_mat (m ((c : Thread nD τ).loc main_arg14)) (2 : Fin 3) slices_S3x64x64_S1x64x64_2_0_0 shapeCasts_S1x64x64_S64x64)
  refine Eq.trans ?_ (congrArg (fun x => shapeCast S64x64 (extractStridedSlice S1x64x64 ![2, 0, 0] x slices_S3x64x64_S1x64x64_2_0_0)
    shapeCasts_S1x64x64_S64x64) (keep_arg14_14_0 m ρ c))
  show StableHlo.after (hostOps7 (F := Ideal)) (W14 m ρ c) (Proc.devRef .tc main_v52) = _
  after_results <;> rfl

/-- The round's first bias row. -/
theorem W15_v55 : W15 m ρ c (Proc.devRef .tc main_v55) = layerRow (m ((c : Thread nD τ).loc main_arg13)) (2 : Fin 3) := by
  refine Eq.trans ?_ (slice_row (m ((c : Thread nD τ).loc main_arg13)) (2 : Fin 3) slices_S3x64_S1x64_2_0 shapeCasts_S1x64_S64)
  refine Eq.trans ?_ (reshape_row _ shapeCasts_S64_S1x64)
  refine Eq.trans ?_ (congrArg (fun x => shapeCast S1x64 (shapeCast S64 (extractStridedSlice S1x64 ![2, 0] x slices_S3x64_S1x64_2_0)
    shapeCasts_S1x64_S64) shapeCasts_S64_S1x64) (keep_arg13_14_0 m ρ c))
  show StableHlo.after (hostOps7 (F := Ideal)) (W14 m ρ c) (Proc.devRef .tc main_v55) = _
  after_results <;> rfl

/-- The round's second bias row. -/
theorem W15_v56 : W15 m ρ c (Proc.devRef .tc main_v56) = layerRow (m ((c : Thread nD τ).loc main_arg15)) (2 : Fin 3) := by
  refine Eq.trans ?_ (slice_row (m ((c : Thread nD τ).loc main_arg15)) (2 : Fin 3) slices_S3x64_S1x64_2_0 shapeCasts_S1x64_S64)
  refine Eq.trans ?_ (reshape_row _ shapeCasts_S64_S1x64)
  refine Eq.trans ?_ (congrArg (fun x => shapeCast S1x64 (shapeCast S64 (extractStridedSlice S1x64 ![2, 0] x slices_S3x64_S1x64_2_0)
    shapeCasts_S1x64_S64) shapeCasts_S64_S1x64) (keep_arg15_14_0 m ρ c))
  show StableHlo.after (hostOps7 (F := Ideal)) (W14 m ρ c) (Proc.devRef .tc main_v56) = _
  after_results <;> rfl

/-- The node array the round leaves. -/
theorem W16_v57 (hr : SrcInRange m c) : W16 m ρ c (Proc.devRef .tc main_v57) = h3 m c := by
  refine (W16_arr m ρ c 6).trans ((Region7.value (V15 m ρ) c).trans ?_)
  have e0 : Region7.aggArr (V15 m ρ) c = aggregate (gatherSrc m c) (scatterDst m c) (h2 m c) (eArr m c) := W15_v46 m ρ c hr
  have e1 : Region7.hArr (V15 m ρ) c = h2 m c := (keep_v41_15_12 m ρ c).trans (W12_v41 m ρ c hr)
  have e2 : Region7.w0Arr (V15 m ρ) c = layerMat (m ((c : Thread nD τ).loc main_arg12)) (2 : Fin 3) := W15_v48 m ρ c
  have e3 : Region7.b0Arr (V15 m ρ) c = layerRow (m ((c : Thread nD τ).loc main_arg13)) (2 : Fin 3) := W15_v55 m ρ c
  have e4 : Region7.w1Arr (V15 m ρ) c = layerMat (m ((c : Thread nD τ).loc main_arg14)) (2 : Fin 3) := W15_v52 m ρ c
  have e5 : Region7.b1Arr (V15 m ρ) c = layerRow (m ((c : Thread nD τ).loc main_arg15)) (2 : Fin 3) := W15_v56 m ρ c
  rw [e0, e1, e2, e3, e4, e5]
  rfl

/-! ## What the next round finds -/

theorem W16_v1 : W16 m ρ c (Proc.devRef .tc main_v1) = edgeRow0 m c := (keep_v1_16_12 m ρ c).trans (W12_v1 m ρ c)
theorem W17_v9 : W17 m ρ c (Proc.devRef .tc main_v9) = eArr m c := (keep_v9_17_13 m ρ c).trans (W13_v9 m ρ c)
theorem W18_v3 : W18 m ρ c (Proc.devRef .tc main_v3) = edgeRow1 m c := (keep_v3_18_14 m ρ c).trans (W14_v3 m ρ c)

end Cert.KernelIdeal.Chain

end
-- ==== Proof.Region8.lean ====
import proofs.«412257_j64622077936096_2_alg».proof.Proof.Gen.KernelIdeal.Frame
import proofs.«412257_j64622077936096_2_alg».proof.Proof.Spec
import Idealize.ShloMosaic.Lib.Pipeline.Value
import Idealize.ShloMosaic.Lib.ValueIdx

set_option maxRecDepth 16384

noncomputable section

/-! # The message region: what the edge array holds after it

The region's grid has 100 points; point `t` reads rows `10000·t … 10000·t + 9999` of the gathered source rows and
of the edge rows, and writes the same rows of the output: entry by entry the rectified sum `max (a + e) 0`. The
100 blocks tile the million rows, so after the region the output array is `message` of the two input arrays as
the region found them. Stated at the region's entry contents `V`, whatever they are. -/

namespace Cert.KernelIdeal.Region8

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Gine

variable (V : (c : Dev nD) → (b : Ref sig .tc) → Buf (Elt Ideal) ((c : Thread nD τ).loc b))

/-- The gathered source rows and the edge rows as the region finds them. -/
abbrev srcRows (c : Dev nD) : S1000000x64.Idx → EReal := V c (Pipeline.arrRef spec8 0)
abbrev edgeRows (c : Dev nD) : S1000000x64.Idx → EReal := V c (Pipeline.arrRef spec8 1)

/-- Point `t`'s blocks of the two inputs. -/
abbrev srcBlk (c : Dev nD) (t : Fin cfg8.N) : Vec Ideal S10000x64 .f32 := iblk8 V c 0 t
abbrev edgeBlk (c : Dev nD) (t : Fin cfg8.N) : Vec Ideal S10000x64 .f32 := iblk8 V c 1 t

theorem hz : (![0, 0] : Fin 2 → Nat) = fun _ => 0 := funext fun a => by fin_cases a <;> rfl

/-- The body's one store, entry by entry: the rectified sum of the two loaded blocks. -/
theorem pay_apply (v0 v2 : Vec Ideal S10000x64 .f32) (p : Fin 10000) (q : Fin 64) :
    k8_pay1 (F := Ideal) v0 v2 (ix2 p q) = max (v0 (ix2 p q) + v2 (ix2 p q)) 0 := by
  unfold k8_pay1
  simp only [maximumf, addf, broadcast, Ideal.maximumf_def, Ideal.addf_def, shapeCast_self]
  exact congrArg _ Ideal.ofBits_zero_f32

/-- The three windows move together: block `t` of each is rows `10000·t …`, all 64 columns. -/
theorem idx_facts : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0 :=
  (by decide +kernel : ∀ t : Fin grid8.N, _)

/-- What point `t` writes back is its block of `message` of the two input arrays. -/
theorem flushed_eq (c : Dev nD) (t : Fin cfg8.N) :
    (dat8 V c).flushed 2 t = ((cfg8.win 2).blk t).view.read (Elt Ideal) (message (srcRows V c) (edgeRows V c)) := by
  show (cfg8.win 2).cut (grid8.coords t) ((dat8 V c).after 2 t) = _
  rw [after8_2]
  unfold out8_2
  rw [View.canon_unit_zero hz]
  simp only [View.ld_unit_zero (S := S10000x64) hz]
  obtain ⟨e0, e1, e2, e3, e4, e5⟩ := idx_facts t
  funext j
  obtain ⟨p, q, rfl⟩ : ∃ (p : Fin 10000) (q : Fin 64), j = ix2 p q := ⟨j 0, j 1, eq_ix2 j⟩
  show k8_pay1 (F := Ideal) (srcBlk V c t) (edgeBlk V c t) (ix2 p q) = _
  refine (pay_apply (srcBlk V c t) (edgeBlk V c t) p q).trans ?_
  show max (srcRows V c (((cfg8.win 0).blk t).view.emb (ix2 p q)) + edgeRows V c (((cfg8.win 1).blk t).view.emb (ix2 p q))) 0
     = max (srcRows V c (((cfg8.win 2).blk t).view.emb (ix2 p q)) + edgeRows V c (((cfg8.win 2).blk t).view.emb (ix2 p q))) 0
  have h0 : ((cfg8.win 0).blk t).view.emb (ix2 p q) = ((cfg8.win 2).blk t).view.emb (ix2 p q) := by
    funext a; apply Fin.ext
    match a with
    | ⟨0, _⟩ => show win8_0.index t (0 : Fin 2) * 10000 + 1 * p.val = win8_2.index t (0 : Fin 2) * 10000 + 1 * p.val; omega
    | ⟨1, _⟩ => show win8_0.index t (1 : Fin 2) * 64 + 1 * q.val = win8_2.index t (1 : Fin 2) * 64 + 1 * q.val; omega
  have h1 : ((cfg8.win 1).blk t).view.emb (ix2 p q) = ((cfg8.win 2).blk t).view.emb (ix2 p q) := by
    funext a; apply Fin.ext
    match a with
    | ⟨0, _⟩ => show win8_1.index t (0 : Fin 2) * 10000 + 1 * p.val = win8_2.index t (0 : Fin 2) * 10000 + 1 * p.val; omega
    | ⟨1, _⟩ => show win8_1.index t (1 : Fin 2) * 64 + 1 * q.val = win8_2.index t (1 : Fin 2) * 64 + 1 * q.val; omega
  rw [h0, h1]

/-- An index of the array is in point `t`'s block iff each coordinate is in the block's range on its axis. -/
theorem mem_blk (t : Fin cfg8.N) (i : S1000000x64.Idx) :
    i ∈ ((cfg8.win 2).blk t).view.set ↔ ∀ a : Fin 2, win8_2.index t a * S10000x64.size a ≤ (i a).val ∧ (i a).val < win8_2.index t a * S10000x64.size a + S10000x64.size a := by
  show i ∈ ((View.whole main_v59).slice (win8_2.rect t)).set ↔ _
  rw [View.set_slice_whole, Rect.mem_set_unit]
  exact Iff.rfl

/-- The blocks tile the array: row `r` is in the block of point `r / 10000`. -/
theorem cover (i : S1000000x64.Idx) : ∃ t : Fin cfg8.N, (cfg8.win 2).flush t = true ∧ i ∈ ((cfg8.win 2).blk t).view.set := by
  have hi0 : (i 0).val < 1000000 := (i 0).isLt
  have hi1 : (i 1).val < 64 := (i 1).isLt
  have hN : cfg8.N = 100 := N_8
  let t : Fin cfg8.N := ⟨(i 0).val / 10000, by rw [hN]; omega⟩
  obtain ⟨e0, e1, e2, e3, e4, e5⟩ := idx_facts t
  have e4' : win8_2.index t (0 : Fin 2) = (i 0).val / 10000 := e4
  refine ⟨t, flush8_2 t, ?_⟩
  rw [mem_blk]
  intro a
  match a with
  | ⟨0, _⟩ => show win8_2.index t (0 : Fin 2) * 10000 ≤ (i 0).val ∧ (i 0).val < win8_2.index t (0 : Fin 2) * 10000 + 10000; omega
  | ⟨1, _⟩ => show win8_2.index t (1 : Fin 2) * 64 ≤ (i 1).val ∧ (i 1).val < win8_2.index t (1 : Fin 2) * 64 + 64; omega

/-- After the region the output array is `message` of the two input arrays as the region found them. -/
theorem value (c : Dev nD) : (dat8 V c).arrAt 2 cfg8.N = message (srcRows V c) (edgeRows V c) :=
  (dat8 V c).arrAt_eq_of_cover 2 (message (srcRows V c) (edgeRows V c)) (fun t _ => flushed_eq V c t) cover

end Cert.KernelIdeal.Region8

end
-- ==== Proof.Region9.lean ====
import proofs.«412257_j64622077936096_2_alg».proof.Proof.Gen.KernelIdeal.Frame
import proofs.«412257_j64622077936096_2_alg».proof.Proof.Spec
import proofs.«412257_j64622077936096_2_alg».proof.Proof.LibPlainDot
import Idealize.ShloMosaic.Lib.Pipeline.Value
import Idealize.ShloMosaic.Lib.ValueIdx

set_option maxRecDepth 16384

noncomputable section

/-! # The last convolution's update region: what the node array holds after it

The region's grid has 20 points; point `t` reads the 5000 rows from row `5000·t` of the aggregate and of the node
array, and the whole of both weight matrices and both bias rows, and writes the same rows of the output. Row by
row: the two-layer stage of `agg + s · h`, where `s` is the self-loop weight (the float the program carries for
`1 + ε`, kept as its word: both programs carry the same word, so it is never evaluated); the last round adds no
residual and no rectifier after it. A row of the output depends on the same row of the two inputs only; the 20
blocks tile the 100000 rows. Stated at the region's entry contents `V`, whatever they are. -/

namespace Cert.KernelIdeal.Region9

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Gine
open scoped BigOperators

variable (V : (c : Dev nD) → (b : Ref sig .tc) → Buf (Elt Ideal) ((c : Thread nD τ).loc b))

/-- The self-loop weight, as the word the program carries. -/
abbrev selfWeight : EReal := Ideal.ofBits .f32 0x3F8CCCCD#32

/-- The six input arrays as the region finds them. -/
abbrev aggArr (c : Dev nD) : S100000x64.Idx → EReal := V c (Pipeline.arrRef spec9 0)
abbrev hArr (c : Dev nD) : S100000x64.Idx → EReal := V c (Pipeline.arrRef spec9 1)
abbrev w0Arr (c : Dev nD) : S64x64.Idx → EReal := V c (Pipeline.arrRef spec9 2)
abbrev b0Arr (c : Dev nD) : S1x64.Idx → EReal := V c (Pipeline.arrRef spec9 3)
abbrev w1Arr (c : Dev nD) : S64x64.Idx → EReal := V c (Pipeline.arrRef spec9 4)
abbrev b1Arr (c : Dev nD) : S1x64.Idx → EReal := V c (Pipeline.arrRef spec9 5)

/-- Point `t`'s blocks of the six inputs. -/
abbrev aggBlk (c : Dev nD) (t : Fin cfg9.N) : Vec Ideal S5000x64 .f32 := iblk9 V c 0 t
abbrev hBlk (c : Dev nD) (t : Fin cfg9.N) : Vec Ideal S5000x64 .f32 := iblk9 V c 1 t
abbrev w0Blk (c : Dev nD) (t : Fin cfg9.N) : Vec Ideal S64x64 .f32 := iblk9 V c 2 t
abbrev b0Blk (c : Dev nD) (t : Fin cfg9.N) : Vec Ideal S1x64 .f32 := iblk9 V c 3 t
abbrev w1Blk (c : Dev nD) (t : Fin cfg9.N) : Vec Ideal S64x64 .f32 := iblk9 V c 4 t
abbrev b1Blk (c : Dev nD) (t : Fin cfg9.N) : Vec Ideal S1x64 .f32 := iblk9 V c 5 t

theorem hz : (![0, 0] : Fin 2 → Nat) = fun _ => 0 := funext fun a => by fin_cases a <;> rfl

/-- A bias row broadcast down the tile's rows, at an entry: the row's entry in that column. -/
theorem bias_apply (b : Vec Ideal S1x64 .f32) (p : Fin 5000) (q : Fin 64) :
    broadcastTo S5000x64 b broadcasts_S1x64_S5000x64 (ix2 p q) = b (ix2 0 q) :=
  broadcastTo_apply b broadcasts_S1x64_S5000x64 (ix2 p q) (ix2 0 q) fun a => by
    match a with
    | ⟨0, _⟩ => rfl
    | ⟨1, _⟩ => rfl

/-- Either product of the body, at an entry: the sum over the 64 features. -/
theorem dot_apply (l : FVec Ideal S5000x64 .f32) (r : FVec Ideal S64x64 .f32) (p : Fin 5000) (q : Fin 64) :
    matmul (F := Ideal) dot_S5000x64_S64x64_S5000x64_1_0_0_1_n_n none (truncf .bf16 l bitsLt_bf16_f32) (truncf .bf16 r bitsLt_bf16_f32)
        (constant S5000x64 .f32 0x00000000#32) (ix2 p q)
      = ∑ k : Fin 64, l (ix2 p k) * r (ix2 k q) :=
  Cert.PlainDot.matmul_zero_apply (M := 5000) (K := 64) (N := 64) dot_S5000x64_S64x64_S5000x64_1_0_0_1_n_n rfl none
    (truncf .bf16 l bitsLt_bf16_f32) (truncf .bf16 r bitsLt_bf16_f32) (ix2 p q)

/-- The body's one store, entry by entry: the update of the tile's row. -/
theorem pay_apply (v0 v2 : Vec Ideal S5000x64 .f32) (v7 : Vec Ideal S64x64 .f32) (v10 : Vec Ideal S1x64 .f32) (v19 : Vec Ideal S64x64 .f32)
    (v22 : Vec Ideal S1x64 .f32) (p : Fin 5000) (q : Fin 64) :
    k9_pay1 (F := Ideal) v0 v2 v7 v10 v19 v22 (ix2 p q)
      = updateRow selfWeight (fun k => v0 (ix2 p k)) (fun k => v2 (ix2 p k)) v7 v10 v19 v22 q := by
  unfold k9_pay1 updateRow dense2Row affineRow
  simp only [addf, maximumf, broadcast, Ideal.addf_def, Ideal.maximumf_def, shapeCast_self]
  rw [show FloatOps.ofBits (F := Ideal) .f32 0x00000000#32 = (0 : EReal) from Ideal.ofBits_zero_f32]
  refine congrArg₂ (· + ·) ?_ (bias_apply v22 p q)
  refine (dot_apply _ v19 p q).trans ?_
  refine Finset.sum_congr rfl fun k _ => ?_
  refine congrArg₂ (· * ·) ?_ rfl
  show max (matmul (F := Ideal) dot_S5000x64_S64x64_S5000x64_1_0_0_1_n_n none
        (truncf (F := Ideal) .bf16 (fun i => v0 i + FloatOps.mulf (F := Ideal) (FloatOps.ofBits .f32 0x3F8CCCCD#32) (v2 i)) bitsLt_bf16_f32)
        (truncf (F := Ideal) .bf16 v7 bitsLt_bf16_f32)
        (constant S5000x64 .f32 0x00000000#32) (ix2 p k) + broadcastTo S5000x64 v10 broadcasts_S1x64_S5000x64 (ix2 p k))
      (0 : EReal) = _
  rw [dot_apply (fun i => v0 i + FloatOps.mulf (F := Ideal) (FloatOps.ofBits .f32 0x3F8CCCCD#32) (v2 i)) v7 p k, bias_apply v10 p k]
  rfl

/-- The two node-row windows and the output window move down the rows together, block `t` at rows `5000·t …`; the
    four parameter windows stay at their one block. -/
theorem idx_facts : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0
    ∧ win9_6.index t (0 : Fin 2) = t.val ∧ win9_6.index t (1 : Fin 2) = 0 :=
  (by decide +kernel : ∀ t : Fin grid9.N, _)

/-- What point `t` writes back is its block of the update of the six input arrays. -/
theorem flushed_eq (c : Dev nD) (t : Fin cfg9.N) :
    (dat9 V c).flushed 6 t = ((cfg9.win 6).blk t).view.read (Elt Ideal)
      (update selfWeight (aggArr V c) (hArr V c) (w0Arr V c) (b0Arr V c) (w1Arr V c) (b1Arr V c)) := by
  show (cfg9.win 6).cut (grid9.coords t) ((dat9 V c).after 6 t) = _
  rw [after9_6]
  unfold out9_6
  rw [View.canon_unit_zero hz]
  simp only [View.ld_unit_zero (S := S5000x64) hz, View.ld_unit_zero (S := S64x64) hz, View.ld_unit_zero (S := S1x64) hz]
  obtain ⟨e00, e01, e10, e11, e20, e21, e30, e31, e40, e41, e50, e51, e60, e61⟩ := idx_facts t
  have ht : t.val < 20 := by have h := t.isLt; have hN : cfg9.N = 20 := N_9; omega
  funext j
  obtain ⟨p, q, rfl⟩ : ∃ (p : Fin 5000) (q : Fin 64), j = ix2 p q := ⟨j 0, j 1, eq_ix2 j⟩
  show k9_pay1 (F := Ideal) (aggBlk V c t) (hBlk V c t) (w0Blk V c t) (b0Blk V c t) (w1Blk V c t) (b1Blk V c t) (ix2 p q) = _
  refine (pay_apply (aggBlk V c t) (hBlk V c t) (w0Blk V c t) (b0Blk V c t) (w1Blk V c t) (b1Blk V c t) p q).trans ?_
  -- the global row of the tile's row `p`
  let r : Fin 100000 := ⟨t.val * 5000 + p.val, by have := p.isLt; omega⟩
  have h6 : ((cfg9.win 6).blk t).view.emb (ix2 p q) = ix2 r q := by
    funext a; apply Fin.ext
    match a with
    | ⟨0, _⟩ => show win9_6.index t (0 : Fin 2) * 5000 + 1 * p.val = t.val * 5000 + p.val; omega
    | ⟨1, _⟩ => show win9_6.index t (1 : Fin 2) * 64 + 1 * q.val = q.val; omega
  have hagg : ∀ k : Fin 64, aggBlk V c t (ix2 p k) = aggArr V c (ix2 r k) := fun k => by
    show aggArr V c (((cfg9.win 0).blk t).view.emb (ix2 p k)) = _
    refine congrArg _ ?_
    funext a; apply Fin.ext
    match a with
    | ⟨0, _⟩ => show win9_0.index t (0 : Fin 2) * 5000 + 1 * p.val = t.val * 5000 + p.val; omega
    | ⟨1, _⟩ => show win9_0.index t (1 : Fin 2) * 64 + 1 * k.val = k.val; omega
  have hh : ∀ k : Fin 64, hBlk V c t (ix2 p k) = hArr V c (ix2 r k) := fun k => by
    show hArr V c (((cfg9.win 1).blk t).view.emb (ix2 p k)) = _
    refine congrArg _ ?_
    funext a; apply Fin.ext
    match a with
    | ⟨0, _⟩ => show win9_1.index t (0 : Fin 2) * 5000 + 1 * p.val = t.val * 5000 + p.val; omega
    | ⟨1, _⟩ => show win9_1.index t (1 : Fin 2) * 64 + 1 * k.val = k.val; omega
  have hw0 : w0Blk V c t = w0Arr V c := by
    funext y
    show w0Arr V c (((cfg9.win 2).blk t).view.emb y) = _
    refine congrArg _ ?_
    funext a; apply Fin.ext
    match a with
    | ⟨0, _⟩ => show win9_2.index t (0 : Fin 2) * 64 + 1 * (y 0).val = (y 0).val; omega
    | ⟨1, _⟩ => show win9_2.index t (1 : Fin 2) * 64 + 1 * (y 1).val = (y 1).val; omega
  have hb0 : b0Blk V c t = b0Arr V c := by
    funext y
    show b0Arr V c (((cfg9.win 3).blk t).view.emb y) = _
    refine congrArg _ ?_
    funext a; apply Fin.ext
    match a with
    | ⟨0, _⟩ => show win9_3.index t (0 : Fin 2) * 1 + 1 * (y 0).val = (y 0).val; omega
    | ⟨1, _⟩ => show win9_3.index t (1 : Fin 2) * 64 + 1 * (y 1).val = (y 1).val; omega
  have hw1 : w1Blk V c t = w1Arr V c := by
    funext y
    show w1Arr V c (((cfg9.win 4).blk t).view.emb y) = _
    refine congrArg _ ?_
    funext a; apply Fin.ext
    match a with
    | ⟨0, _⟩ => show win9_4.index t (0 : Fin 2) * 64 + 1 * (y 0).val = (y 0).val; omega
    | ⟨1, _⟩ => show win9_4.index t (1 : Fin 2) * 64 + 1 * (y 1).val = (y 1).val; omega
  have hb1 : b1Blk V c t = b1Arr V c := by
    funext y
    show b1Arr V c (((cfg9.win 5).blk t).view.emb y) = _
    refine congrArg _ ?_
    funext a; apply Fin.ext
    match a with
    | ⟨0, _⟩ => show win9_5.index t (0 : Fin 2) * 1 + 1 * (y 0).val = (y 0).val; omega
    | ⟨1, _⟩ => show win9_5.index t (1 : Fin 2) * 64 + 1 * (y 1).val = (y 1).val; omega
  show updateRow selfWeight (fun k => aggBlk V c t (ix2 p k)) (fun k => hBlk V c t (ix2 p k))
        (w0Blk V c t) (b0Blk V c t) (w1Blk V c t) (b1Blk V c t) q
     = update selfWeight (aggArr V c) (hArr V c) (w0Arr V c) (b0Arr V c) (w1Arr V c) (b1Arr V c) (((cfg9.win 6).blk t).view.emb (ix2 p q))
  rw [h6, hw0, hb0, hw1, hb1, funext hagg, funext hh]
  rfl

/-- An index of the array is in point `t`'s block iff each coordinate is in the block's range on its axis. -/
theorem mem_blk (t : Fin cfg9.N) (i : S100000x64.Idx) :
    i ∈ ((cfg9.win 6).blk t).view.set ↔ ∀ a : Fin 2, win9_6.index t a * S5000x64.size a ≤ (i a).val ∧ (i a).val < win9_6.index t a * S5000x64.size a + S5000x64.size a := by
  show i ∈ ((View.whole main_v65).slice (win9_6.rect t)).set ↔ _
  rw [View.set_slice_whole, Rect.mem_set_unit]
  exact Iff.rfl

/-- The blocks tile the array: row `r` is in the block of point `r / 5000`. -/
theorem cover (i : S100000x64.Idx) : ∃ t : Fin cfg9.N, (cfg9.win 6).flush t = true ∧ i ∈ ((cfg9.win 6).blk t).view.set := by
  have hi0 : (i 0).val < 100000 := (i 0).isLt
  have hi1 : (i 1).val < 64 := (i 1).isLt
  have hN : cfg9.N = 20 := N_9
  let t : Fin cfg9.N := ⟨(i 0).val / 5000, by rw [hN]; omega⟩
  obtain ⟨e00, e01, e10, e11, e20, e21, e30, e31, e40, e41, e50, e51, e60, e61⟩ := idx_facts t
  have e60' : win9_6.index t (0 : Fin 2) = (i 0).val / 5000 := e60
  refine ⟨t, flush9_6 t, ?_⟩
  rw [mem_blk]
  intro a
  match a with
  | ⟨0, _⟩ => show win9_6.index t (0 : Fin 2) * 5000 ≤ (i 0).val ∧ (i 0).val < win9_6.index t (0 : Fin 2) * 5000 + 5000; omega
  | ⟨1, _⟩ => show win9_6.index t (1 : Fin 2) * 64 ≤ (i 1).val ∧ (i 1).val < win9_6.index t (1 : Fin 2) * 64 + 64; omega

/-- After the region the output array is the update of the six input arrays as the region found them. -/
theorem value (c : Dev nD) :
    (dat9 V c).arrAt 6 cfg9.N
      = update selfWeight (aggArr V c) (hArr V c) (w0Arr V c) (b0Arr V c) (w1Arr V c) (b1Arr V c) :=
  (dat9 V c).arrAt_eq_of_cover 6 (update selfWeight (aggArr V c) (hArr V c) (w0Arr V c) (b0Arr V c) (w1Arr V c) (b1Arr V c))
    (fun t _ => flushed_eq V c t) cover

end Cert.KernelIdeal.Region9

end
-- ==== Proof.RoundLast.lean ====
import proofs.«412257_j64622077936096_2_alg».proof.Proof.Round2
import proofs.«412257_j64622077936096_2_alg».proof.Proof.Region8
import proofs.«412257_j64622077936096_2_alg».proof.Proof.Region9

set_option maxRecDepth 16384

noncomputable section

/-! # The kernel program's run, stage by stage: the last convolution, the pool, and the result

The last round finds the node array `h₃` of the three residual rounds. It gathers and forms messages as they do,
scatter-adds them to the target nodes, lays its two bias vectors out as rows, and updates every node with no residual
sum; its parameters are whole arguments. A last host stretch sums the node rows into their graphs: the result. Read
from the launch memory, the result buffer's final contents are the network's function of the arguments. -/

namespace Cert.KernelIdeal.Chain

open Idealize.ShloMosaic Idealize.ShloMosaic.TcCoe Idealize.SL.Sem Idealize.ShloMosaic.StableHlo
open Cert.KernelIdeal Cert.KernelIdeal.Gen
open Cert.KernelIdeal.Keeps Cert.KernelIdeal.Take Cert.Gine

variable (m : (ℓ : Loc nD τ sig) → Buf (Elt Ideal) ℓ) (ρ : Dev nD → PrngReg) (c : Dev nD)

/-- Read through the node array's typed reference, and written through the gathered rows', contents are unchanged. -/
theorem ofBuf_hbuf3 (e1 : main_v57.ty = ⟨S100000x64, .f32⟩) (e2 e3) (v : main_v57.ty.Contents (Elt Ideal)) :
    (StableHlo.TRef.of (sig := sig) main_v57 e1 e2 e3).ofBuf v = v := rfl
theorem toBuf_gbuf3 (e1 : main_v58.ty = ⟨S1000000x64, .f32⟩) (e2 e3) (v : (⟨S1000000x64, .f32⟩ : BufTy).Contents (Elt Ideal)) :
    (StableHlo.TRef.of (sig := sig) main_v58 e1 e2 e3).toBuf v = v := rfl

/-- The gathered source rows, as the stretch computes them: the filling gather of the node array at the source indices. -/
theorem W17_v58_fill : W17 m ρ c (Proc.devRef .tc main_v58)
      = takeFill (W16 m ρ c (Proc.devRef .tc main_v57)) (W16 m ρ c (Proc.devRef .tc main_v1)) := by
  show StableHlo.after (hostOps8 (F := Ideal)) (W16 m ρ c) (Proc.devRef .tc main_v58) = _
  after_results_simp
  simp only [ofBuf_toBuf]
  rw [toBuf_gbuf3, ofBuf_hbuf3]
  simp only [ofBuf_v1]
  unfold takeFill
  rfl

/-- The gathered source rows. -/
theorem W17_v58 (hr : SrcInRange m c) : W17 m ρ c (Proc.devRef .tc main_v58) = gatherSrc m c (h3 m c) := by
  rw [W17_v58_fill, W16_v57 m ρ c hr, W16_v1, takeFill_eq _ _ hr]
  rfl

/-- The messages. -/
theorem W18_v59 (hr : SrcInRange m c) : W18 m ρ c (Proc.devRef .tc main_v59) = message (gatherSrc m c (h3 m c)) (eArr m c) := by
  refine (W18_arr m ρ c 2).trans ((Region8.value (V17 m ρ) c).trans ?_)
  have e0 : Region8.srcRows (V17 m ρ) c = gatherSrc m c (h3 m c) := W17_v58 m ρ c hr
  have e1 : Region8.edgeRows (V17 m ρ) c = eArr m c := W17_v9 m ρ c
  rw [e0, e1]

/-- The aggregate. -/
theorem W19_v62 (hr : SrcInRange m c) :
    W19 m ρ c (Proc.devRef .tc main_v62) = aggregate (gatherSrc m c) (scatterDst m c) (h3 m c) (eArr m c) := by
  have e : W19 m ρ c (Proc.devRef .tc main_v62)
      = Host.scatterAdd scatter_S100000x64_S1000000x1_S1000000x64_1_0_0_1
          (broadcastInDim S100000x64 ![] bcast_S_S100000x64 (constant (F := Ideal) S_ .f32 0x00000000#32))
          (broadcastInDim S1000000x1 ![0] bcast_S1000000_S1000000x1_0 (W18 m ρ c (Proc.devRef .tc main_v3)))
          (W18 m ρ c (Proc.devRef .tc main_v59)) := by
    show StableHlo.after (hostOps9 (F := Ideal)) (W18 m ρ c) (Proc.devRef .tc main_v62) = _
    after_results <;> rfl
  rw [e, W18_v3, W18_v59 m ρ c hr]
  rfl

/-- The last round's two bias rows. -/
theorem W19_v63 : W19 m ρ c (Proc.devRef .tc main_v63) = asRow (m ((c : Thread nD τ).loc main_arg17)) := by
  refine Eq.trans ?_ (reshape_row (m ((c : Thread nD τ).loc main_arg17)) shapeCasts_S64_S1x64)
  refine Eq.trans ?_ (congrArg (fun x => shapeCast S1x64 x shapeCasts_S64_S1x64) (keep_arg17_18_0 m ρ c))
  show StableHlo.after (hostOps9 (F := Ideal)) (W18 m ρ c) (Proc.devRef .tc main_v63) = _
  after_results <;> rfl

theorem W19_v64 : W19 m ρ c (Proc.devRef .tc main_v64) = asRow (m ((c : Thread nD τ).loc main_arg19)) := by
  refine Eq.trans ?_ (reshape_row (m ((c : Thread nD τ).loc main_arg19)) shapeCasts_S64_S1x64)
  refine Eq.trans ?_ (congrArg (fun x => shapeCast S1x64 x shapeCasts_S64_S1x64) (keep_arg19_18_0 m ρ c))
  show StableHlo.after (hostOps9 (F := Ideal)) (W18 m ρ c) (Proc.devRef .tc main_v64) = _
  after_results <;> rfl

/-- The node array the last round leaves. -/
abbrev hLast : Nodes :=
  update selfWeight (aggregate (gatherSrc m c) (scatterDst m c) (h3 m c) (eArr m c)) (h3 m c)
    (m ((c : Thread nD τ).loc main_arg16)) (asRow (m ((c : Thread nD τ).loc main_arg17))) (m ((c : Thread nD τ).loc main_arg18)) (asRow (m ((c : Thread nD τ).loc main_arg19)))

theorem W20_v65 (hr : SrcInRange m c) : W20 m ρ c (Proc.devRef .tc main_v65) = hLast m c := by
  refine (W20_arr m ρ c 6).trans ((Region9.value (V19 m ρ) c).trans ?_)
  have e0 : Region9.aggArr (V19 m ρ) c = aggregate (gatherSrc m c) (scatterDst m c) (h3 m c) (eArr m c) := W19_v62 m ρ c hr
  have e1 : Region9.hArr (V19 m ρ) c = h3 m c := (keep_v57_19_16 m ρ c).trans (W16_v57 m ρ c hr)
  have e2 : Region9.w0Arr (V19 m ρ) c = (m ((c : Thread nD τ).loc main_arg16)) := keep_arg16_19_0 m ρ c
  have e3 : Region9.b0Arr (V19 m ρ) c = asRow (m ((c : Thread nD τ).loc main_arg17)) := W19_v63 m ρ c
  have e4 : Region9.w1Arr (V19 m ρ) c = (m ((c : Thread nD τ).loc main_arg18)) := keep_arg18_19_0 m ρ c
  have e5 : Region9.b1Arr (V19 m ρ) c = asRow (m ((c : Thread nD τ).loc main_arg19)) := W19_v64 m ρ c
  rw [e0, e1, e2, e3, e4, e5]

/-- The result buffer's final contents: the node rows summed into their graphs. -/
theorem W21_v68 (hr : SrcInRange m c) : W21 m ρ c (Proc.devRef .tc main_v68) = pool m c (hLast m c) := by
  have e : W21 m ρ c (Proc.devRef .tc main_v68)
      = Host.scatterAdd scatter_S512x64_S100000x1_S100000x64_1_0_0_1
          (broadcastInDim S512x64 ![] bcast_S_S512x64 (constant (F := Ideal) S_ .f32 0x00000000#32))
          (broadcastInDim S100000x1 ![0] bcast_S100000_S100000x1_0 (W20 m ρ c (Proc.devRef .tc main_arg3)))
          (W20 m ρ c (Proc.devRef .tc main_v65)) := by
    show StableHlo.after (hostOps10 (F := Ideal)) (W20 m ρ c) (Proc.devRef .tc main_v68) = _
    after_results <;> rfl
  rw [e, keep_arg3_20_0, W20_v65 m ρ c hr]
  rfl

/-- THE KERNEL PROGRAM'S RESULT: with every source index in range, the result buffer ends holding the network's
    function of the arguments' launch contents. -/
theorem result_eq (hr : SrcInRange m c) :
    W21 m ρ c (Proc.devRef .tc main_v68)
      = network selfWeight (gatherSrc m c) (scatterDst m c) (pool m c)
          (m ((c : Thread nD τ).loc main_arg0)) (m ((c : Thread nD τ).loc main_arg2))
          (m ((c : Thread nD τ).loc main_arg4)) (asRow (m ((c : Thread nD τ).loc main_arg5))) (m ((c : Thread nD τ).loc main_arg6)) (asRow (m ((c : Thread nD τ).loc main_arg7)))
          (m ((c : Thread nD τ).loc main_arg8)) (asRow (m ((c : Thread nD τ).loc main_arg9))) (m ((c : Thread nD τ).loc main_arg10)) (asRow (m ((c : Thread nD τ).loc main_arg11)))
          (m ((c : Thread nD τ).loc main_arg12)) (m ((c : Thread nD τ).loc main_arg13)) (m ((c : Thread nD τ).loc main_arg14)) (m ((c : Thread nD τ).loc main_arg15))
          (m ((c : Thread nD τ).loc main_arg16)) (asRow (m ((c : Thread nD τ).loc main_arg17))) (m ((c : Thread nD τ).loc main_arg18)) (asRow (m ((c : Thread nD τ).loc main_arg19))) :=
  W21_v68 m ρ c hr

end Cert.KernelIdeal.Chain

end
-- ==== Proof.RefValue.lean ====
import proofs.«412257_j64622077936096_2_alg».proof.Proof.Gen.ReferenceIdeal.Run
import proofs.«412257_j64622077936096_2_alg».proof.Proof.Gen.ReferenceIdeal.Read
import proofs.«412257_j64622077936096_2_alg».proof.Proof.Network
import proofs.«412257_j64622077936096_2_alg».proof.Proof.LibPlainDot
import proofs.«412257_j64622077936096_2_alg».proof.Proof.Layout
import Idealize.ShloMosaic.Lib.Pipeline.Value
import Idealize.ShloMosaic.Lib.ValueIdx
import Idealize.ShloMosaic.Lib.ValueLayout
import Idealize.ShloMosaic.Lib.StableHlo.Predicate

noncomputable section

/-! # The reference's result as the network's function of the arguments

The reference computes the network stage by stage on whole arrays. Its index-driven operations — the gather of
source rows at the wrapped source index, the scatter-add of messages to the target nodes, the scatter-add of node
rows to their graphs — are named here as functions of the integer arguments and are never opened; every other stage
is read entry by entry: a `dot_general` as the sum over the contracted axis, a bias as a broadcast row, a rectifier
as a maximum with zero. -/

namespace Cert.ReferenceIdeal.RefValue

open Cert.ReferenceIdeal Cert.ReferenceIdeal.Gen Cert.ReferenceIdeal.Value Cert.ReferenceIdeal.Read
open Idealize.ShloMosaic Idealize.ShloMosaic.TcCoe Idealize.ShloMosaic.ValueIdx Idealize.SL.Sem Cert.Gine
open scoped BigOperators

variable (m : (ℓ : Loc nD τ sig) → Buf (Elt Ideal) ℓ) (c : Dev nD)

/-- Row `r` of the edge index array, as a vector. -/
abbrev edgeRow0 : IVec S1000000 32 :=
  shapeCast S1000000 (extractStridedSlice S1x1000000 ![0, 0] (m ((c.tc : Thread nD τ).loc main_arg1)) slices_S2x1000000_S1x1000000_0_0) shapeCasts_S1x1000000_S1000000
abbrev edgeRow1 : IVec S1000000 32 :=
  shapeCast S1000000 (extractStridedSlice S1x1000000 ![1, 0] (m ((c.tc : Thread nD τ).loc main_arg1)) slices_S2x1000000_S1x1000000_1_0) shapeCasts_S1x1000000_S1000000

/-- The source index after the negative-index wrap, as the column the gather takes. -/
abbrev srcIdx : IVec S1000000x1 32 :=
  broadcastInDim S1000000x1 ![0] bcast_S1000000_S1000000x1_0
    (select (cmpi .slt (edgeRow0 m c) (broadcastInDim S1000000 ![] bcast_S_S1000000 (constantI S_ 32 0#32)))
      (addi (edgeRow0 m c) (broadcastInDim S1000000 ![] bcast_S_S1000000 (constantI S_ 32 100000#32))) (edgeRow0 m c))

/-- Node rows to edge rows: each edge's source row. -/
def gatherSrc : Nodes → Edges := fun h =>
  Host.gather gather_S100000x64_S1000000x1_S1000000x64_1_0_n_n_0_1_164 h (srcIdx m c)

/-- Edge rows summed into node rows: each edge's row added to its target node's. -/
def scatterDst : Edges → Nodes := fun u =>
  Host.scatterAdd scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 (edgeRow1 m c)) u

/-- Node rows summed into graph rows. -/
def pool : Nodes → Graphs := fun u =>
  Host.scatterAdd scatter_S512x64_S100000x1_S100000x64_1_0_0_1
    (broadcastInDim S512x64 ![] bcast_S_S512x64 (constant (F := Ideal) S_ .f32 0x00000000#32))
    (broadcastInDim S100000x1 ![0] bcast_S100000_S100000x1_0 (m ((c.tc : Thread nD τ).loc main_arg3))) u

/-! ## Whole-array operations read entry by entry -/

section Arrays

variable {M K : ℕ}

/-- A scalar splat reads the scalar everywhere. -/
theorem splat_apply {s : Shape} (hz : (⟨0, ![]⟩ : Shape).BroadcastsInDim s ![]) (b : BitVec 32) (j : s.Idx) :
    broadcastInDim s ![] hz (constant (F := Ideal) ⟨0, ![]⟩ .f32 b) j = Ideal.ofBits .f32 b :=
  broadcastInDim_apply ![] hz (constant (F := Ideal) ⟨0, ![]⟩ .f32 b) j ix0 (fun a => a.elim0)

/-- The rectifier: the maximum with the zero splat is the maximum with zero, entry by entry. -/
theorem relu_eq {s : Shape} (hz : (⟨0, ![]⟩ : Shape).BroadcastsInDim s ![]) (X : FVec Ideal s .f32) :
    maximumf X (broadcastInDim s ![] hz (constant (F := Ideal) ⟨0, ![]⟩ .f32 0x00000000#32)) = fun j => max (X j) 0 := by
  funext j
  rw [maximumf_apply, splat_apply, Ideal.ofBits_zero_f32]

/-- A row broadcast down `M` rows reads, at `(p, q)`, the row at `(0, q)`. -/
theorem rows_apply (h2 : (⟨2, ![1, 64]⟩ : Shape).BroadcastsInDim ⟨2, ![M, 64]⟩ ![0, 1])
    (r : (⟨2, ![1, 64]⟩ : Shape).Idx → EReal) (j : (⟨2, ![M, 64]⟩ : Shape).Idx) :
    broadcastInDim ⟨2, ![M, 64]⟩ ![0, 1] h2 r j = r (ix2 0 (j 1)) :=
  broadcastInDim_apply ![0, 1] h2 r j (ix2 0 (j 1)) (fun a => match a with
    | ⟨0, _⟩ => by show 0 = if (1 : Nat) = 1 then 0 else (j 0).val; rw [if_pos rfl]
    | ⟨1, _⟩ => by show (j 1).val = if (64 : Nat) = 1 then 0 else (j 1).val; rw [if_neg (by decide)])

/-- One dense layer on whole arrays: the product plus the broadcast bias row is `affineRow` at every entry. -/
theorem affine_eq (d : DotDims ⟨2, ![M, K]⟩ ⟨2, ![K, 64]⟩ ⟨2, ![M, 64]⟩) (hd : d = DotDims.plain M K 64)
    (h2 : (⟨2, ![1, 64]⟩ : Shape).BroadcastsInDim ⟨2, ![M, 64]⟩ ![0, 1])
    (y : FVec Ideal ⟨2, ![M, K]⟩ .f32) (w : FVec Ideal ⟨2, ![K, 64]⟩ .f32) (r : FVec Ideal ⟨2, ![1, 64]⟩ .f32) :
    addf (Host.dotGeneral d none y w) (broadcastInDim ⟨2, ![M, 64]⟩ ![0, 1] h2 r)
      = fun j => affineRow (fun k => y (ix2 (j 0) k)) w r (j 1) := by
  funext j
  rw [addf_apply, rows_apply]
  exact congrArg (· + r (ix2 0 (j 1))) (Cert.PlainDot.dotGeneral_apply d hd none _ y w j)

/-- Two dense layers with the rectifier between them, on whole arrays. -/
theorem dense2_eq (d1 : DotDims ⟨2, ![M, K]⟩ ⟨2, ![K, 64]⟩ ⟨2, ![M, 64]⟩) (hd1 : d1 = DotDims.plain M K 64)
    (d2 : DotDims ⟨2, ![M, 64]⟩ ⟨2, ![64, 64]⟩ ⟨2, ![M, 64]⟩) (hd2 : d2 = DotDims.plain M 64 64)
    (h2 : (⟨2, ![1, 64]⟩ : Shape).BroadcastsInDim ⟨2, ![M, 64]⟩ ![0, 1])
    (hz : (⟨0, ![]⟩ : Shape).BroadcastsInDim ⟨2, ![M, 64]⟩ ![])
    (y : FVec Ideal ⟨2, ![M, K]⟩ .f32) (w0 : FVec Ideal ⟨2, ![K, 64]⟩ .f32) (r0 : FVec Ideal ⟨2, ![1, 64]⟩ .f32)
    (w1 : FVec Ideal ⟨2, ![64, 64]⟩ .f32) (r1 : FVec Ideal ⟨2, ![1, 64]⟩ .f32) :
    addf (Host.dotGeneral d2 none
        (maximumf (addf (Host.dotGeneral d1 none y w0) (broadcastInDim ⟨2, ![M, 64]⟩ ![0, 1] h2 r0))
          (broadcastInDim ⟨2, ![M, 64]⟩ ![] hz (constant (F := Ideal) ⟨0, ![]⟩ .f32 0x00000000#32))) w1)
      (broadcastInDim ⟨2, ![M, 64]⟩ ![0, 1] h2 r1)
      = dense2 y w0 r0 w1 r1 := by
  rw [affine_eq d1 hd1, relu_eq, affine_eq d2 hd2]
  rfl

/-- The self-loop term: the aggregate plus the splat weight times the node rows. -/
theorem selfloop_eq {s : Shape} (hz : (⟨0, ![]⟩ : Shape).BroadcastsInDim s ![]) (b : BitVec 32) (agg h : FVec Ideal s .f32) :
    addf agg (mulf (broadcastInDim s ![] hz (constant (F := Ideal) ⟨0, ![]⟩ .f32 b)) h)
      = fun j => agg j + Ideal.ofBits .f32 b * h j := by
  funext j
  rw [addf_apply, mulf_apply, splat_apply]

end Arrays

/-! ## The reference's stages on whole arrays

Each lemma below reads one stretch of the reference, written over variables, as the network's function of the same
arrays. The zero array and the self-loop weight are scalar splats; the rectifier is the maximum with the zero array. -/

/-- An edge's message: the rectified sum of the gathered source row and the edge row. -/
theorem message_eq (a e : Edges) :
    maximumf (addf a e) (broadcastInDim S1000000x64 ![] bcast_S_S1000000x64 (constant (F := Ideal) S_ .f32 0x00000000#32))
      = message a e :=
  relu_eq bcast_S_S1000000x64 (addf a e)

/-- One round's aggregate: gather the source rows, form the messages, sum them into their target nodes. -/
theorem aggregate_eq (h : Nodes) (e : Edges) :
    Host.scatterAdd scatter_S100000x64_S1000000x1_S1000000x64_1_0_0_1
        (broadcastInDim S100000x64 ![] bcast_S_S100000x64 (constant (F := Ideal) S_ .f32 0x00000000#32))
        (broadcastInDim S1000000x1 ![0] bcast_S1000000_S1000000x1_0 (edgeRow1 m c))
        (maximumf (addf (Host.gather gather_S100000x64_S1000000x1_S1000000x64_1_0_n_n_0_1_164 h (srcIdx m c)) e)
          (broadcastInDim S1000000x64 ![] bcast_S_S1000000x64 (constant (F := Ideal) S_ .f32 0x00000000#32)))
      = aggregate (gatherSrc m c) (scatterDst m c) h e :=
  congrArg (scatterDst m c) (message_eq (gatherSrc m c h) e)

/-- A convolution's update: the two-layer stage of the aggregate plus the self-loop weight times the node rows. -/
theorem update_eq (agg h : FVec Ideal S100000x64 .f32) (w0 : FVec Ideal S64x64 .f32) (r0 : FVec Ideal S1x64 .f32)
    (w1 : FVec Ideal S64x64 .f32) (r1 : FVec Ideal S1x64 .f32) :
    addf (Host.dotGeneral dot_S100000x64_S64x64_S100000x64_1_0_0_1_n_n none
        (maximumf (addf (Host.dotGeneral dot_S100000x64_S64x64_S100000x64_1_0_0_1_n_n none
              (addf agg (mulf (broadcastInDim S100000x64 ![] bcast_S_S100000x64 (constant (F := Ideal) S_ .f32 0x3F8CCCCD#32)) h)) w0)
            (broadcastInDim S100000x64 ![0, 1] bcast_S1x64_S100000x64_0_1 r0))
          (broadcastInDim S100000x64 ![] bcast_S_S100000x64 (constant (F := Ideal) S_ .f32 0x00000000#32))) w1)
      (broadcastInDim S100000x64 ![0, 1] bcast_S1x64_S100000x64_0_1 r1)
      = update (Ideal.ofBits .f32 0x3F8CCCCD#32) agg h w0 r0 w1 r1 := by
  rw [selfloop_eq]
  exact dense2_eq (M := 100000) (K := 64) _ rfl _ rfl _ _ _ w0 r0 w1 r1

/-- A residual convolution: the rectified sum of the node rows and their update. -/
theorem residual_eq (h u : Nodes) :
    maximumf (addf h u) (broadcastInDim S100000x64 ![] bcast_S_S100000x64 (constant (F := Ideal) S_ .f32 0x00000000#32))
      = fun j => max (h j + u j) 0 :=
  relu_eq bcast_S_S100000x64 (addf h u)

/-- A residual round, as the reference writes it for round `l`: the round's matrices and biases are slices of the
    stacked parameters, the node rows `h` enter the gather, the self-loop term and the residual sum. -/
theorem round_eq (l : Fin 3) (h : FVec Ideal S100000x64 .f32) (e : FVec Ideal S1000000x64 .f32)
    (cw0 : FVec Ideal S3x64x64 .f32) (cb0 : FVec Ideal S3x64 .f32) (cw1 : FVec Ideal S3x64x64 .f32) (cb1 : FVec Ideal S3x64 .f32)
    (hs : S3x64x64.Slices ![l.val, 0, 0] S1x64x64) (hr : S3x64.Slices ![l.val, 0] S1x64) :
    maximumf (addf h
        (addf (Host.dotGeneral dot_S100000x64_S64x64_S100000x64_1_0_0_1_n_n none
            (maximumf (addf (Host.dotGeneral dot_S100000x64_S64x64_S100000x64_1_0_0_1_n_n none
                  (addf
                    (Host.scatterAdd scatter_S100000x64_S1000000x1_S1000000x64_1_0_0_1
                      (broadcastInDim S100000x64 ![] bcast_S_S100000x64 (constant (F := Ideal) S_ .f32 0x00000000#32))
                      (broadcastInDim S1000000x1 ![0] bcast_S1000000_S1000000x1_0 (edgeRow1 m c))
                      (maximumf (addf (Host.gather gather_S100000x64_S1000000x1_S1000000x64_1_0_n_n_0_1_164 h (srcIdx m c)) e)
                        (broadcastInDim S1000000x64 ![] bcast_S_S1000000x64 (constant (F := Ideal) S_ .f32 0x00000000#32))))
                    (mulf (broadcastInDim S100000x64 ![] bcast_S_S100000x64 (constant (F := Ideal) S_ .f32 0x3F8CCCCD#32)) h))
                  (shapeCast S64x64 (extractStridedSlice S1x64x64 ![l.val, 0, 0] cw0 hs) shapeCasts_S1x64x64_S64x64))
                (broadcastInDim S100000x64 ![0, 1] bcast_S1x64_S100000x64_0_1
                  (broadcastInDim S1x64 ![1] bcast_S64_S1x64_1
                    (shapeCast S64 (extractStridedSlice S1x64 ![l.val, 0] cb0 hr) shapeCasts_S1x64_S64))))
              (broadcastInDim S100000x64 ![] bcast_S_S100000x64 (constant (F := Ideal) S_ .f32 0x00000000#32)))
            (shapeCast S64x64 (extractStridedSlice S1x64x64 ![l.val, 0, 0] cw1 hs) shapeCasts_S1x64x64_S64x64))
          (broadcastInDim S100000x64 ![0, 1] bcast_S1x64_S100000x64_0_1
            (broadcastInDim S1x64 ![1] bcast_S64_S1x64_1
              (shapeCast S64 (extractStridedSlice S1x64 ![l.val, 0] cb1 hr) shapeCasts_S1x64_S64)))))
      (broadcastInDim S100000x64 ![] bcast_S_S100000x64 (constant (F := Ideal) S_ .f32 0x00000000#32))
      = round (Ideal.ofBits .f32 0x3F8CCCCD#32) (gatherSrc m c) (scatterDst m c) e
          (layerMat cw0 l) (layerRow cb0 l) (layerMat cw1 l) (layerRow cb1 l) h := by
  rw [aggregate_eq, update_eq, residual_eq, Cert.Gine.slice_mat cw0 l hs, Cert.Gine.slice_mat cw1 l hs,
    Cert.Gine.bcast_row, Cert.Gine.bcast_row, Cert.Gine.slice_row cb0 l hr, Cert.Gine.slice_row cb1 l hr]
  rfl

/-- The last convolution, as the reference writes it: no residual sum, its parameters whole arguments. -/
theorem last_eq (h : FVec Ideal S100000x64 .f32) (e : FVec Ideal S1000000x64 .f32)
    (lw0 : FVec Ideal S64x64 .f32) (lb0 : FVec Ideal S64 .f32) (lw1 : FVec Ideal S64x64 .f32) (lb1 : FVec Ideal S64 .f32) :
    addf (Host.dotGeneral dot_S100000x64_S64x64_S100000x64_1_0_0_1_n_n none
        (maximumf (addf (Host.dotGeneral dot_S100000x64_S64x64_S100000x64_1_0_0_1_n_n none
              (addf
                (Host.scatterAdd scatter_S100000x64_S1000000x1_S1000000x64_1_0_0_1
                  (broadcastInDim S100000x64 ![] bcast_S_S100000x64 (constant (F := Ideal) S_ .f32 0x00000000#32))
                  (broadcastInDim S1000000x1 ![0] bcast_S1000000_S1000000x1_0 (edgeRow1 m c))
                  (maximumf (addf (Host.gather gather_S100000x64_S1000000x1_S1000000x64_1_0_n_n_0_1_164 h (srcIdx m c)) e)
                    (broadcastInDim S1000000x64 ![] bcast_S_S1000000x64 (constant (F := Ideal) S_ .f32 0x00000000#32))))
                (mulf (broadcastInDim S100000x64 ![] bcast_S_S100000x64 (constant (F := Ideal) S_ .f32 0x3F8CCCCD#32)) h))
              lw0)
            (broadcastInDim S100000x64 ![0, 1] bcast_S1x64_S100000x64_0_1 (broadcastInDim S1x64 ![1] bcast_S64_S1x64_1 lb0)))
          (broadcastInDim S100000x64 ![] bcast_S_S100000x64 (constant (F := Ideal) S_ .f32 0x00000000#32)))
        lw1)
      (broadcastInDim S100000x64 ![0, 1] bcast_S1x64_S100000x64_0_1 (broadcastInDim S1x64 ![1] bcast_S64_S1x64_1 lb1))
      = update (Ideal.ofBits .f32 0x3F8CCCCD#32) (aggregate (gatherSrc m c) (scatterDst m c) h e) h lw0 (asRow lb0) lw1 (asRow lb1) := by
  rw [aggregate_eq, update_eq, Cert.Gine.bcast_row, Cert.Gine.bcast_row]

/-! ## The generated stages

The generated module names each stage as a function of the arguments it depends on. The two embeddings, the three
residual rounds (each a function of the previous round's node rows) and the last convolution are the stretches read
above; the wrapped source index every gather recomputes is the same function of the edge index array. -/

section Stages

variable (x0 : FVec Ideal S100000x32 .f32) (x2 : FVec Ideal S1000000x16 .f32)
  (x4 : FVec Ideal S32x64 .f32) (x5 : FVec Ideal S64 .f32) (x6 : FVec Ideal S64x64 .f32) (x7 : FVec Ideal S64 .f32)
  (x8 : FVec Ideal S16x64 .f32) (x9 : FVec Ideal S64 .f32) (x10 : FVec Ideal S64x64 .f32) (x11 : FVec Ideal S64 .f32)
  (x12 : FVec Ideal S3x64x64 .f32) (x13 : FVec Ideal S3x64 .f32) (x14 : FVec Ideal S3x64x64 .f32) (x15 : FVec Ideal S3x64 .f32)
  (x16 : FVec Ideal S64x64 .f32) (x17 : FVec Ideal S64 .f32) (x18 : FVec Ideal S64x64 .f32) (x19 : FVec Ideal S64 .f32)

/-- The node embedding. -/
theorem v12_eq : val_main_v12 (F := Ideal) x0 x4 x5 x6 x7 = dense2 x0 x4 (asRow x5) x6 (asRow x7) := by
  unfold val_main_v12 val_main_v11 val_main_v10 val_main_v9 val_main_v8 val_main_call0_v0 val_main_call0_cst val_main_v7
    val_main_v6 val_main_v5 val_main_v4
  rw [Cert.Gine.bcast_row, Cert.Gine.bcast_row]
  exact dense2_eq (M := 100000) (K := 32) _ rfl _ rfl _ _ x0 x4 (asRow x5) x6 (asRow x7)

/-- The edge embedding. -/
theorem v21_eq : val_main_v21 (F := Ideal) x2 x8 x9 x10 x11 = dense2 x2 x8 (asRow x9) x10 (asRow x11) := by
  unfold val_main_v21 val_main_v20 val_main_v19 val_main_v18 val_main_v17 val_main_call1_v0 val_main_call1_cst val_main_v16
    val_main_v15 val_main_v14 val_main_v13
  rw [Cert.Gine.bcast_row, Cert.Gine.bcast_row]
  exact dense2_eq (M := 1000000) (K := 16) _ rfl _ rfl _ _ x2 x8 (asRow x9) x10 (asRow x11)

/-- The first residual round, on the embeddings. -/
theorem v55_eq :
    val_main_v55 (F := Ideal) x0 (m ((c.tc : Thread nD τ).loc main_arg1)) x2 x4 x5 x6 x7 x8 x9 x10 x11 x12 x13 x14 x15
      = round (Ideal.ofBits .f32 0x3F8CCCCD#32) (gatherSrc m c) (scatterDst m c) (val_main_v21 (F := Ideal) x2 x8 x9 x10 x11)
          (layerMat x12 0) (layerRow x13 0) (layerMat x14 0) (layerRow x15 0) (val_main_v12 (F := Ideal) x0 x4 x5 x6 x7) :=
  round_eq m c 0 (val_main_v12 (F := Ideal) x0 x4 x5 x6 x7) (val_main_v21 (F := Ideal) x2 x8 x9 x10 x11) x12 x13 x14 x15
    slices_S3x64x64_S1x64x64_0_0_0 slices_S3x64_S1x64_0_0

/-- The second residual round, on the first's node rows. -/
theorem v89_eq :
    val_main_v89 (F := Ideal) x0 (m ((c.tc : Thread nD τ).loc main_arg1)) x2 x4 x5 x6 x7 x8 x9 x10 x11 x12 x13 x14 x15
      = round (Ideal.ofBits .f32 0x3F8CCCCD#32) (gatherSrc m c) (scatterDst m c) (val_main_v21 (F := Ideal) x2 x8 x9 x10 x11)
          (layerMat x12 1) (layerRow x13 1) (layerMat x14 1) (layerRow x15 1)
          (val_main_v55 (F := Ideal) x0 (m ((c.tc : Thread nD τ).loc main_arg1)) x2 x4 x5 x6 x7 x8 x9 x10 x11 x12 x13 x14 x15) :=
  round_eq m c 1 (val_main_v55 (F := Ideal) x0 (m ((c.tc : Thread nD τ).loc main_arg1)) x2 x4 x5 x6 x7 x8 x9 x10 x11 x12 x13 x14 x15)
    (val_main_v21 (F := Ideal) x2 x8 x9 x10 x11) x12 x13 x14 x15 slices_S3x64x64_S1x64x64_1_0_0 slices_S3x64_S1x64_1_0

/-- The third residual round, on the second's node rows. -/
theorem v123_eq :
    val_main_v123 (F := Ideal) x0 (m ((c.tc : Thread nD τ).loc main_arg1)) x2 x4 x5 x6 x7 x8 x9 x10 x11 x12 x13 x14 x15
      = round (Ideal.ofBits .f32 0x3F8CCCCD#32) (gatherSrc m c) (scatterDst m c) (val_main_v21 (F := Ideal) x2 x8 x9 x10 x11)
          (layerMat x12 2) (layerRow x13 2) (layerMat x14 2) (layerRow x15 2)
          (val_main_v89 (F := Ideal) x0 (m ((c.tc : Thread nD τ).loc main_arg1)) x2 x4 x5 x6 x7 x8 x9 x10 x11 x12 x13 x14 x15) :=
  round_eq m c 2 (val_main_v89 (F := Ideal) x0 (m ((c.tc : Thread nD τ).loc main_arg1)) x2 x4 x5 x6 x7 x8 x9 x10 x11 x12 x13 x14 x15)
    (val_main_v21 (F := Ideal) x2 x8 x9 x10 x11) x12 x13 x14 x15 slices_S3x64x64_S1x64x64_2_0_0 slices_S3x64_S1x64_2_0

/-- The last convolution, on the third round's node rows. -/
theorem v147_eq :
    val_main_v147 (F := Ideal) x0 (m ((c.tc : Thread nD τ).loc main_arg1)) x2 x4 x5 x6 x7 x8 x9 x10 x11 x12 x13 x14 x15 x16 x17 x18 x19
      = update (Ideal.ofBits .f32 0x3F8CCCCD#32)
          (aggregate (gatherSrc m c) (scatterDst m c)
            (val_main_v123 (F := Ideal) x0 (m ((c.tc : Thread nD τ).loc main_arg1)) x2 x4 x5 x6 x7 x8 x9 x10 x11 x12 x13 x14 x15)
            (val_main_v21 (F := Ideal) x2 x8 x9 x10 x11))
          (val_main_v123 (F := Ideal) x0 (m ((c.tc : Thread nD τ).loc main_arg1)) x2 x4 x5 x6 x7 x8 x9 x10 x11 x12 x13 x14 x15)
          x16 (asRow x17) x18 (asRow x19) :=
  last_eq m c (val_main_v123 (F := Ideal) x0 (m ((c.tc : Thread nD τ).loc main_arg1)) x2 x4 x5 x6 x7 x8 x9 x10 x11 x12 x13 x14 x15)
    (val_main_v21 (F := Ideal) x2 x8 x9 x10 x11) x16 x17 x18 x19

end Stages

/-- The reference's result is the network's function of its arguments. -/
theorem res_eq :
    res_out0 (F := Ideal) m c
      = network (Ideal.ofBits .f32 0x3F8CCCCD#32) (gatherSrc m c) (scatterDst m c) (pool m c)
          (m ((c.tc : Thread nD τ).loc main_arg0)) (m ((c.tc : Thread nD τ).loc main_arg2))
          (m ((c.tc : Thread nD τ).loc main_arg4)) (asRow (m ((c.tc : Thread nD τ).loc main_arg5))) (m ((c.tc : Thread nD τ).loc main_arg6)) (asRow (m ((c.tc : Thread nD τ).loc main_arg7)))
          (m ((c.tc : Thread nD τ).loc main_arg8)) (asRow (m ((c.tc : Thread nD τ).loc main_arg9))) (m ((c.tc : Thread nD τ).loc main_arg10)) (asRow (m ((c.tc : Thread nD τ).loc main_arg11)))
          (m ((c.tc : Thread nD τ).loc main_arg12)) (m ((c.tc : Thread nD τ).loc main_arg13)) (m ((c.tc : Thread nD τ).loc main_arg14)) (m ((c.tc : Thread nD τ).loc main_arg15))
          (m ((c.tc : Thread nD τ).loc main_arg16)) (asRow (m ((c.tc : Thread nD τ).loc main_arg17))) (m ((c.tc : Thread nD τ).loc main_arg18)) (asRow (m ((c.tc : Thread nD τ).loc main_arg19))) := by
  refine (val_main_v150_eq m c).trans ?_
  show pool m c (val_main_v147 (F := Ideal) _ _ _ _ _ _ _ _ _ _ _ _ _ _ _ _ _ _ _) = _
  rw [v147_eq m c, v123_eq m c, v89_eq m c, v55_eq m c, v12_eq, v21_eq]
  rfl

end Cert.ReferenceIdeal.RefValue

end
-- ==== Proof.PreRange.lean ====
import proofs.«412257_j64622077936096_2_alg».proof.Defs
import proofs.«412257_j64622077936096_2_alg».proof.Proof.Gen.Pre_finite_inputs
import Idealize.ShloMosaic.Lib.ReduceAll
import Idealize.ShloMosaic.Lib.StableHlo.Predicate
import Idealize.ShloMosaic.Lib.ValueIdx

noncomputable section

/-! # What the precondition says of the source indices

The precondition is a conjunction, printed as a chain of `and`s of one-bit scalars; its last two conjuncts say of
row 0 of the edge index array — the source index of every edge — that each entry is at least `-100000` and less
than `100000`, each as an `and`-reduction of a signed comparison against a broadcast constant. Read back: every source
index, as a signed integer, lies in `[-100000, 100000)`. -/

namespace Cert.Proof.PreRange

open Idealize.ShloMosaic Idealize.ShloMosaic.ValueIdx

variable [hP : Cert.Pre_finite_inputs.Facts]

/-- The source indices as the precondition forms them: row 0 of the edge index array, as a vector. -/
abbrev srcVec (a1 : IVec Cert.Pre_finite_inputs.S2x1000000 32) : IVec Cert.Pre_finite_inputs.S1000000 32 :=
  shapeCast Cert.Pre_finite_inputs.S1000000
    (extractStridedSlice Cert.Pre_finite_inputs.S1x1000000 ![0, 0] a1 Cert.Pre_finite_inputs.Facts.slices_S2x1000000_S1x1000000_0_0)
    Cert.Pre_finite_inputs.Facts.shapeCasts_S1x1000000_S1000000

/-- The scalar shape has one index, so an `and`-reduction over all axes has one result to read. -/
instance : Subsingleton Cert.Pre_finite_inputs.S_.Idx := ⟨fun a b => funext fun d => d.elim0⟩

/-- The lower bound's word `2³² - 100000`, read signed, is `-100000`. -/
theorem toInt_lo : (4294867296#32 : BitVec 32).toInt = -100000 := by decide

/-- The upper bound's word, read signed, is `100000`. -/
theorem toInt_hi : (100000#32 : BitVec 32).toInt = 100000 := by decide

/-- The last stretch of the conjunction alone: whatever the earlier conjuncts' bit and the last float operand are, if the
    stretch's result is 1 then its two outer `and`s give the two reductions' bits; each reduction being 1, every entry of the
    compared array is 1; and an entry of a signed comparison against a broadcast scalar constant compares the source
    index at that entry with the constant's word. -/
theorem range_of_part5 {F : FTy → Type} [FloatOps F] (a1 : IVec Cert.Pre_finite_inputs.S2x1000000 32)
    (v83 : IVec Cert.Pre_finite_inputs.S_ 1) (v84 : FVec F Cert.Pre_finite_inputs.S64 .f32)
    (c32 : FVec F Cert.Pre_finite_inputs.S_ .f32)
    (h : Cert.Pre_finite_inputs.fn_part5 (F := F) a1 v83 v84 c32 = (fun _ => 1#1))
    (j : Cert.Pre_finite_inputs.S1000000.Idx) :
    (-100000 : ℤ) ≤ (srcVec a1 j).toInt ∧ (srcVec a1 j).toInt < 100000 := by
  have h0 := congrFun h (fun d => d.elim0)
  dsimp only [Cert.Pre_finite_inputs.fn_part5] at h0
  obtain ⟨h1, h99⟩ := IntOp.andi_eq_one.1 h0
  obtain ⟨-, h93⟩ := IntOp.andi_eq_one.1 h1
  have ge : IntOp.cmpi .sge (srcVec a1 j) (4294867296#32) = 1#1 := Host.reduce_andi_all _ _ _ _ _ h93 j
  have lt : IntOp.cmpi .slt (srcVec a1 j) (100000#32) = 1#1 := Host.reduce_andi_all _ _ _ _ _ h99 j
  rw [IntOp.cmpi_sge, toInt_lo] at ge
  rw [IntOp.cmpi_slt, toInt_hi] at lt
  exact ⟨ge, lt⟩

/-- Under the precondition every source index lies in `[-100000, 100000)`: the whole conjunction unfolds to its last
    stretch applied to the edge index array, the earlier conjuncts' bit and the last float operand. -/
theorem src_range (m : (ℓ : Loc Cert.KernelIdeal.nD Cert.KernelIdeal.τ Cert.KernelIdeal.sig) → Buf (Elt Ideal) ℓ)
    (hpre : Cert.Pre_KernelIdeal m) (c : Dev Cert.KernelIdeal.nD) (j : Cert.Pre_finite_inputs.S1000000.Idx) :
    (-100000 : ℤ) ≤ (srcVec (m ((c.tc : Thread Cert.KernelIdeal.nD Cert.KernelIdeal.τ).loc Cert.KernelIdeal.main_arg1)) j).toInt
    ∧ (srcVec (m ((c.tc : Thread Cert.KernelIdeal.nD Cert.KernelIdeal.τ).loc Cert.KernelIdeal.main_arg1)) j).toInt < 100000 :=
  range_of_part5 (F := Ideal) _ _ _ _ (hpre c) j

end Cert.Proof.PreRange

end
-- ==== Proof.Bridge.lean ====
import proofs.«412257_j64622077936096_2_alg».proof.Proof.RoundLast
import proofs.«412257_j64622077936096_2_alg».proof.Proof.RefValue
import proofs.«412257_j64622077936096_2_alg».proof.Proof.PreRange

set_option maxRecDepth 16384

noncomputable section

/-! # Both programs' results are one function of the twenty arguments

`net20` is the network as a function of the twenty argument arrays alone: the three index-driven operations are formed
from the edge index array and the graph index array, the bias vectors enter as rows. The kernel program's result buffer
ends at `net20` of its arguments (when every source index is in range), the reference's result is `net20` of its
arguments; so from memories that agree on the arguments the two results are equal. The two programs name their shapes,
dimension records and side conditions separately; they are the same shapes and records, so each program's own spelling
of the three operations is the other's by unfolding. -/

namespace Cert.Proof.Bridge

open Idealize.ShloMosaic Idealize.ShloMosaic.TcCoe Idealize.SL.Sem
open Cert.KernelIdeal Cert.KernelIdeal.Gen Cert.KernelIdeal.Take Cert.Gine

/-- Row `0` and row `1` of an edge index array, as vectors. -/
abbrev row0 (a1 : IVec S2x1000000 32) : IVec S1000000 32 :=
  shapeCast S1000000 (extractStridedSlice S1x1000000 ![0, 0] a1 slices_S2x1000000_S1x1000000_0_0) shapeCasts_S1x1000000_S1000000
abbrev row1 (a1 : IVec S2x1000000 32) : IVec S1000000 32 :=
  shapeCast S1000000 (extractStridedSlice S1x1000000 ![1, 0] a1 slices_S2x1000000_S1x1000000_1_0) shapeCasts_S1x1000000_S1000000

/-- The network as a function of the twenty argument arrays. -/
def net20 (a0 : FVec Ideal S100000x32 .f32) (a1 : IVec S2x1000000 32) (a2 : FVec Ideal S1000000x16 .f32) (a3 : IVec S100000 32) (a4 : FVec Ideal S32x64 .f32) (a5 : FVec Ideal S64 .f32) (a6 : FVec Ideal S64x64 .f32) (a7 : FVec Ideal S64 .f32) (a8 : FVec Ideal S16x64 .f32) (a9 : FVec Ideal S64 .f32) (a10 : FVec Ideal S64x64 .f32) (a11 : FVec Ideal S64 .f32) (a12 : FVec Ideal S3x64x64 .f32) (a13 : FVec Ideal S3x64 .f32) (a14 : FVec Ideal S3x64x64 .f32) (a15 : FVec Ideal S3x64 .f32) (a16 : FVec Ideal S64x64 .f32) (a17 : FVec Ideal S64 .f32) (a18 : FVec Ideal S64x64 .f32) (a19 : FVec Ideal S64 .f32) : Graphs :=
  network (Ideal.ofBits .f32 0x3F8CCCCD#32)
    (fun h => gatherRows h (row0 a1))
    (fun u => Host.scatterAdd scatter_S100000x64_S1000000x1_S1000000x64_1_0_0_1
      (broadcastInDim S100000x64 ![] bcast_S_S100000x64 (constant (F := Ideal) S_ .f32 0x00000000#32))
      (broadcastInDim S1000000x1 ![0] bcast_S1000000_S1000000x1_0 (row1 a1)) u)
    (fun u => Host.scatterAdd scatter_S512x64_S100000x1_S100000x64_1_0_0_1
      (broadcastInDim S512x64 ![] bcast_S_S512x64 (constant (F := Ideal) S_ .f32 0x00000000#32))
      (broadcastInDim S100000x1 ![0] bcast_S100000_S100000x1_0 a3) u)
    a0 a2 a4 (asRow a5) a6 (asRow a7) a8 (asRow a9) a10 (asRow a11) a12 a13 a14 a15 a16 (asRow a17) a18 (asRow a19)

/-- The kernel program's result buffer ends at `net20` of its arguments, every source index being in range. -/
theorem kernel_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) (hr : Cert.KernelIdeal.Chain.SrcInRange m c) :
    W21 m ρ c (Proc.devRef .tc main_v68) = net20 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) :=
  Cert.KernelIdeal.Chain.result_eq m ρ c hr

/-- The reference's result is `net20` of its arguments. -/
theorem ref_eq (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_out0 (F := Ideal) m' c = net20 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) :=
  Cert.ReferenceIdeal.RefValue.res_eq m' c

/-- What the precondition gives the kernel's run: every source index in range. -/
theorem src_in_range [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.Chain.SrcInRange m c :=
  fun j => Cert.Proof.PreRange.src_range m hpre c j

end Cert.Proof.Bridge

end
-- ==== Proof.lean ====
/- A GINE message-passing network (node and edge embeddings, three residual convolutions, a last convolution, a sum
   pool) as a program of ten tiled kernels with host gathers and scatter-adds between them, against its plain
   reference: equal results over the extended reals.

   On the extended reals a change of float format is the identity and a matrix product into a zero accumulator is the sum
   over the contracted axis, so each dense kernel computes, row by row, what the reference computes on whole arrays;
   a tile of rows of the output depends on the same rows of the input only, so the tiling does not matter. The
   edge-message kernel is the rectified sum entry by entry. The gather of source rows, the scatter-add of messages
   and the pool are the same library operations in both programs on the same integer arguments: they are carried as
   three named functions and never opened. No law of arithmetic joins the two sides beyond that: the float part of
   the precondition is not used.

   The one difference is the gather. The kernel program's gather FILLS: it keeps the gathered row where the wrapped
   source index passes a range test and a fill word elsewhere, while the reference's gather clamps. The statement
   therefore carries, beside finiteness, that every source index lies in `[-100000, 100000)` (outside it the reference
   itself indexes out of range); under it the range test holds at every edge and the filling gather is the plain one.

   Modules: Spec, Network (the stages and the network as functions), Layout (bias rows, per-round parameters),
   TakeWord, Take (the filling gather), Region0 … Region9 (each kernel's output array as its stage of its input arrays),
   KeepsA … KeepsC (buffers the run leaves alone between two boundaries), KernelRun (the kernel program's run with the
   result buffer's final contents kept), ChainBase, Round0 … Round2, RoundLast (the run read stage by stage: the
   result buffer ends at the network of the arguments), RefValue (the reference's result is the network of its
   arguments), PreRange (the source-index range read off the precondition), Bridge (both are one function of the
   twenty arguments). -/
import proofs.«412257_j64622077936096_2_alg».proof.Defs
import proofs.«412257_j64622077936096_2_alg».proof.Proof.Gen.Kernel
import proofs.«412257_j64622077936096_2_alg».proof.Proof.Gen.Kernel.Frame
import proofs.«412257_j64622077936096_2_alg».proof.Proof.Gen.KernelIdeal
import proofs.«412257_j64622077936096_2_alg».proof.Proof.Gen.KernelIdeal.Frame
import proofs.«412257_j64622077936096_2_alg».proof.Proof.Gen.ReferenceIdeal
import proofs.«412257_j64622077936096_2_alg».proof.Proof.Gen.ReferenceIdeal.Run
import proofs.«412257_j64622077936096_2_alg».proof.Proof.Gen.Pre_finite_inputs
import proofs.«412257_j64622077936096_2_alg».proof.Proof.KernelRun
import proofs.«412257_j64622077936096_2_alg».proof.Proof.Bridge
import Idealize.ShloMosaic.Adequacy
import Idealize.ShloMosaic.Init

noncomputable section

namespace Cert.Proof

open Idealize.ShloMosaic Idealize.SL.Sem

/-- The word-level kernel program runs, faults nowhere and leaves its arguments as launched. -/
theorem frame_k : @Cert.frame_Kernel Cert.Kernel.Gen.facts Cert.Pre_finite_inputs.Gen.facts :=
  fun m ρ _ => Cert.Kernel.Gen.frame m ρ

/-- So does the idealized kernel program. -/
theorem frame_ki : @Cert.frame_KernelIdeal Cert.KernelIdeal.Gen.facts Cert.Pre_finite_inputs.Gen.facts :=
  fun m ρ _ => Cert.KernelIdeal.Gen.frame m ρ

/-- So does the idealized reference: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From memories that agree on the twenty arguments, under the precondition, both idealized programs end with the
    result buffer at `net20` of the kernel program's arguments. -/
theorem algebraic : @Cert.algebraic_KernelIdeal_ReferenceIdeal Cert.KernelIdeal.Gen.facts Cert.ReferenceIdeal.Gen.facts
    Cert.Pre_finite_inputs.Gen.facts := by
  intro m g m' g' hpre hagree
  refine ⟨fun c => Bridge.net20 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)), ?_, ?_⟩
  · exact (θ_run Cert.KernelIdeal.defs _ _).mono
      (fun r h c => ⟨(h c).1.trans (Bridge.kernel_eq m g c (Bridge.src_in_range m hpre c)), (h c).2⟩)
      (Cert.KernelIdeal.ValueRun.run_result (F := Ideal) m g)
  · refine (θ_run Cert.ReferenceIdeal.defs _ _).mono (fun r h c => ⟨(h c).1.trans ?_, (h c).2⟩)
      (Cert.ReferenceIdeal.Value.run (F := Ideal) m' g')
    refine (Bridge.ref_eq m' c).trans ?_
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
